-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x640x640 : Shape := ⟨4, ![16, 4, 640, 640]⟩
abbrev S16x640x640 : Shape := ⟨3, ![16, 640, 640]⟩
abbrev S_ : Shape := ⟨0, ![]⟩

class Facts : Prop where
  bcast_S_S16x4x640x640 : S_.BroadcastsInDim S16x4x640x640 (![] : Fin 0 → Fin S16x4x640x640.rank)
  reducesTo_S16x4x640x640_S_d0_1_2_3 : S16x4x640x640.ReducesTo [0, 1, 2, 3] S_
  h_S_ : 0 < S_.numel
  bcast_S_S16x640x640 : S_.BroadcastsInDim S16x640x640 (![] : Fin 0 → Fin S16x640x640.rank)
  reducesTo_S16x640x640_S_d0_1_2 : S16x640x640.ReducesTo [0, 1, 2] S_

variable [Facts]

def fn_part1 {F : FTy → Type} [FloatOps F] (main_arg3 : IVec S16x640x640 32) (main_arg4 : IVec S16x640x640 32) (main_v13 : IVec S_ 1) (main_v15 : IVec S16x640x640 1) (main_c_5 : IVec S_ 32) : IVec S_ 1 :=
  let main_v16 : IVec S16x640x640 32 := broadcastInDim S16x640x640 ![] bcast_S_S16x640x640 main_c_5
  let main_v17 : IVec S16x640x640 1 := cmpi .sle main_arg3 main_v16
  let main_v18 : IVec S16x640x640 1 := andi main_v15 main_v17
  let main_c_6 : IVec S_ 1 := constantI S_ 1 1#1
  let main_v19 : IVec S_ 1 := (fun x v => Host.reduce IntOp.andi x v reducesTo_S16x640x640_S_d0_1_2 h_S_) main_v18 main_c_6
  let main_v20 : IVec S_ 1 := andi main_v13 main_v19
  let main_c_7 : IVec S_ 32 := constantI S_ 32 0#32
  let main_v21 : IVec S16x640x640 32 := broadcastInDim S16x640x640 ![] bcast_S_S16x640x640 main_c_7
  let main_v22 : IVec S16x640x640 1 := cmpi .sge main_arg4 main_v21
  let main_c_8 : IVec S_ 32 := constantI S_ 32 8#32
  let main_v23 : IVec S16x640x640 32 := broadcastInDim S16x640x640 ![] bcast_S_S16x640x640 main_c_8
  let main_v24 : IVec S16x640x640 1 := cmpi .sle main_arg4 main_v23
  let main_v25 : IVec S16x640x640 1 := andi main_v22 main_v24
  let main_c_9 : IVec S_ 1 := constantI S_ 1 1#1
  let main_v26 : IVec S_ 1 := (fun x v => Host.reduce IntOp.andi x v reducesTo_S16x640x640_S_d0_1_2 h_S_) main_v25 main_c_9
  let main_v27 : IVec S_ 1 := andi main_v20 main_v26
  main_v27

def fn {F : FTy → Type} [FloatOps F] (main_arg0 : FVec F S16x4x640x640 .f32) (main_arg1 : FVec F S16x640x640 .f32) (main_arg2 : FVec F S16x640x640 .f32) (main_arg3 : IVec S16x640x640 32) (main_arg4 : IVec S16x640x640 32) : IVec S_ 1 :=
  let main_v0 : FVec F S16x4x640x640 .f32 := Host.absf main_arg0
  let main_cst : FVec F S_ .f32 := constant S_ .f32 0x7F800000#32
  let main_v1 : FVec F S16x4x640x640 .f32 := broadcastInDim S16x4x640x640 ![] bcast_S_S16x4x640x640 main_cst
  let main_v2 : IVec S16x4x640x640 1 := cmpf .olt main_v0 main_v1
  let main_c : IVec S_ 1 := constantI S_ 1 1#1
  let main_v3 : IVec S_ 1 := (fun x v => Host.reduce IntOp.andi x v reducesTo_S16x4x640x640_S_d0_1_2_3 h_S_) main_v2 main_c
  let main_v4 : FVec F S16x640x640 .f32 := Host.absf main_arg1
  let main_cst_0 : FVec F S_ .f32 := constant S_ .f32 0x7F800000#32
  let main_v5 : FVec F S16x640x640 .f32 := broadcastInDim S16x640x640 ![] bcast_S_S16x640x640 main_cst_0
  let main_v6 : IVec S16x640x640 1 := cmpf .olt main_v4 main_v5
  let main_c_1 : IVec S_ 1 := constantI S_ 1 1#1
  let main_v7 : IVec S_ 1 := (fun x v => Host.reduce IntOp.andi x v reducesTo_S16x640x640_S_d0_1_2 h_S_) main_v6 main_c_1
  let main_v8 : IVec S_ 1 := andi main_v3 main_v7
  let main_v9 : FVec F S16x640x640 .f32 := Host.absf main_arg2
  let main_cst_2 : FVec F S_ .f32 := constant S_ .f32 0x7F800000#32
  let main_v10 : FVec F S16x640x640 .f32 := broadcastInDim S16x640x640 ![] bcast_S_S16x640x640 main_cst_2
  let main_v11 : IVec S16x640x640 1 := cmpf .olt main_v9 main_v10
  let main_c_3 : IVec S_ 1 := constantI S_ 1 1#1
  let main_v12 : IVec S_ 1 := (fun x v => Host.reduce IntOp.andi x v reducesTo_S16x640x640_S_d0_1_2 h_S_) main_v11 main_c_3
  let main_v13 : IVec S_ 1 := andi main_v8 main_v12
  let main_c_4 : IVec S_ 32 := constantI S_ 32 0#32
  let main_v14 : IVec S16x640x640 32 := broadcastInDim S16x640x640 ![] bcast_S_S16x640x640 main_c_4
  let main_v15 : IVec S16x640x640 1 := cmpi .sge main_arg3 main_v14
  let main_c_5 : IVec S_ 32 := constantI S_ 32 8#32
  fn_part1 (F := F) main_arg3 main_arg4 main_v13 main_v15 main_c_5
-- ==== Kernel.lean ====
abbrev S16x4x640x640 : Shape := ⟨4, ![16, 4, 640, 640]⟩
abbrev S16x640x640 : Shape := ⟨3, ![16, 640, 640]⟩
abbrev S16x4x409600 : Shape := ⟨3, ![16, 4, 409600]⟩
abbrev S16x1x409600 : Shape := ⟨3, ![16, 1, 409600]⟩
abbrev S16x16x128 : Shape := ⟨3, ![16, 16, 128]⟩
abbrev S1x4x51200 : Shape := ⟨3, ![1, 4, 51200]⟩
abbrev S1x1x51200 : Shape := ⟨3, ![1, 1, 51200]⟩
abbrev S1x16x128 : Shape := ⟨3, ![1, 16, 128]⟩
abbrev S16x128 : Shape := ⟨2, ![16, 128]⟩
abbrev S4x51200 : Shape := ⟨2, ![4, 51200]⟩
abbrev S51200 : Shape := ⟨1, ![51200]⟩
abbrev S1x51200 : Shape := ⟨2, ![1, 51200]⟩
abbrev S3x51200 : Shape := ⟨2, ![3, 51200]⟩
abbrev S16x51200 : Shape := ⟨2, ![16, 51200]⟩
abbrev S16x3 : Shape := ⟨2, ![16, 3]⟩
abbrev S16x1 : Shape := ⟨2, ![16, 1]⟩
abbrev S16x5 : Shape := ⟨2, ![16, 5]⟩
abbrev S16x9x5 : Shape := ⟨3, ![16, 9, 5]⟩
abbrev S16x9x1 : Shape := ⟨3, ![16, 9, 1]⟩
abbrev S16x9 : Shape := ⟨2, ![16, 9]⟩
abbrev S_ : Shape := ⟨0, ![]⟩
abbrev S9 : Shape := ⟨1, ![9]⟩
abbrev S1x9 : Shape := ⟨2, ![1, 9]⟩

abbrev nBuf : Space → Nat
  | .hbm => 80
  | .vmem => 9
  | .smem => 0
  | _ => 0

abbrev bufTy : (tb : Table) → Fin (tcTables nBuf tb) → BufTy
  | .hbm, ⟨0, _⟩ => ⟨S16x4x640x640, .f32⟩
  | .hbm, ⟨1, _⟩ => ⟨S16x640x640, .f32⟩
  | .hbm, ⟨2, _⟩ => ⟨S16x640x640, .f32⟩
  | .hbm, ⟨3, _⟩ => ⟨S16x640x640, .i32⟩
  | .hbm, ⟨4, _⟩ => ⟨S16x640x640, .i32⟩
  | .hbm, ⟨5, _⟩ => ⟨S16x4x409600, .f32⟩
  | .hbm, ⟨6, _⟩ => ⟨S16x1x409600, .i32⟩
  | .hbm, ⟨7, _⟩ => ⟨S16x1x409600, .i32⟩
  | .hbm, ⟨8, _⟩ => ⟨S16x16x128, .f32⟩
  | .hbm, ⟨9, _⟩ => ⟨S16x9x5, .f32⟩
  | .hbm, ⟨10, _⟩ => ⟨S16x9x1, .f32⟩
  | .hbm, ⟨11, _⟩ => ⟨S16x9, .f32⟩
  | .hbm, ⟨12, _⟩ => ⟨S16x9x1, .f32⟩
  | .hbm, ⟨13, _⟩ => ⟨S16x9, .f32⟩
  | .hbm, ⟨14, _⟩ => ⟨S16x9x1, .f32⟩
  | .hbm, ⟨15, _⟩ => ⟨S16x9, .f32⟩
  | .hbm, ⟨16, _⟩ => ⟨S16x9x1, .f32⟩
  | .hbm, ⟨17, _⟩ => ⟨S16x9, .f32⟩
  | .hbm, ⟨18, _⟩ => ⟨S16x9x1, .f32⟩
  | .hbm, ⟨19, _⟩ => ⟨S16x9, .f32⟩
  | .hbm, ⟨20, _⟩ => ⟨S_, .f32⟩
  | .hbm, ⟨21, _⟩ => ⟨S16x9, .f32⟩
  | .hbm, ⟨22, _⟩ => ⟨S16x9, .i1⟩
  | .hbm, ⟨23, _⟩ => ⟨S_, .f32⟩
  | .hbm, ⟨24, _⟩ => ⟨S_, .f32⟩
  | .hbm, ⟨25, _⟩ => ⟨S16x9, .f32⟩
  | .hbm, ⟨26, _⟩ => ⟨S16x9, .f32⟩
  | .hbm, ⟨27, _⟩ => ⟨S_, .f32⟩
  | .hbm, ⟨28, _⟩ => ⟨S16x9, .f32⟩
  | .hbm, ⟨29, _⟩ => ⟨S16x9, .i1⟩
  | .hbm, ⟨30, _⟩ => ⟨S_, .f32⟩
  | .hbm, ⟨31, _⟩ => ⟨S_, .f32⟩
  | .hbm, ⟨32, _⟩ => ⟨S16x9, .f32⟩
  | .hbm, ⟨33, _⟩ => ⟨S16x9, .f32⟩
  | .hbm, ⟨34, _⟩ => ⟨S16x9, .f32⟩
  | .hbm, ⟨35, _⟩ => ⟨S16x9, .f32⟩
  | .hbm, ⟨36, _⟩ => ⟨S16x9, .f32⟩
  | .hbm, ⟨37, _⟩ => ⟨S_, .f32⟩
  | .hbm, ⟨38, _⟩ => ⟨S16x9, .f32⟩
  | .hbm, ⟨39, _⟩ => ⟨S16x9, .f32⟩
  | .hbm, ⟨40, _⟩ => ⟨S16x9, .f32⟩
  | .hbm, ⟨41, _⟩ => ⟨S16x9, .f32⟩
  | .hbm, ⟨42, _⟩ => ⟨S_, .f32⟩
  | .hbm, ⟨43, _⟩ => ⟨S16x9, .f32⟩
  | .hbm, ⟨44, _⟩ => ⟨S16x9, .i1⟩
  | .hbm, ⟨45, _⟩ => ⟨S_, .f32⟩
  | .hbm, ⟨46, _⟩ => ⟨S_, .f32⟩
  | .hbm, ⟨47, _⟩ => ⟨S16x9, .f32⟩
  | .hbm, ⟨48, _⟩ => ⟨S16x9, .f32⟩
  | .hbm, ⟨49, _⟩ => ⟨S16x9, .f32⟩
  | .hbm, ⟨50, _⟩ => ⟨S_, .f32⟩
  | .hbm, ⟨51, _⟩ => ⟨S16x9, .f32⟩
  | .hbm, ⟨52, _⟩ => ⟨S16x9, .f32⟩
  | .hbm, ⟨53, _⟩ => ⟨S16x9, .f32⟩
  | .hbm, ⟨54, _⟩ => ⟨S16x9, .f32⟩
  | .hbm, ⟨55, _⟩ => ⟨S16x9, .f32⟩
  | .hbm, ⟨56, _⟩ => ⟨S9, .i32⟩
  | .hbm, ⟨57, _⟩ => ⟨S1x9, .i32⟩
  | .hbm, ⟨58, _⟩ => ⟨S_, .i32⟩
  | .hbm, ⟨59, _⟩ => ⟨S1x9, .i32⟩
  | .hbm, ⟨60, _⟩ => ⟨S1x9, .i1⟩
  | .hbm, ⟨61, _⟩ => ⟨S_, .f32⟩
  | .hbm, ⟨62, _⟩ => ⟨S16x9, .f32⟩
  | .hbm, ⟨63, _⟩ => ⟨S16x9, .i1⟩
  | .hbm, ⟨64, _⟩ => ⟨S16x9, .i1⟩
  | .hbm, ⟨65, _⟩ => ⟨S16x9, .i1⟩
  | .hbm, ⟨66, _⟩ => ⟨S_, .f32⟩
  | .hbm, ⟨67, _⟩ => ⟨S16x9, .f32⟩
  | .hbm, ⟨68, _⟩ => ⟨S16x9, .i1⟩
  | .hbm, ⟨69, _⟩ => ⟨S16x9, .i1⟩
  | .hbm, ⟨70, _⟩ => ⟨S_, .f32⟩
  | .hbm, ⟨71, _⟩ => ⟨S16x9, .f32⟩
  | .hbm, ⟨72, _⟩ => ⟨S16x9, .i1⟩
  | .hbm, ⟨73, _⟩ => ⟨S16x9, .i1⟩
  | .hbm, ⟨74, _⟩ => ⟨S_, .f32⟩
  | .hbm, ⟨75, _⟩ => ⟨S_, .f32⟩
  | .hbm, ⟨76, _⟩ => ⟨S16x9, .f32⟩
  | .hbm, ⟨77, _⟩ => ⟨S16x9, .f32⟩
  | .hbm, ⟨78, _⟩ => ⟨S_, .f32⟩
  | .hbm, ⟨79, _⟩ => ⟨S_, .f32⟩
  | .local _ .vmem, ⟨0, _⟩ => ⟨S1x4x51200, .f32⟩
  | .local _ .vmem, ⟨1, _⟩ => ⟨S1x4x51200, .f32⟩
  | .local _ .vmem, ⟨2, _⟩ => ⟨S1x1x51200, .i32⟩
  | .local _ .vmem, ⟨3, _⟩ => ⟨S1x1x51200, .i32⟩
  | .local _ .vmem, ⟨4, _⟩ => ⟨S1x1x51200, .i32⟩
  | .local _ .vmem, ⟨5, _⟩ => ⟨S1x1x51200, .i32⟩
  | .local _ .vmem, ⟨6, _⟩ => ⟨S1x16x128, .f32⟩
  | .local _ .vmem, ⟨7, _⟩ => ⟨S1x16x128, .f32⟩
  | .local _ .vmem, ⟨8, _⟩ => ⟨S16x128, .f32⟩
  | _, _ => ⟨S16x4x640x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_16 : BitVec 32 := 0#32
  let v50 : BitVec 1 := Scalar.cmpi .ne v49 c0_i32_16
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x51200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x51200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x51200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x4x640x640_S16x4x409600 : S16x4x640x640.ShapeCasts S16x4x409600
  shapeCasts_S16x640x640_S16x1x409600 : S16x640x640.ShapeCasts S16x1x409600
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x4x51200_S1x4x51200_0_0_0 : ∀ a, (![0, 0, 0] : Fin 3 → Nat) a + S1x4x51200.size a ≤ S1x4x51200.size a
  h_S1x4x51200 : 0 < S1x4x51200.numel
  shapeCasts_S1x4x51200_S4x51200 : S1x4x51200.ShapeCasts S4x51200
  reduces_S4x51200_S51200 : S4x51200.Reduces [0] S51200
  inb_S1x1x51200_S1x1x51200_0_0_0 : ∀ a, (![0, 0, 0] : Fin 3 → Nat) a + S1x1x51200.size a ≤ S1x1x51200.size a
  h_S1x1x51200 : 0 < S1x1x51200.numel
  shapeCasts_S1x1x51200_S51200 : S1x1x51200.ShapeCasts S51200
  natLt_1_32 : 1 < 32
  shapeCasts_S51200_S1x51200 : S51200.ShapeCasts S1x51200
  concatenates_S1x51200_S1x51200_S1x51200_S3x51200_d0 : Shape.Concatenates [S1x51200, S1x51200, S1x51200] S3x51200 0
  bitsLt_bf16_f32 : FTy.bits .bf16 < FTy.bits .f32
  iota_S16x51200_d0_w32 : S16x51200.Iotas .tc 32 [0]
  shapeCasts_S1x51200_S1x51200 : S1x51200.ShapeCasts S1x51200
  broadcasts_S1x51200_S16x51200 : S1x51200.Broadcasts S16x51200
  slices_S16x3_o0_0_S16x1 : S16x3.Slices ![0, 0] S16x1
  slices_S16x3_o0_1_S16x1 : S16x3.Slices ![0, 1] S16x1
  slices_S16x3_o0_2_S16x1 : S16x3.Slices ![0, 2] S16x1
  concatenates_S16x1_S16x1_S16x1_S16x1_S16x1_S16x5_d1 : Shape.Concatenates [S16x1, S16x1, S16x1, S16x1, S16x1] S16x5 1
  inb_S16x128_S16x5_0_0 : ∀ a, (![0, 0] : Fin 2 → Nat) a + S16x5.size a ≤ S16x128.size a
  h_S16x5 : 0 < S16x5.numel
  shapeCasts_S16x5_S16x5 : S16x5.ShapeCasts S16x5
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  slices_S16x16x128_S16x9x5_0_0_0 : S16x16x128.Slices ![0, 0, 0] S16x9x5
  slices_S16x9x5_S16x9x1_0_0_0 : S16x9x5.Slices ![0, 0, 0] S16x9x1
  shapeCasts_S16x9x1_S16x9 : S16x9x1.ShapeCasts S16x9
  slices_S16x9x5_S16x9x1_0_0_1 : S16x9x5.Slices ![0, 0, 1] S16x9x1
  slices_S16x9x5_S16x9x1_0_0_2 : S16x9x5.Slices ![0, 0, 2] S16x9x1
  slices_S16x9x5_S16x9x1_0_0_3 : S16x9x5.Slices ![0, 0, 3] S16x9x1
  slices_S16x9x5_S16x9x1_0_0_4 : S16x9x5.Slices ![0, 0, 4] S16x9x1
  bcast_S_S16x9 : S_.BroadcastsInDim S16x9 (![] : Fin 0 → Fin S16x9.rank)
  bcast_S9_S1x9_1 : S9.BroadcastsInDim S1x9 (![1] : Fin 1 → Fin S1x9.rank)
  bcast_S_S1x9 : S_.BroadcastsInDim S1x9 (![] : Fin 0 → Fin S1x9.rank)
  bcast_S1x9_S16x9_0_1 : S1x9.BroadcastsInDim S16x9 (![0, 1] : Fin 2 → Fin S16x9.rank)
  reducesTo_S16x9_S_d0_1 : S16x9.ReducesTo [0, 1] S_
  h_S_ : 0 < S_.numel
  dot_S16x51200_S3x51200_S16x3_1_1_0_0_n_n_wf : DotDims.WF S16x51200 S3x51200 S16x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x51200.size a ≤ S16x4x409600.size a
  hwx0_0 : ∀ i : grid0.Coords, EltTy.bits .f32 = 32 ∨ (Rect.block (s := S16x4x409600) S1x4x51200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x51200.size a ≤ S16x1x409600.size a
  hwx0_1 : ∀ i : grid0.Coords, EltTy.bits .i32 = 32 ∨ (Rect.block (s := S16x1x409600) S1x1x51200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x51200.size a ≤ S16x1x409600.size a
  hwx0_2 : ∀ i : grid0.Coords, EltTy.bits .i32 = 32 ∨ (Rect.block (s := S16x1x409600) S1x1x51200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S16x16x128.size a
  hwx0_3 : ∀ i : grid0.Coords, EltTy.bits .f32 = 32 ∨ (Rect.block (s := S16x16x128) S1x16x128.size (cc0_transform_3 i) (hinb0_3 i)).WholeWords (EltTy.packing .f32)

variable [Facts₀]

def dot_S16x51200_S3x51200_S16x3_1_1_0_0_n_n : DotDims S16x51200 S3x51200 S16x3 where
  lhsContracting := [1]
  rhsContracting := [1]
  lhsNonContracting := [0]
  rhsNonContracting := [0]
  lhsBatch := []
  rhsBatch := []
  wf := dot_S16x51200_S3x51200_S16x3_1_1_0_0_n_n_wf

abbrev win0_0 : Pipeline.Window sig grid0 :=
  Pipeline.Window.ofSpec (Memref.whole main_v0) S1x4x51200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x51200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x51200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4x640x640 : Shape := ⟨4, ![16, 4, 640, 640]⟩
abbrev S16x640x640 : Shape := ⟨3, ![16, 640, 640]⟩
abbrev S16x4x409600 : Shape := ⟨3, ![16, 4, 409600]⟩
abbrev S16x409600 : Shape := ⟨2, ![16, 409600]⟩
abbrev S_ : Shape := ⟨0, ![]⟩
abbrev S16 : Shape := ⟨1, ![16]⟩
abbrev S16x1 : Shape := ⟨2, ![16, 1]⟩
abbrev S6553600 : Shape := ⟨1, ![6553600]⟩
abbrev S144 : Shape := ⟨1, ![144]⟩
abbrev S6553600x1 : Shape := ⟨2, ![6553600, 1]⟩

abbrev nBuf : Space → Nat
  | .hbm => 131
  | .vmem => 0
  | .smem => 0
  | _ => 0

abbrev hbmTy0_0 (i : Nat) : BufTy := match i % 128 with
  | 0 => ⟨S16x4x640x640, .f32⟩
  | 1 => ⟨S16x640x640, .f32⟩
  | 2 => ⟨S16x640x640, .f32⟩
  | 3 => ⟨S16x640x640, .i32⟩
  | 4 => ⟨S16x640x640, .i32⟩
  | 5 => ⟨S16x4x409600, .f32⟩
  | 6 => ⟨S16x409600, .i32⟩
  | 7 => ⟨S16x409600, .i32⟩
  | 8 => ⟨S16x4x409600, .f32⟩
  | 9 => ⟨S_, .f32⟩
  | 10 => ⟨S16x409600, .f32⟩
  | 11 => ⟨S16, .i32⟩
  | 12 => ⟨S_, .i32⟩
  | 13 => ⟨S16, .i32⟩
  | 14 => ⟨S16, .i32⟩
  | 15 => ⟨S16x1, .i32⟩
  | 16 => ⟨S16x409600, .i32⟩
  | 17 => ⟨S16x409600, .i32⟩
  | 18 => ⟨S6553600, .i32⟩
  | 19 => ⟨S16x409600, .i32⟩
  | 20 => ⟨S16x409600, .i32⟩
  | 21 => ⟨S6553600, .i32⟩
  | 22 => ⟨S6553600, .f32⟩
  | 23 => ⟨S_, .f32⟩
  | 24 => ⟨S144, .f32⟩
  | 25 => ⟨S6553600x1, .i32⟩
  | 26 => ⟨S144, .f32⟩
  | 27 => ⟨S_, .f32⟩
  | 28 => ⟨S144, .f32⟩
  | 29 => ⟨S6553600x1, .i32⟩
  | 30 => ⟨S144, .f32⟩
  | 31 => ⟨S16x409600, .i1⟩
  | 32 => ⟨S6553600, .i1⟩
  | 33 => ⟨S_, .f32⟩
  | 34 => ⟨S_, .f32⟩
  | 35 => ⟨S6553600, .f32⟩
  | 36 => ⟨S6553600, .f32⟩
  | 37 => ⟨S_, .f32⟩
  | 38 => ⟨S144, .f32⟩
  | 39 => ⟨S6553600x1, .i32⟩
  | 40 => ⟨S144, .f32⟩
  | 41 => ⟨S_, .f32⟩
  | 42 => ⟨S6553600, .f32⟩
  | 43 => ⟨S_, .f32⟩
  | 44 => ⟨S144, .f32⟩
  | 45 => ⟨S6553600x1, .i32⟩
  | 46 => ⟨S144, .f32⟩
  | 47 => ⟨S_, .f32⟩
  | 48 => ⟨S144, .f32⟩
  | 49 => ⟨S6553600x1, .i32⟩
  | 50 => ⟨S144, .f32⟩
  | 51 => ⟨S_, .f32⟩
  | 52 => ⟨S144, .f32⟩
  | 53 => ⟨S144, .i1⟩
  | 54 => ⟨S_, .f32⟩
  | 55 => ⟨S_, .f32⟩
  | 56 => ⟨S144, .f32⟩
  | 57 => ⟨S144, .f32⟩
  | 58 => ⟨S_, .f32⟩
  | 59 => ⟨S144, .f32⟩
  | 60 => ⟨S144, .i1⟩
  | 61 => ⟨S_, .f32⟩
  | 62 => ⟨S_, .f32⟩
  | 63 => ⟨S144, .f32⟩
  | 64 => ⟨S144, .f32⟩
  | 65 => ⟨S144, .f32⟩
  | 66 => ⟨S144, .f32⟩
  | 67 => ⟨S144, .f32⟩
  | 68 => ⟨S_, .f32⟩
  | 69 => ⟨S144, .f32⟩
  | 70 => ⟨S144, .f32⟩
  | 71 => ⟨S144, .f32⟩
  | 72 => ⟨S144, .f32⟩
  | 73 => ⟨S_, .f32⟩
  | 74 => ⟨S144, .f32⟩
  | 75 => ⟨S144, .i1⟩
  | 76 => ⟨S_, .f32⟩
  | 77 => ⟨S_, .f32⟩
  | 78 => ⟨S144, .f32⟩
  | 79 => ⟨S144, .f32⟩
  | 80 => ⟨S144, .f32⟩
  | 81 => ⟨S_, .f32⟩
  | 82 => ⟨S144, .f32⟩
  | 83 => ⟨S144, .f32⟩
  | 84 => ⟨S144, .f32⟩
  | 85 => ⟨S144, .f32⟩
  | 86 => ⟨S144, .f32⟩
  | 87 => ⟨S144, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S144, .i32⟩
  | 95 => ⟨S144, .i32⟩
  | 96 => ⟨S_, .i32⟩
  | 97 => ⟨S144, .i32⟩
  | 98 => ⟨S144, .i1⟩
  | 99 => ⟨S_, .i32⟩
  | 100 => ⟨S144, .i32⟩
  | 101 => ⟨S144, .i1⟩
  | 102 => ⟨S_, .i32⟩
  | 103 => ⟨S_, .i1⟩
  | 104 => ⟨S144, .i1⟩
  | 105 => ⟨S144, .i1⟩
  | 106 => ⟨S144, .i1⟩
  | 107 => ⟨S144, .i32⟩
  | 108 => ⟨S144, .i32⟩
  | 109 => ⟨S144, .i32⟩
  | 110 => ⟨S_, .i32⟩
  | 111 => ⟨S144, .i32⟩
  | 112 => ⟨S144, .i1⟩
  | 113 => ⟨S_, .f32⟩
  | 114 => ⟨S144, .f32⟩
  | 115 => ⟨S144, .i1⟩
  | 116 => ⟨S144, .i1⟩
  | 117 => ⟨S_, .f32⟩
  | 118 => ⟨S144, .f32⟩
  | 119 => ⟨S144, .i1⟩
  | 120 => ⟨S144, .i1⟩
  | 121 => ⟨S_, .f32⟩
  | 122 => ⟨S144, .f32⟩
  | 123 => ⟨S144, .i1⟩
  | 124 => ⟨S144, .i1⟩
  | 125 => ⟨S_, .f32⟩
  | 126 => ⟨S_, .f32⟩
  | 127 => ⟨S144, .f32⟩
  | _ => ⟨S16x4x640x640, .f32⟩

abbrev hbmTy0_1 (i : Nat) : BufTy := match i % 128 with
  | 0 => ⟨S144, .f32⟩
  | 1 => ⟨S_, .f32⟩
  | 2 => ⟨S_, .f32⟩
  | _ => ⟨S16x4x640x640, .f32⟩

abbrev hbmTy (i : Nat) : BufTy := match i / 128 with
  | 0 => hbmTy0_0 i
  | 1 => hbmTy0_1 i
  | _ => ⟨S16x4x640x640, .f32⟩

abbrev bufTy : (tb : Table) → Fin (tcTables nBuf tb) → BufTy
  | .hbm, ⟨i, _⟩ => hbmTy i
  | _, _ => ⟨S16x4x640x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_call2_v0 : Ref sig .tc := ⟨.hbm, 62, rfl⟩
abbrev main_call2_v1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_call3_v0 : Ref sig .tc := ⟨.hbm, 77, rfl⟩
abbrev main_call3_v1 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_call4_v0 : Ref sig .tc := ⟨.hbm, 89, rfl⟩
abbrev main_call4_c : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_c_1 : Ref sig .tc := ⟨.hbm, 96, rfl⟩
abbrev main_call4_v5 : Ref sig .tc := ⟨.hbm, 97, rfl⟩
abbrev main_call4_v6 : Ref sig .tc := ⟨.hbm, 98, rfl⟩
abbrev main_call4_c_2 : Ref sig .tc := ⟨.hbm, 99, rfl⟩
abbrev main_call4_v7 : Ref sig .tc := ⟨.hbm, 100, rfl⟩
abbrev main_call4_v8 : Ref sig .tc := ⟨.hbm, 101, rfl⟩
abbrev main_call4_c_3 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_v12 : Ref sig .tc := ⟨.hbm, 106, rfl⟩
abbrev main_call4_v13 : Ref sig .tc := ⟨.hbm, 107, rfl⟩
abbrev main_call4_v14 : Ref sig .tc := ⟨.hbm, 108, rfl⟩
abbrev main_v58 : Ref sig .tc := ⟨.hbm, 109, rfl⟩
abbrev main_c_16 : Ref sig .tc := ⟨.hbm, 110, rfl⟩
abbrev main_v59 : Ref sig .tc := ⟨.hbm, 111, rfl⟩
abbrev main_v60 : Ref sig .tc := ⟨.hbm, 112, rfl⟩
abbrev main_cst_17 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_18 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_19 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_20 : Ref sig .tc := ⟨.hbm, 125, rfl⟩
abbrev main_call5_v0 : Ref sig .tc := ⟨.hbm, 126, rfl⟩
abbrev main_call5_v1 : Ref sig .tc := ⟨.hbm, 127, rfl⟩
abbrev main_v70 : Ref sig .tc := ⟨.hbm, 128, rfl⟩
abbrev main_cst_21 : Ref sig .tc := ⟨.hbm, 129, rfl⟩
abbrev main_v71 : Ref sig .tc := ⟨.hbm, 130, rfl⟩

abbrev nD : Nat := 1
abbrev τ : Topo := Topo.v7x

variable {F : FTy → Type} [FloatOps F]

class Facts₀ : Prop where
  shapeCasts_S16x4x640x640_S16x4x409600 : S16x4x640x640.ShapeCasts S16x4x409600
  shapeCasts_S16x640x640_S16x409600 : S16x640x640.ShapeCasts S16x409600
  reducesTo_S16x4x409600_S16x409600_d1 : S16x4x409600.ReducesTo [1] S16x409600
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x409600_0_1 : S16x1.BroadcastsInDim S16x409600 (![0, 1] : Fin 2 → Fin S16x409600.rank)
  shapeCasts_S16x409600_S6553600 : S16x409600.ShapeCasts S6553600
  bcast_S_S144 : S_.BroadcastsInDim S144 (![] : Fin 0 → Fin S144.rank)
  bcast_S6553600_S6553600x1_0 : S6553600.BroadcastsInDim S6553600x1 (![0] : Fin 1 → Fin S6553600x1.rank)
  bcast_S_S6553600 : S_.BroadcastsInDim S6553600 (![] : Fin 0 → Fin S6553600.rank)
  reducesTo_S144_S_d0 : S144.ReducesTo [0] S_
  scatter_S144_S6553600x1_S6553600_n_0_0_1_wf : ScatterDims.WF S144 S6553600x1 S6553600 [] [0] [0] 1

variable [Facts₀]

def scatter_S144_S6553600x1_S6553600_n_0_0_1 : ScatterDims S144 S6553600x1 S6553600 where
  updateWindowDims := []
  insertedWindowDims := [0]
  scatterDimsToOperandDims := [0]
  indexVectorDim := 1
  wf := scatter_S144_S6553600x1_S6553600_n_0_0_1_wf

class Facts : Prop extends Facts₀ where

variable [Facts]
-- ==== Proof.K.Launch.lean ====
/-
  The kernel program as printed around its one pallas_call: the host lines before the region (three reshapes that
  flatten the pixel axes), the region, and the seventy-one host lines after it (nine stretches: the slices of the
  statistics array, the per-instance loss and the final sum).  Stated here: the buffer contents the region is
  entered with, that @main is "prefix, region, then the later lines", that the later lines touch no staged array
  and allocate nothing, that no host line writes an argument, the windows' blocks, the two branch conditions of the
  body decided over the grid (first tile of an image, last tile of an image), and where the output window is idle.
-/
import proofs.«401348_j19258633355266_3_alg».proof.Proof.Gen.Kernel.Launch
import proofs.«401348_j19258633355266_3_alg».proof.Proof.Gen.Kernel.Skeleton
import proofs.«401348_j19258633355266_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The nine stretches of host lines after the region, in order. -/
abbrev sfx : List (List (HloOp τ sig (Elt F))) :=
  [hostOps1, hostOps1_1, hostOps1_2, hostOps1_3, hostOps1_4, hostOps1_5, hostOps1_6, hostOps1_7, hostOps1_8]

/-- Core `c`'s buffer contents when the region is entered: after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the three reshapes, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main [hostOps0] sfx (by simp only [List.Forall]; exact hostOps0_sub)
    (by simp only [List.Forall]; exact hostOps0_fresh) main_chain

/-- The later lines touch the pipeline's arrays and the bypassing buffers only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! ### What the later lines write

Every line after the region writes exactly one buffer, its own result.  Per stretch the results are listed (`W1` …
`W1_8`, seventy-one references in all), each line's written set is shown to lie in its stretch's list, and a reference
in none of the nine lists is therefore written by no later line. -/

/-- A reference outside a list that holds every reference the lines write is written by no line (distinct
    references are distinct device buffers). -/
private theorem forall_not_writes {ops : List (HloOp τ sig (Elt F))} {W : List (Ref sig .tc)}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- The results of the first stretch: the slice of the region's output, its five columns each flattened, the
    comparison of the last column with zero, and the constants. -/
private abbrev W1 : List (Ref sig .tc) :=
  [main_v4, main_v5, main_v6, main_v7, main_v8, main_v9, main_v10, main_v11, main_v12, main_v13, main_v14, main_cst,
   main_v15, main_v16, main_cst_0]
private theorem writes1 : (hostOps1 (F := F)).Forall fun op => op.writes ⊆ (W1.map (Proc.devRef (τ := τ) .tc)).toFinset := by
  simp only [hostOps1, List.Forall, StableHlo.nullary_writes, StableHlo.unary_writes, StableHlo.binary_writes,
    StableHlo.reshape_writes, Finset.singleton_subset_iff, List.mem_toFinset]
  repeat' apply And.intro
  all_goals exact List.mem_map_of_mem (by decide)

/-- The results of the first inlined selection. -/
private abbrev W1_1 : List (Ref sig .tc) :=
  [main_call0_v0, main_call0_v1, main_v17]
private theorem writes1_1 : (hostOps1_1 (F := F)).Forall fun op => op.writes ⊆ (W1_1.map (Proc.devRef (τ := τ) .tc)).toFinset := by
  simp only [hostOps1_1, List.Forall, StableHlo.unary_writes, StableHlo.ternary_writes,
    Finset.singleton_subset_iff, List.mem_toFinset]
  repeat' apply And.intro
  all_goals exact List.mem_map_of_mem (by decide)

/-- The results of the second comparison (the fourth column with zero) and its constants. -/
private abbrev W1_2 : List (Ref sig .tc) :=
  [main_cst_1, main_v18, main_v19, main_cst_2]
private theorem writes1_2 : (hostOps1_2 (F := F)).Forall fun op => op.writes ⊆ (W1_2.map (Proc.devRef (τ := τ) .tc)).toFinset := by
  simp only [hostOps1_2, List.Forall, StableHlo.nullary_writes, StableHlo.unary_writes, StableHlo.binary_writes,
    Finset.singleton_subset_iff, List.mem_toFinset]
  repeat' apply And.intro
  all_goals exact List.mem_map_of_mem (by decide)

/-- The results of the second inlined selection. -/
private abbrev W1_3 : List (Ref sig .tc) :=
  [main_call1_v0, main_call1_v1, main_v20]
private theorem writes1_3 : (hostOps1_3 (F := F)).Forall fun op => op.writes ⊆ (W1_3.map (Proc.devRef (τ := τ) .tc)).toFinset := by
  simp only [hostOps1_3, List.Forall, StableHlo.unary_writes, StableHlo.ternary_writes,
    Finset.singleton_subset_iff, List.mem_toFinset]
  repeat' apply And.intro
  all_goals exact List.mem_map_of_mem (by decide)

/-- The results of the arithmetic on the columns (products, quotients, a sum and a difference), of the third
    comparison, and the constants. -/
private abbrev W1_4 : List (Ref sig .tc) :=
  [main_v21, main_v22, main_v23, main_cst_3, main_v24, main_v25, main_v26, main_v27, main_cst_4, main_v28, main_v29,
   main_cst_5]
private theorem writes1_4 : (hostOps1_4 (F := F)).Forall fun op => op.writes ⊆ (W1_4.map (Proc.devRef (τ := τ) .tc)).toFinset := by
  simp only [hostOps1_4, List.Forall, StableHlo.nullary_writes, StableHlo.unary_writes, StableHlo.binary_writes,
    Finset.singleton_subset_iff, List.mem_toFinset]
  repeat' apply And.intro
  all_goals exact List.mem_map_of_mem (by decide)

/-- The results of the third inlined selection. -/
private abbrev W1_5 : List (Ref sig .tc) :=
  [main_call2_v0, main_call2_v1, main_v30]
private theorem writes1_5 : (hostOps1_5 (F := F)).Forall fun op => op.writes ⊆ (W1_5.map (Proc.devRef (τ := τ) .tc)).toFinset := by
  simp only [hostOps1_5, List.Forall, StableHlo.unary_writes, StableHlo.ternary_writes,
    Finset.singleton_subset_iff, List.mem_toFinset]
  repeat' apply And.intro
  all_goals exact List.mem_map_of_mem (by decide)

/-- The results of the square root, the shifted square, `log1p` and the quotient, of the comparisons and their
    conjunctions, and the constants. -/
private abbrev W1_6 : List (Ref sig .tc) :=
  [main_v31, main_cst_6, main_v32, main_v33, main_v34, main_v35, main_v36, main_v37, main_v38, main_c, main_v39,
   main_v40, main_cst_7, main_v41, main_v42, main_v43, main_v44, main_cst_8, main_v45, main_v46, main_v47, main_cst_9,
   main_v48, main_v49, main_v50, main_cst_10]
private theorem writes1_6 : (hostOps1_6 (F := F)).Forall fun op => op.writes ⊆ (W1_6.map (Proc.devRef (τ := τ) .tc)).toFinset := by
  simp only [hostOps1_6, List.Forall, StableHlo.nullary_writes, StableHlo.unary_writes, StableHlo.binary_writes,
    Finset.singleton_subset_iff, List.mem_toFinset]
  repeat' apply And.intro
  all_goals exact List.mem_map_of_mem (by decide)

/-- The results of the fourth inlined selection. -/
private abbrev W1_7 : List (Ref sig .tc) :=
  [main_call3_v0, main_call3_v1, main_v51]
private theorem writes1_7 : (hostOps1_7 (F := F)).Forall fun op => op.writes ⊆ (W1_7.map (Proc.devRef (τ := τ) .tc)).toFinset := by
  simp only [hostOps1_7, List.Forall, StableHlo.unary_writes, StableHlo.ternary_writes,
    Finset.singleton_subset_iff, List.mem_toFinset]
  repeat' apply And.intro
  all_goals exact List.mem_map_of_mem (by decide)

/-- The results of the final sum: its zero and the sum over both axes. -/
private abbrev W1_8 : List (Ref sig .tc) :=
  [main_cst_11, main_v52]
private theorem writes1_8 : (hostOps1_8 (F := F)).Forall fun op => op.writes ⊆ (W1_8.map (Proc.devRef (τ := τ) .tc)).toFinset := by
  simp only [hostOps1_8, List.Forall, StableHlo.nullary_writes, StableHlo.binary_writes,
    Finset.singleton_subset_iff, List.mem_toFinset]
  repeat' apply And.intro
  all_goals exact List.mem_map_of_mem (by decide)

/-- A reference that is the result of no later line is written by none of them. -/
private theorem tail_keeps {r : Ref sig .tc}
    (hr : r ∉ W1 ∧ r ∉ W1_1 ∧ r ∉ W1_2 ∧ r ∉ W1_3 ∧ r ∉ W1_4 ∧ r ∉ W1_5 ∧ r ∉ W1_6 ∧ r ∉ W1_7 ∧ r ∉ W1_8) :
    ∀ op ∈ (sfx (F := F)).flatten, Proc.devRef (τ := τ) .tc r ∉ op.writes := by
  intro op hop
  obtain ⟨h0, h1, h2, h3, h4, h5, h6, h7, h8⟩ := hr
  obtain ⟨ops, hops, hop⟩ := List.mem_flatten.mp hop
  simp only [List.mem_cons, List.mem_nil_iff, or_false] at hops
  rcases hops with rfl | rfl | rfl | rfl | rfl | rfl | rfl | rfl | rfl
  · exact forall_not_writes writes1 h0 op hop
  · exact forall_not_writes writes1_1 h1 op hop
  · exact forall_not_writes writes1_2 h2 op hop
  · exact forall_not_writes writes1_3 h3 op hop
  · exact forall_not_writes writes1_4 h4 op hop
  · exact forall_not_writes writes1_5 h5 op hop
  · exact forall_not_writes writes1_6 h6 op hop
  · exact forall_not_writes writes1_7 h7 op hop
  · exact forall_not_writes writes1_8 h8 op hop

/-- No staged array is the result of a later line: the four arrays are the three reshaped inputs and the region's
    output, all defined before the first later line. -/
private theorem arr_not_result : ∀ w, Pipeline.arrRef spec0 w ∉ W1 ∧ Pipeline.arrRef spec0 w ∉ W1_1
    ∧ Pipeline.arrRef spec0 w ∉ W1_2 ∧ Pipeline.arrRef spec0 w ∉ W1_3 ∧ Pipeline.arrRef spec0 w ∉ W1_4
    ∧ Pipeline.arrRef spec0 w ∉ W1_5 ∧ Pipeline.arrRef spec0 w ∉ W1_6 ∧ Pipeline.arrRef spec0 w ∉ W1_7
    ∧ Pipeline.arrRef spec0 w ∉ W1_8 := by decide

/-- Every line after the region writes a buffer that is no staged array (each writes only its own result). -/
theorem tail_writes : ((sfx (F := F)).flatten).Forall fun op => ∀ w, Proc.devRef .tc (Pipeline.arrRef spec0 w) ∉ op.writes :=
  List.forall_iff_forall_mem.mpr fun op hop w => tail_keeps (arr_not_result w) op hop

/-- And so they write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop
  exact (List.forall_iff_forall_mem.mp (tail_writes (F := F))) op (List.mem_flatten.mpr ⟨ops, hops, hop⟩)

/-- No host line before the region writes an argument or any buffer the three reshapes do not name. -/
theorem V_of_not_reshaped (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes,
      Finset.mem_singleton]
    exact ⟨StableHlo.devRef_ne_of_ne h0, StableHlo.devRef_ne_of_ne h1, StableHlo.devRef_ne_of_ne h2⟩))

/-- A buffer that is no result of a later line, no staged array and none of the three reshaped inputs ends as
    launched: the later lines leave it, the region's arrays are elsewhere, and the reshapes leave it. -/
private theorem tail_leaves (dats : (p : Fin _) → (c : Dev nD) → Dat τ (Elt F) Unit ℕ (UR sig nD τ) ℕ (cfgs p) c) (c : Dev nD)
    (b : Ref sig .tc)
    (hW : b ∉ W1 ∧ b ∉ W1_1 ∧ b ∉ W1_2 ∧ b ∉ W1_3 ∧ b ∉ W1_4 ∧ b ∉ W1_5 ∧ b ∉ W1_6 ∧ b ∉ W1_7 ∧ b ∉ W1_8)
    (hA : ∀ w, Pipeline.arrRef spec0 w ≠ b) (h0 : b ≠ main_v0) (h1 : b ≠ main_v1) (h2 : b ≠ main_v2) :
    Pipeline.afterTail₀ cfgs dats 0 (V0 m) sfx c b = m ((c : Thread nD τ).loc b) := by
  unfold Pipeline.afterTail₀
  rw [StableHlo.after_of_forall_not_mem (b := Proc.devRef .tc b) _ _ (tail_keeps hW),
    Pipeline.withArrays_of_ne _ c (V0 m c) _ b (by exact hA)]
  exact V_of_not_reshaped m c b h0 h1 h2

/-- No host line after the region writes buffer `b` when `b` is an argument: it ends as launched. -/
theorem W_main_arg (dats : (p : Fin _) → (c : Dev nD) → Dat τ (Elt F) Unit ℕ (UR sig nD τ) ℕ (cfgs p) c) (c : Dev nD)
    (b : Ref sig .tc) (hb : b = main_arg0 ∨ b = main_arg1 ∨ b = main_arg2 ∨ b = main_arg3 ∨ b = main_arg4) :
    Pipeline.afterTail₀ cfgs dats 0 (V0 m) sfx c b = m ((c : Thread nD τ).loc b) := by
  rcases hb with rfl | rfl | rfl | rfl | rfl
  · exact tail_leaves m dats c _ (by decide) (by decide) (by decide) (by decide) (by decide)
  · exact tail_leaves m dats c _ (by decide) (by decide) (by decide) (by decide) (by decide)
  · exact tail_leaves m dats c _ (by decide) (by decide) (by decide) (by decide) (by decide)
  · exact tail_leaves m dats c _ (by decide) (by decide) (by decide) (by decide) (by decide)
  · exact tail_leaves m dats c _ (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The five arguments end as launched, from a run to the library's frame post: none is a staged array, and no
    host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg m dats c _ (by simp)),
     ((h c).2 main_arg1 (Pipeline.mem_restRefs_of main_arg1 (by decide) (by decide))).trans (W_main_arg m dats c _ (by simp)),
     ((h c).2 main_arg2 (Pipeline.mem_restRefs_of main_arg2 (by decide) (by decide))).trans (W_main_arg m dats c _ (by simp)),
     ((h c).2 main_arg3 (Pipeline.mem_restRefs_of main_arg3 (by decide) (by decide))).trans (W_main_arg m dats c _ (by simp)),
     ((h c).2 main_arg4 (Pipeline.mem_restRefs_of main_arg4 (by decide) (by decide))).trans (W_main_arg m dats c _ (by simp))⟩) h

/-! ## The body's branch conditions -/

/-- The first `scf.if` of the body (reset of the accumulator): taken at the first tile of an image. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second `scf.if` (the accumulator copied to the output block): taken at the last tile of an image. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile it is live. -/
theorem liveAt0_3 : ∀ t : Fin cfg0.N, cond0_1 (grid0.coords t) → cfg0.idle 3 (grid0.coords t) = false := by decide +kernel

/-! ## The memrefs the body is called with -/

abbrev VO0_3 : View sig .tc .vmem S1x16x128 .f32 := (Memref.whole cc0_stg3_0 : Memref sig .tc .vmem S1x16x128 .f32).view
abbrev ms0_0 (t : Fin cfg0.N) : Memref sig .tc .vmem S1x4x51200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x51200 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x51200 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S16x128 .f32 := Memref.whole cc0_scratch0
abbrev VS0_0 : View sig .tc .vmem S16x128 .f32 := scM0_0.view

/-- The class's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The kernel body run once at the FIRST tile of an image (the reset branch taken, the copy-out branch not): on
  whole staging memrefs holding the three input blocks, the output block's buffer at anything (handed back untouched:
  the window is idle here) and the accumulator at anything, the body runs to the end, faults nowhere, leaves the
  inputs as they were and the accumulator at contents that depend only on the input blocks (zero, plus this tile's
  statistics in its first five columns).  The contents are the witness the run finds.
-/
import proofs.«401348_j19258633355266_3_alg».proof.Proof.K.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first tile of an image; `.1` is what the accumulator holds afterwards. -/
noncomputable def kernelRun0_A (c : Dev nD) (i : grid0.Coords) (arg2 : Memref sig .tc .vmem S1x4x51200 .f32) (harg2 : arg2.IsWhole) (arg3 : Memref sig .tc .vmem S1x1x51200 .i32) (harg3 : arg3.IsWhole) (arg4 : Memref sig .tc .vmem S1x1x51200 .i32) (harg4 : arg4.IsWhole) (arg5 : Memref sig .tc .vmem S1x16x128 .f32) (harg5 : arg5.IsWhole) (arg6 : Memref sig .tc .vmem S16x128 .f32) (harg6 : arg6.IsWhole) (hc0 : cond0_0 i) (hc1 : ¬cond0_1 i)
    (x0 : Vec F S1x4x51200 .f32) (x1 : Vec F S1x1x51200 .i32) (x2 : Vec F S1x1x51200 .i32) :
    { S0 : Vec F S16x128 .f32 //
      ∀ (xi3 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare S0) -∗ K ⟨⟩))
          ⊢ wp frame (wpE (defs₀ (F := F)) Variants.none c none) E (cc0__agg_stats_kernel i arg2 harg2 arg3 harg3 arg4 harg4 arg5 harg5 arg6 harg6) K } := by
  refine ⟨?_, fun xi3 E K => ?run⟩
  case run =>
    simp only [cc0__agg_stats_kernel_eq_skeleton]; unfold cc0__agg_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    -- the accumulator: two pieces written, last first — rows 0:16, columns 0:5 (this tile's statistics added to what
    -- was read back), over the whole block of zeros.  The zero fill alone covers the block, so what the two writes
    -- leave reads the same over any prior contents: the witness is the read-back over contents nothing reads.
    iexists _; isplitr; swap
    · iexact HS0
    ipureintro
    refine (View.read_writes_of_cover arg6.view _ arg6.view arg6.view.junk _ ?_).trans ?_
    · exact View.cover_of_tiled _ S16x128.size (by sl_kernel_rfl)
    rfl

end Cert.Kernel.Fr

end
-- ==== Proof.K.RunB.lean ====
/-
  The kernel body run once at a MIDDLE tile of an image (neither branch taken): the accumulator, found at the
  contents the tile before left, ends with this tile's statistics added into its first five columns and its other
  columns as they were; the output block's buffer is handed back untouched.
-/
import proofs.«401348_j19258633355266_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle tile; `.1` is what the accumulator holds afterwards, over what it held before (`xs0`). -/
noncomputable def kernelRun0_B (c : Dev nD) (i : grid0.Coords) (arg2 : Memref sig .tc .vmem S1x4x51200 .f32) (harg2 : arg2.IsWhole) (arg3 : Memref sig .tc .vmem S1x1x51200 .i32) (harg3 : arg3.IsWhole) (arg4 : Memref sig .tc .vmem S1x1x51200 .i32) (harg4 : arg4.IsWhole) (arg5 : Memref sig .tc .vmem S1x16x128 .f32) (harg5 : arg5.IsWhole) (arg6 : Memref sig .tc .vmem S16x128 .f32) (harg6 : arg6.IsWhole) (hc0 : ¬cond0_0 i) (hc1 : ¬cond0_1 i)
    (x0 : Vec F S1x4x51200 .f32) (x1 : Vec F S1x1x51200 .i32) (x2 : Vec F S1x1x51200 .i32) (xs0 : Vec F S16x128 .f32) :
    { S0 : Vec F S16x128 .f32 //
      ∀ (xi3 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare S0) -∗ K ⟨⟩))
          ⊢ wp frame (wpE (defs₀ (F := F)) Variants.none c none) E (cc0__agg_stats_kernel i arg2 harg2 arg3 harg3 arg4 harg4 arg5 harg5 arg6 harg6) K } := by
  refine ⟨?_, fun xi3 E K => ?run⟩
  case run =>
    simp only [cc0__agg_stats_kernel_eq_skeleton]; unfold cc0__agg_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap
    · iexact HS0
    ipureintro; rfl

end Cert.Kernel.Fr

end
-- ==== Proof.K.RunC.lean ====
/-
  The kernel body run once at the LAST tile of an image (the copy-out branch taken, the reset branch not): the
  accumulator ends as at a middle tile, and the output block's buffer, found at anything, ends holding the
  accumulator's final contents.
-/
import proofs.«401348_j19258633355266_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last tile; `.1` is what the output block's buffer holds afterwards, `.2.1` the accumulator. -/
noncomputable def kernelRun0_C (c : Dev nD) (i : grid0.Coords) (arg2 : Memref sig .tc .vmem S1x4x51200 .f32) (harg2 : arg2.IsWhole) (arg3 : Memref sig .tc .vmem S1x1x51200 .i32) (harg3 : arg3.IsWhole) (arg4 : Memref sig .tc .vmem S1x1x51200 .i32) (harg4 : arg4.IsWhole) (arg5 : Memref sig .tc .vmem S1x16x128 .f32) (harg5 : arg5.IsWhole) (arg6 : Memref sig .tc .vmem S16x128 .f32) (harg6 : arg6.IsWhole) (hc0 : ¬cond0_0 i) (hc1 : cond0_1 i)
    (x0 : Vec F S1x4x51200 .f32) (x1 : Vec F S1x1x51200 .i32) (x2 : Vec F S1x1x51200 .i32) (xs0 : Vec F S16x128 .f32) :
    Σ' (O3 : Vec F S1x16x128 .f32), { S0 : Vec F S16x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare O3 ∗ owns (c : Thread nD τ) arg6 fullShare S0) -∗ K ⟨⟩))
          ⊢ wp frame (wpE (defs₀ (F := F)) Variants.none c none) E (cc0__agg_stats_kernel i arg2 harg2 arg3 harg3 arg4 harg4 arg5 harg5 arg6 harg6) K } := by
  -- Both witnesses are left open and fixed by the run: they may mention neither the mask, the continuation, nor the
  -- unknown contents the output block's buffer is found at.
  refine ⟨?_, ?_, fun E K => ?run⟩
  case run =>
    simp only [cc0__agg_stats_kernel_eq_skeleton]; unfold cc0__agg_stats_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    -- a whole buffer's raw contents are determined by what is read through it
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    -- the three inputs are read only: each is handed back at the contents it came with
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the output block: its one store is the whole shape, so what it reads afterwards does not depend on what it
    -- held before; the witness is that store read over arbitrary prior contents
    isplitl [H3]
    · iexists _; isplitr; swap; · iexact H3
      ipureintro
      refine View.read_writes_of_cover (Val := Elt F) _ _ arg5.view (arg5.view.junk (Val := Elt F)) _ (View.cover_of_wholeMem _ ?_)
      sl_whole_mem
    -- the accumulator: the rows 0:16, columns 0:5 store over the contents the tile before left
    iexists _; isplitr; swap; · iexact HS0
    ipureintro; rfl

end Cert.Kernel.Fr

end
-- ==== Proof.K.Frame.lean ====
/-
  The frame of the kernel program as printed, from the three runs of the body (first, middle and last tile of an
  image).  What the accumulator holds after each grid point is defined by recursion on the point: a first tile's
  contents depend only on the point's input blocks, a middle or last tile's also on what the point before left;
  the output block's buffer is stored only at an image's last tile and is idle elsewhere.  With these as the
  pipeline's proof data the body obligation holds at every point (a case split on the two branch conditions, each
  case that case's run), the region's invariant carries the accumulator from point to point, and the launch theorem
  for "host lines, one region, host lines" gives the run of @main; the frame claim reads the five arguments off it.
-/
import proofs.«401348_j19258633355266_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator and the output block's buffer hold after each point -/

/-- The output block's buffer where the body stores nothing into it: a placeholder nothing consults. -/
def outIdle : Vec F S1x16x128 .f32 := VO0_3.read (Elt F) (VO0_3.writes (Elt F) VO0_3.junk [])

/-- The accumulator after a first tile, at point `t`. -/
def accA (c : Dev nD) (t : Fin cfg0.N) (h0 : cond0_0 (grid0.coords t)) (h1 : ¬cond0_1 (grid0.coords t)) : Vec F S16x128 .f32 :=
  (kernelRun0_A c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t)).1
/-- The accumulator after a middle tile, at point `t`, over what the point before left (`xs`). -/
def accB (c : Dev nD) (t : Fin cfg0.N) (h0 : ¬cond0_0 (grid0.coords t)) (h1 : ¬cond0_1 (grid0.coords t)) (xs : Vec F S16x128 .f32) : Vec F S16x128 .f32 :=
  (kernelRun0_B c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs).1
/-- The output block's buffer after a last tile. -/
def outC (c : Dev nD) (t : Fin cfg0.N) (h0 : ¬cond0_0 (grid0.coords t)) (h1 : cond0_1 (grid0.coords t)) (xs : Vec F S16x128 .f32) : Vec F S1x16x128 .f32 :=
  (kernelRun0_C c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs).1
/-- The accumulator after a last tile. -/
def accC (c : Dev nD) (t : Fin cfg0.N) (h0 : ¬cond0_0 (grid0.coords t)) (h1 : cond0_1 (grid0.coords t)) (xs : Vec F S16x128 .f32) : Vec F S16x128 .f32 :=
  (kernelRun0_C c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs).2.1

/-- What the output block's buffer and the accumulator hold after the body at position `n`. -/
def outsAt0 (c : Dev nD) : (n : ℕ) → n < cfg0.N → Vec F S1x16x128 .f32 × Vec F S16x128 .f32
  | 0, hn => (outIdle, accA m c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 8 = 0 then
      if h1 : (n + 1) % 8 = 7 then
        False.elim (by omega)
      else
        (outIdle, accA m c ⟨n + 1, hn⟩ ((hcond0_0 ⟨n + 1, hn⟩).mpr h0) (fun h => h1 ((hcond0_1 ⟨n + 1, hn⟩).mp h)))
    else
      if h1 : (n + 1) % 8 = 7 then
        (outC m c ⟨n + 1, hn⟩ (fun h => h0 ((hcond0_0 ⟨n + 1, hn⟩).mp h)) ((hcond0_1 ⟨n + 1, hn⟩).mpr h1) (outsAt0 c n (Nat.lt_of_succ_lt hn)).2,
         accC m c ⟨n + 1, hn⟩ (fun h => h0 ((hcond0_0 ⟨n + 1, hn⟩).mp h)) ((hcond0_1 ⟨n + 1, hn⟩).mpr h1) (outsAt0 c n (Nat.lt_of_succ_lt hn)).2)
      else
        (outIdle, accB m c ⟨n + 1, hn⟩ (fun h => h0 ((hcond0_0 ⟨n + 1, hn⟩).mp h)) (fun h => h1 ((hcond0_1 ⟨n + 1, hn⟩).mp h)) (outsAt0 c n (Nat.lt_of_succ_lt hn)).2)

/-- `outsAt0` at a first tile. -/
theorem outsAt0_A (c : Dev nD) (t : Fin cfg0.N) (h0 : t.val % 8 = 0) (h1 : ¬t.val % 8 = 7) :
    outsAt0 m c t.val t.isLt = (outIdle, accA m c t ((hcond0_0 t).mpr h0) (fun h => h1 ((hcond0_1 t).mp h))) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 8 = 0) (h1 : ¬t.val % 8 = 7) :
    outsAt0 m c t.val t.isLt = (outIdle, accB m c t (fun h => h0 ((hcond0_0 t).mp h)) (fun h => h1 ((hcond0_1 t).mp h)) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 8 = 0) (h1 : t.val % 8 = 7) :
    outsAt0 m c t.val t.isLt = (outC m c t (fun h => h0 ((hcond0_0 t).mp h)) ((hcond0_1 t).mpr h1) (outsAt0 m c (t.val - 1) (Nat.lt_of_le_of_lt (Nat.sub_le _ _) t.isLt)).2,
      accC m c t (fun h => h0 ((hcond0_0 t).mp h)) ((hcond0_1 t).mpr h1) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the accumulator is at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the two conditions say which tile of its image the
    point is; the invariant hands the body the accumulator (at anything at the very first point, else at what the
    point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m 0 c) 3 t (idleAt0_3 t hc1) (noFlush0_3 t hc1)]
    rw [outsAt0_A m c t h0 h1]
    unfold accA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold outC accC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1]
      unfold accB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of @main terminates, and every final state has
    every staged array at what the library computes from the proof data and every other unscoped buffer as the
    later host lines leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.KI.Launch.lean ====
/-
  The idealized kernel program around its one pallas_call: the host lines before the region (three reshapes that
  flatten the pixel axes), the region, and the seventy-one host lines after it (nine stretches: the slices of the
  statistics array, the per-instance loss and the final sum).  Stated here: the buffer contents the region is
  entered with, that @main is "prefix, region, then the later lines", that the later lines touch no staged array
  and allocate nothing, that no host line writes an argument, the windows' blocks, the two branch conditions of the
  body decided over the grid (first tile of an image, last tile of an image), and where the output window is idle.
-/
import proofs.«401348_j19258633355266_3_alg».proof.Proof.Gen.KernelIdeal.Launch
import proofs.«401348_j19258633355266_3_alg».proof.Proof.Gen.KernelIdeal.Skeleton
import proofs.«401348_j19258633355266_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The nine stretches of host lines after the region, in order. -/
abbrev sfx : List (List (HloOp τ sig (Elt F))) :=
  [hostOps1, hostOps1_1, hostOps1_2, hostOps1_3, hostOps1_4, hostOps1_5, hostOps1_6, hostOps1_7, hostOps1_8]

/-- Core `c`'s buffer contents when the region is entered: after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the three reshapes, the region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main [hostOps0] sfx (by simp only [List.Forall]; exact hostOps0_sub)
    (by simp only [List.Forall]; exact hostOps0_fresh) main_chain

/-- The later lines touch the pipeline's arrays and the bypassing buffers only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-! ### What the later lines write

Every line after the region writes exactly one buffer, its own result.  Per stretch the results are listed (`W1` …
`W1_8`, seventy-one references in all), each line's written set is shown to lie in its stretch's list, and a reference
in none of the nine lists is therefore written by no later line. -/

/-- A reference outside a list that holds every reference the lines write is written by no line (distinct
    references are distinct device buffers). -/
private theorem forall_not_writes {ops : List (HloOp τ sig (Elt F))} {W : List (Ref sig .tc)}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- The results of the first stretch: the slice of the region's output, its five columns each flattened, the
    comparison of the last column with zero, and the constants. -/
private abbrev W1 : List (Ref sig .tc) :=
  [main_v4, main_v5, main_v6, main_v7, main_v8, main_v9, main_v10, main_v11, main_v12, main_v13, main_v14, main_cst,
   main_v15, main_v16, main_cst_0]
private theorem writes1 : (hostOps1 (F := F)).Forall fun op => op.writes ⊆ (W1.map (Proc.devRef (τ := τ) .tc)).toFinset := by
  simp only [hostOps1, List.Forall, StableHlo.nullary_writes, StableHlo.unary_writes, StableHlo.binary_writes,
    StableHlo.reshape_writes, Finset.singleton_subset_iff, List.mem_toFinset]
  repeat' apply And.intro
  all_goals exact List.mem_map_of_mem (by decide)

/-- The results of the first inlined selection. -/
private abbrev W1_1 : List (Ref sig .tc) :=
  [main_call0_v0, main_call0_v1, main_v17]
private theorem writes1_1 : (hostOps1_1 (F := F)).Forall fun op => op.writes ⊆ (W1_1.map (Proc.devRef (τ := τ) .tc)).toFinset := by
  simp only [hostOps1_1, List.Forall, StableHlo.unary_writes, StableHlo.ternary_writes,
    Finset.singleton_subset_iff, List.mem_toFinset]
  repeat' apply And.intro
  all_goals exact List.mem_map_of_mem (by decide)

/-- The results of the second comparison (the fourth column with zero) and its constants. -/
private abbrev W1_2 : List (Ref sig .tc) :=
  [main_cst_1, main_v18, main_v19, main_cst_2]
private theorem writes1_2 : (hostOps1_2 (F := F)).Forall fun op => op.writes ⊆ (W1_2.map (Proc.devRef (τ := τ) .tc)).toFinset := by
  simp only [hostOps1_2, List.Forall, StableHlo.nullary_writes, StableHlo.unary_writes, StableHlo.binary_writes,
    Finset.singleton_subset_iff, List.mem_toFinset]
  repeat' apply And.intro
  all_goals exact List.mem_map_of_mem (by decide)

/-- The results of the second inlined selection. -/
private abbrev W1_3 : List (Ref sig .tc) :=
  [main_call1_v0, main_call1_v1, main_v20]
private theorem writes1_3 : (hostOps1_3 (F := F)).Forall fun op => op.writes ⊆ (W1_3.map (Proc.devRef (τ := τ) .tc)).toFinset := by
  simp only [hostOps1_3, List.Forall, StableHlo.unary_writes, StableHlo.ternary_writes,
    Finset.singleton_subset_iff, List.mem_toFinset]
  repeat' apply And.intro
  all_goals exact List.mem_map_of_mem (by decide)

/-- The results of the arithmetic on the columns (products, quotients, a sum and a difference), of the third
    comparison, and the constants. -/
private abbrev W1_4 : List (Ref sig .tc) :=
  [main_v21, main_v22, main_v23, main_cst_3, main_v24, main_v25, main_v26, main_v27, main_cst_4, main_v28, main_v29,
   main_cst_5]
private theorem writes1_4 : (hostOps1_4 (F := F)).Forall fun op => op.writes ⊆ (W1_4.map (Proc.devRef (τ := τ) .tc)).toFinset := by
  simp only [hostOps1_4, List.Forall, StableHlo.nullary_writes, StableHlo.unary_writes, StableHlo.binary_writes,
    Finset.singleton_subset_iff, List.mem_toFinset]
  repeat' apply And.intro
  all_goals exact List.mem_map_of_mem (by decide)

/-- The results of the third inlined selection. -/
private abbrev W1_5 : List (Ref sig .tc) :=
  [main_call2_v0, main_call2_v1, main_v30]
private theorem writes1_5 : (hostOps1_5 (F := F)).Forall fun op => op.writes ⊆ (W1_5.map (Proc.devRef (τ := τ) .tc)).toFinset := by
  simp only [hostOps1_5, List.Forall, StableHlo.unary_writes, StableHlo.ternary_writes,
    Finset.singleton_subset_iff, List.mem_toFinset]
  repeat' apply And.intro
  all_goals exact List.mem_map_of_mem (by decide)

/-- The results of the square root, the shifted square, `log1p` and the quotient, of the comparisons and their
    conjunctions, and the constants. -/
private abbrev W1_6 : List (Ref sig .tc) :=
  [main_v31, main_cst_6, main_v32, main_v33, main_v34, main_v35, main_v36, main_v37, main_v38, main_c, main_v39,
   main_v40, main_cst_7, main_v41, main_v42, main_v43, main_v44, main_cst_8, main_v45, main_v46, main_v47, main_cst_9,
   main_v48, main_v49, main_v50, main_cst_10]
private theorem writes1_6 : (hostOps1_6 (F := F)).Forall fun op => op.writes ⊆ (W1_6.map (Proc.devRef (τ := τ) .tc)).toFinset := by
  simp only [hostOps1_6, List.Forall, StableHlo.nullary_writes, StableHlo.unary_writes, StableHlo.binary_writes,
    Finset.singleton_subset_iff, List.mem_toFinset]
  repeat' apply And.intro
  all_goals exact List.mem_map_of_mem (by decide)

/-- The results of the fourth inlined selection. -/
private abbrev W1_7 : List (Ref sig .tc) :=
  [main_call3_v0, main_call3_v1, main_v51]
private theorem writes1_7 : (hostOps1_7 (F := F)).Forall fun op => op.writes ⊆ (W1_7.map (Proc.devRef (τ := τ) .tc)).toFinset := by
  simp only [hostOps1_7, List.Forall, StableHlo.unary_writes, StableHlo.ternary_writes,
    Finset.singleton_subset_iff, List.mem_toFinset]
  repeat' apply And.intro
  all_goals exact List.mem_map_of_mem (by decide)

/-- The results of the final sum: its zero and the sum over both axes. -/
private abbrev W1_8 : List (Ref sig .tc) :=
  [main_cst_11, main_v52]
private theorem writes1_8 : (hostOps1_8 (F := F)).Forall fun op => op.writes ⊆ (W1_8.map (Proc.devRef (τ := τ) .tc)).toFinset := by
  simp only [hostOps1_8, List.Forall, StableHlo.nullary_writes, StableHlo.binary_writes,
    Finset.singleton_subset_iff, List.mem_toFinset]
  repeat' apply And.intro
  all_goals exact List.mem_map_of_mem (by decide)

/-- A reference that is the result of no later line is written by none of them. -/
private theorem tail_keeps {r : Ref sig .tc}
    (hr : r ∉ W1 ∧ r ∉ W1_1 ∧ r ∉ W1_2 ∧ r ∉ W1_3 ∧ r ∉ W1_4 ∧ r ∉ W1_5 ∧ r ∉ W1_6 ∧ r ∉ W1_7 ∧ r ∉ W1_8) :
    ∀ op ∈ (sfx (F := F)).flatten, Proc.devRef (τ := τ) .tc r ∉ op.writes := by
  intro op hop
  obtain ⟨h0, h1, h2, h3, h4, h5, h6, h7, h8⟩ := hr
  obtain ⟨ops, hops, hop⟩ := List.mem_flatten.mp hop
  simp only [List.mem_cons, List.mem_nil_iff, or_false] at hops
  rcases hops with rfl | rfl | rfl | rfl | rfl | rfl | rfl | rfl | rfl
  · exact forall_not_writes writes1 h0 op hop
  · exact forall_not_writes writes1_1 h1 op hop
  · exact forall_not_writes writes1_2 h2 op hop
  · exact forall_not_writes writes1_3 h3 op hop
  · exact forall_not_writes writes1_4 h4 op hop
  · exact forall_not_writes writes1_5 h5 op hop
  · exact forall_not_writes writes1_6 h6 op hop
  · exact forall_not_writes writes1_7 h7 op hop
  · exact forall_not_writes writes1_8 h8 op hop

/-- No staged array is the result of a later line: the four arrays are the three reshaped inputs and the region's
    output, all defined before the first later line. -/
private theorem arr_not_result : ∀ w, Pipeline.arrRef spec0 w ∉ W1 ∧ Pipeline.arrRef spec0 w ∉ W1_1
    ∧ Pipeline.arrRef spec0 w ∉ W1_2 ∧ Pipeline.arrRef spec0 w ∉ W1_3 ∧ Pipeline.arrRef spec0 w ∉ W1_4
    ∧ Pipeline.arrRef spec0 w ∉ W1_5 ∧ Pipeline.arrRef spec0 w ∉ W1_6 ∧ Pipeline.arrRef spec0 w ∉ W1_7
    ∧ Pipeline.arrRef spec0 w ∉ W1_8 := by decide

/-- Every line after the region writes a buffer that is no staged array (each writes only its own result). -/
theorem tail_writes : ((sfx (F := F)).flatten).Forall fun op => ∀ w, Proc.devRef .tc (Pipeline.arrRef spec0 w) ∉ op.writes :=
  List.forall_iff_forall_mem.mpr fun op hop w => tail_keeps (arr_not_result w) op hop

/-- And so they write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop
  exact (List.forall_iff_forall_mem.mp (tail_writes (F := F))) op (List.mem_flatten.mpr ⟨ops, hops, hop⟩)

/-- No host line before the region writes an argument or any buffer the three reshapes do not name. -/
theorem V_of_not_reshaped (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes,
      Finset.mem_singleton]
    exact ⟨StableHlo.devRef_ne_of_ne h0, StableHlo.devRef_ne_of_ne h1, StableHlo.devRef_ne_of_ne h2⟩))

/-- A buffer that is no result of a later line, no staged array and none of the three reshaped inputs ends as
    launched: the later lines leave it, the region's arrays are elsewhere, and the reshapes leave it. -/
private theorem tail_leaves (dats : (p : Fin _) → (c : Dev nD) → Dat τ (Elt F) Unit ℕ (UR sig nD τ) ℕ (cfgs p) c) (c : Dev nD)
    (b : Ref sig .tc)
    (hW : b ∉ W1 ∧ b ∉ W1_1 ∧ b ∉ W1_2 ∧ b ∉ W1_3 ∧ b ∉ W1_4 ∧ b ∉ W1_5 ∧ b ∉ W1_6 ∧ b ∉ W1_7 ∧ b ∉ W1_8)
    (hA : ∀ w, Pipeline.arrRef spec0 w ≠ b) (h0 : b ≠ main_v0) (h1 : b ≠ main_v1) (h2 : b ≠ main_v2) :
    Pipeline.afterTail₀ cfgs dats 0 (V0 m) sfx c b = m ((c : Thread nD τ).loc b) := by
  unfold Pipeline.afterTail₀
  rw [StableHlo.after_of_forall_not_mem (b := Proc.devRef .tc b) _ _ (tail_keeps hW),
    Pipeline.withArrays_of_ne _ c (V0 m c) _ b (by exact hA)]
  exact V_of_not_reshaped m c b h0 h1 h2

/-- No host line after the region writes buffer `b` when `b` is an argument: it ends as launched. -/
theorem W_main_arg (dats : (p : Fin _) → (c : Dev nD) → Dat τ (Elt F) Unit ℕ (UR sig nD τ) ℕ (cfgs p) c) (c : Dev nD)
    (b : Ref sig .tc) (hb : b = main_arg0 ∨ b = main_arg1 ∨ b = main_arg2 ∨ b = main_arg3 ∨ b = main_arg4) :
    Pipeline.afterTail₀ cfgs dats 0 (V0 m) sfx c b = m ((c : Thread nD τ).loc b) := by
  rcases hb with rfl | rfl | rfl | rfl | rfl
  · exact tail_leaves m dats c _ (by decide) (by decide) (by decide) (by decide) (by decide)
  · exact tail_leaves m dats c _ (by decide) (by decide) (by decide) (by decide) (by decide)
  · exact tail_leaves m dats c _ (by decide) (by decide) (by decide) (by decide) (by decide)
  · exact tail_leaves m dats c _ (by decide) (by decide) (by decide) (by decide) (by decide)
  · exact tail_leaves m dats c _ (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The five arguments end as launched, from a run to the library's frame post: none is a staged array, and no
    host line writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg m dats c _ (by simp)),
     ((h c).2 main_arg1 (Pipeline.mem_restRefs_of main_arg1 (by decide) (by decide))).trans (W_main_arg m dats c _ (by simp)),
     ((h c).2 main_arg2 (Pipeline.mem_restRefs_of main_arg2 (by decide) (by decide))).trans (W_main_arg m dats c _ (by simp)),
     ((h c).2 main_arg3 (Pipeline.mem_restRefs_of main_arg3 (by decide) (by decide))).trans (W_main_arg m dats c _ (by simp)),
     ((h c).2 main_arg4 (Pipeline.mem_restRefs_of main_arg4 (by decide) (by decide))).trans (W_main_arg m dats c _ (by simp))⟩) h

/-! ## The body's branch conditions -/

/-- The first `scf.if` of the body (reset of the accumulator): taken at the first tile of an image. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second `scf.if` (the accumulator copied to the output block): taken at the last tile of an image. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile it is live. -/
theorem liveAt0_3 : ∀ t : Fin cfg0.N, cond0_1 (grid0.coords t) → cfg0.idle 3 (grid0.coords t) = false := by decide +kernel

/-! ## The memrefs the body is called with -/

abbrev VO0_3 : View sig .tc .vmem S1x16x128 .f32 := (Memref.whole cc0_stg3_0 : Memref sig .tc .vmem S1x16x128 .f32).view
abbrev ms0_0 (t : Fin cfg0.N) : Memref sig .tc .vmem S1x4x51200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x51200 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x51200 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S16x128 .f32 := Memref.whole cc0_scratch0
abbrev VS0_0 : View sig .tc .vmem S16x128 .f32 := scM0_0.view

/-- The class's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body run once at the FIRST tile of an image (the reset branch taken, the copy-out branch not): on
  whole staging memrefs holding the three input blocks, the output block's buffer at anything (handed back untouched:
  the window is idle here) and the accumulator at anything, the body runs to the end, faults nowhere, leaves the
  inputs as they were and the accumulator at contents that depend only on the input blocks (zero, plus this tile's
  statistics in its first five columns).  The contents are the witness the run finds.
-/
import proofs.«401348_j19258633355266_3_alg».proof.Proof.KI.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first tile of an image; `.1` is what the accumulator holds afterwards. -/
noncomputable def kernelRun0_A (c : Dev nD) (i : grid0.Coords) (arg2 : Memref sig .tc .vmem S1x4x51200 .f32) (harg2 : arg2.IsWhole) (arg3 : Memref sig .tc .vmem S1x1x51200 .i32) (harg3 : arg3.IsWhole) (arg4 : Memref sig .tc .vmem S1x1x51200 .i32) (harg4 : arg4.IsWhole) (arg5 : Memref sig .tc .vmem S1x16x128 .f32) (harg5 : arg5.IsWhole) (arg6 : Memref sig .tc .vmem S16x128 .f32) (harg6 : arg6.IsWhole) (hc0 : cond0_0 i) (hc1 : ¬cond0_1 i)
    (x0 : Vec F S1x4x51200 .f32) (x1 : Vec F S1x1x51200 .i32) (x2 : Vec F S1x1x51200 .i32) :
    { S0 : Vec F S16x128 .f32 //
      ∀ (xi3 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare S0) -∗ K ⟨⟩))
          ⊢ wp frame (wpE (defs₀ (F := F)) Variants.none c none) E (cc0__agg_stats_kernel i arg2 harg2 arg3 harg3 arg4 harg4 arg5 harg5 arg6 harg6) K } := by
  refine ⟨?_, fun xi3 E K => ?run⟩
  case run =>
    simp only [cc0__agg_stats_kernel_eq_skeleton]; unfold cc0__agg_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    -- the accumulator: two pieces written, last first — rows 0:16, columns 0:5 (this tile's statistics added to what
    -- was read back), over the whole block of zeros.  The zero fill alone covers the block, so what the two writes
    -- leave reads the same over any prior contents: the witness is the read-back over contents nothing reads.
    iexists _; isplitr; swap
    · iexact HS0
    ipureintro
    refine (View.read_writes_of_cover arg6.view _ arg6.view arg6.view.junk _ ?_).trans ?_
    · exact View.cover_of_tiled _ S16x128.size (by sl_kernel_rfl)
    rfl

end Cert.KernelIdeal.Fr

end
-- ==== Proof.KI.RunB.lean ====
/-
  The kernel body run once at a MIDDLE tile of an image (neither branch taken): the accumulator, found at the
  contents the tile before left, ends with this tile's statistics added into its first five columns and its other
  columns as they were; the output block's buffer is handed back untouched.
-/
import proofs.«401348_j19258633355266_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle tile; `.1` is what the accumulator holds afterwards, over what it held before (`xs0`). -/
noncomputable def kernelRun0_B (c : Dev nD) (i : grid0.Coords) (arg2 : Memref sig .tc .vmem S1x4x51200 .f32) (harg2 : arg2.IsWhole) (arg3 : Memref sig .tc .vmem S1x1x51200 .i32) (harg3 : arg3.IsWhole) (arg4 : Memref sig .tc .vmem S1x1x51200 .i32) (harg4 : arg4.IsWhole) (arg5 : Memref sig .tc .vmem S1x16x128 .f32) (harg5 : arg5.IsWhole) (arg6 : Memref sig .tc .vmem S16x128 .f32) (harg6 : arg6.IsWhole) (hc0 : ¬cond0_0 i) (hc1 : ¬cond0_1 i)
    (x0 : Vec F S1x4x51200 .f32) (x1 : Vec F S1x1x51200 .i32) (x2 : Vec F S1x1x51200 .i32) (xs0 : Vec F S16x128 .f32) :
    { S0 : Vec F S16x128 .f32 //
      ∀ (xi3 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare S0) -∗ K ⟨⟩))
          ⊢ wp frame (wpE (defs₀ (F := F)) Variants.none c none) E (cc0__agg_stats_kernel i arg2 harg2 arg3 harg3 arg4 harg4 arg5 harg5 arg6 harg6) K } := by
  refine ⟨?_, fun xi3 E K => ?run⟩
  case run =>
    simp only [cc0__agg_stats_kernel_eq_skeleton]; unfold cc0__agg_stats_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap
    · iexact HS0
    ipureintro; rfl

end Cert.KernelIdeal.Fr

end
-- ==== Proof.KI.RunC.lean ====
/-
  The kernel body run once at the LAST tile of an image (the copy-out branch taken, the reset branch not): the
  accumulator ends as at a middle tile, and the output block's buffer, found at anything, ends holding the
  accumulator's final contents.
-/
import proofs.«401348_j19258633355266_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last tile; `.1` is what the output block's buffer holds afterwards, `.2.1` the accumulator. -/
noncomputable def kernelRun0_C (c : Dev nD) (i : grid0.Coords) (arg2 : Memref sig .tc .vmem S1x4x51200 .f32) (harg2 : arg2.IsWhole) (arg3 : Memref sig .tc .vmem S1x1x51200 .i32) (harg3 : arg3.IsWhole) (arg4 : Memref sig .tc .vmem S1x1x51200 .i32) (harg4 : arg4.IsWhole) (arg5 : Memref sig .tc .vmem S1x16x128 .f32) (harg5 : arg5.IsWhole) (arg6 : Memref sig .tc .vmem S16x128 .f32) (harg6 : arg6.IsWhole) (hc0 : ¬cond0_0 i) (hc1 : cond0_1 i)
    (x0 : Vec F S1x4x51200 .f32) (x1 : Vec F S1x1x51200 .i32) (x2 : Vec F S1x1x51200 .i32) (xs0 : Vec F S16x128 .f32) :
    Σ' (O3 : Vec F S1x16x128 .f32), { S0 : Vec F S16x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare O3 ∗ owns (c : Thread nD τ) arg6 fullShare S0) -∗ K ⟨⟩))
          ⊢ wp frame (wpE (defs₀ (F := F)) Variants.none c none) E (cc0__agg_stats_kernel i arg2 harg2 arg3 harg3 arg4 harg4 arg5 harg5 arg6 harg6) K } := by
  -- Both witnesses are left open and fixed by the run: they may mention neither the mask, the continuation, nor the
  -- unknown contents the output block's buffer is found at.
  refine ⟨?_, ?_, fun E K => ?run⟩
  case run =>
    simp only [cc0__agg_stats_kernel_eq_skeleton]; unfold cc0__agg_stats_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    -- a whole buffer's raw contents are determined by what is read through it
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    -- the three inputs are read only: each is handed back at the contents it came with
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    -- the output block: its one store is the whole shape, so what it reads afterwards does not depend on what it
    -- held before; the witness is that store read over arbitrary prior contents
    isplitl [H3]
    · iexists _; isplitr; swap; · iexact H3
      ipureintro
      refine View.read_writes_of_cover (Val := Elt F) _ _ arg5.view (arg5.view.junk (Val := Elt F)) _ (View.cover_of_wholeMem _ ?_)
      sl_whole_mem
    -- the accumulator: the rows 0:16, columns 0:5 store over the contents the tile before left
    iexists _; isplitr; swap; · iexact HS0
    ipureintro; rfl

end Cert.KernelIdeal.Fr

end
-- ==== Proof.KI.Frame.lean ====
/-
  The frame of the idealized kernel program, from the three runs of the body (first, middle and last tile of an
  image).  What the accumulator holds after each grid point is defined by recursion on the point: a first tile's
  contents depend only on the point's input blocks, a middle or last tile's also on what the point before left;
  the output block's buffer is stored only at an image's last tile and is idle elsewhere.  With these as the
  pipeline's proof data the body obligation holds at every point (a case split on the two branch conditions, each
  case that case's run), the region's invariant carries the accumulator from point to point, and the launch theorem
  for "host lines, one region, host lines" gives the run of @main; the frame claim reads the five arguments off it.
-/
import proofs.«401348_j19258633355266_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator and the output block's buffer hold after each point -/

/-- The output block's buffer where the body stores nothing into it: a placeholder nothing consults. -/
def outIdle : Vec F S1x16x128 .f32 := VO0_3.read (Elt F) (VO0_3.writes (Elt F) VO0_3.junk [])

/-- The accumulator after a first tile, at point `t`. -/
def accA (c : Dev nD) (t : Fin cfg0.N) (h0 : cond0_0 (grid0.coords t)) (h1 : ¬cond0_1 (grid0.coords t)) : Vec F S16x128 .f32 :=
  (kernelRun0_A c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t)).1
/-- The accumulator after a middle tile, at point `t`, over what the point before left (`xs`). -/
def accB (c : Dev nD) (t : Fin cfg0.N) (h0 : ¬cond0_0 (grid0.coords t)) (h1 : ¬cond0_1 (grid0.coords t)) (xs : Vec F S16x128 .f32) : Vec F S16x128 .f32 :=
  (kernelRun0_B c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs).1
/-- The output block's buffer after a last tile. -/
def outC (c : Dev nD) (t : Fin cfg0.N) (h0 : ¬cond0_0 (grid0.coords t)) (h1 : cond0_1 (grid0.coords t)) (xs : Vec F S16x128 .f32) : Vec F S1x16x128 .f32 :=
  (kernelRun0_C c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs).1
/-- The accumulator after a last tile. -/
def accC (c : Dev nD) (t : Fin cfg0.N) (h0 : ¬cond0_0 (grid0.coords t)) (h1 : cond0_1 (grid0.coords t)) (xs : Vec F S16x128 .f32) : Vec F S16x128 .f32 :=
  (kernelRun0_C c (grid0.coords t) (ms0_0 t) (hs0_0 t) (ms0_1 t) (hs0_1 t) (ms0_2 t) (hs0_2 t) (ms0_3 t) (hs0_3 t) scM0_0 (Memref.isWhole_whole _) h0 h1 (iblk m c 0 t) (iblk m c 1 t) (iblk m c 2 t) xs).2.1

/-- What the output block's buffer and the accumulator hold after the body at position `n`. -/
def outsAt0 (c : Dev nD) : (n : ℕ) → n < cfg0.N → Vec F S1x16x128 .f32 × Vec F S16x128 .f32
  | 0, hn => (outIdle, accA m c ⟨0, hn⟩ ((hcond0_0 ⟨0, hn⟩).mpr (Nat.zero_mod _)) (fun h => (fun h => by (try dsimp only at h); omega) ((hcond0_1 ⟨0, hn⟩).mp h)))
  | n + 1, hn =>
    if h0 : (n + 1) % 8 = 0 then
      if h1 : (n + 1) % 8 = 7 then
        False.elim (by omega)
      else
        (outIdle, accA m c ⟨n + 1, hn⟩ ((hcond0_0 ⟨n + 1, hn⟩).mpr h0) (fun h => h1 ((hcond0_1 ⟨n + 1, hn⟩).mp h)))
    else
      if h1 : (n + 1) % 8 = 7 then
        (outC m c ⟨n + 1, hn⟩ (fun h => h0 ((hcond0_0 ⟨n + 1, hn⟩).mp h)) ((hcond0_1 ⟨n + 1, hn⟩).mpr h1) (outsAt0 c n (Nat.lt_of_succ_lt hn)).2,
         accC m c ⟨n + 1, hn⟩ (fun h => h0 ((hcond0_0 ⟨n + 1, hn⟩).mp h)) ((hcond0_1 ⟨n + 1, hn⟩).mpr h1) (outsAt0 c n (Nat.lt_of_succ_lt hn)).2)
      else
        (outIdle, accB m c ⟨n + 1, hn⟩ (fun h => h0 ((hcond0_0 ⟨n + 1, hn⟩).mp h)) (fun h => h1 ((hcond0_1 ⟨n + 1, hn⟩).mp h)) (outsAt0 c n (Nat.lt_of_succ_lt hn)).2)

/-- `outsAt0` at a first tile. -/
theorem outsAt0_A (c : Dev nD) (t : Fin cfg0.N) (h0 : t.val % 8 = 0) (h1 : ¬t.val % 8 = 7) :
    outsAt0 m c t.val t.isLt = (outIdle, accA m c t ((hcond0_0 t).mpr h0) (fun h => h1 ((hcond0_1 t).mp h))) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 8 = 0) (h1 : ¬t.val % 8 = 7) :
    outsAt0 m c t.val t.isLt = (outIdle, accB m c t (fun h => h0 ((hcond0_0 t).mp h)) (fun h => h1 ((hcond0_1 t).mp h)) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 8 = 0) (h1 : t.val % 8 = 7) :
    outsAt0 m c t.val t.isLt = (outC m c t (fun h => h0 ((hcond0_0 t).mp h)) ((hcond0_1 t).mpr h1) (outsAt0 m c (t.val - 1) (Nat.lt_of_le_of_lt (Nat.sub_le _ _) t.isLt)).2,
      accC m c t (fun h => h0 ((hcond0_0 t).mp h)) ((hcond0_1 t).mpr h1) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the accumulator is at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the two conditions say which tile of its image the
    point is; the invariant hands the body the accumulator (at anything at the very first point, else at what the
    point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m 0 c) 3 t (idleAt0_3 t hc1) (noFlush0_3 t hc1)]
    rw [outsAt0_A m c t h0 h1]
    unfold accA; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk m c 0 t) (iblk m c 1 t) (iblk m c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold outC accC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1]
      unfold accB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- From any memory with zero counters every weakly fair execution of @main terminates, and every final state has
    every staged array at what the library computes from the proof data and every other unscoped buffer as the
    later host lines leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.Spec.lean ====
/-
  The mathematics both programs compute, stated once.

  For an image `b` (of 16) with 409600 = 640·640 pixels `p` (row-major), four channels of `pred`, and two label
  maps `T` (text instances) and `K` (kernel instances) with labels 0…8:

    energy b p      = Σ_ch pred(b, ch, p)²                         the channel energy of a pixel
    A  b j          = Σ_{p : T(b,p) = j} energy b p                energy over instance j's text pixels
    Bk b j          = Σ_{p : K(b,p) = j} energy b p                energy over its kernel pixels
    D  b j          = Σ_{p : K(b,p) = j, T(b,p) = K(b,p)} energy b p   over the overlap
    tcard b j, kcard b j = the two pixel counts

  and the loss is the sum over the 16·9 (image, instance) pairs of a pointwise function `lossAt` of these five
  numbers and of whether j ≥ 1 (the squared norm A + Bk/kc² − 2D/kc, its guarded square root less 1/2, log1p of the
  square over tc, masked by validity), every operation the exact one on the extended reals.  `lossVec` is the same
  function on arrays of any one shape, as both programs spell it; `lossVec_apply` reads it at an index.
-/
import Mathlib.Data.EReal.Operations
import Mathlib.Algebra.BigOperators.Fin
import Idealize.ShloMosaic.PureOps
import Idealize.ShloMosaic.PureOps.Ideal
import Idealize.ShloMosaic.Lib.ValueIdx

noncomputable section

namespace Cert.Spec

open Idealize.ShloMosaic Idealize.ShloMosaic.ValueIdx
open scoped BigOperators

/-- The shape of `pred`: [image, channel, row, column]. -/
abbrev SPred : Shape := ⟨4, ![16, 4, 640, 640]⟩
/-- The shape of a label map: [image, row, column]. -/
abbrev SLab : Shape := ⟨3, ![16, 640, 640]⟩
/-- The scalar shape. -/
abbrev S0 : Shape := ⟨0, ![]⟩

/-! ## The statistics -/

/-- Channel `ch` of pixel `p` (row-major over 640 × 640) of image `b`. -/
def predAt (pred : SPred.Idx → EReal) (b : Fin 16) (ch : Fin 4) (p : Fin 409600) : EReal :=
  pred (ix4 b ch (⟨p.val / 640, by have := p.isLt; omega⟩ : Fin 640) (⟨p.val % 640, by omega⟩ : Fin 640))

/-- The label of pixel `p` of image `b`. -/
def labAt (L : SLab.Idx → BitVec 32) (b : Fin 16) (p : Fin 409600) : BitVec 32 :=
  L (ix3 b (⟨p.val / 640, by have := p.isLt; omega⟩ : Fin 640) (⟨p.val % 640, by omega⟩ : Fin 640))

/-- The channel energy of a pixel. -/
def energy (pred : SPred.Idx → EReal) (b : Fin 16) (p : Fin 409600) : EReal :=
  ∑ ch : Fin 4, predAt pred b ch p * predAt pred b ch p

/-- The sum of `val` over the pixels of image `b` labelled `j` by `L`. -/
def seg (L : SLab.Idx → BitVec 32) (b : Fin 16) (j : ℕ) (val : Fin 409600 → EReal) : EReal :=
  ∑ p : Fin 409600, if labAt L b p = BitVec.ofNat 32 j then val p else 0

def statA (pred : SPred.Idx → EReal) (T K : SLab.Idx → BitVec 32) (b : Fin 16) (j : ℕ) : EReal :=
  seg T b j (energy pred b)
def statB (pred : SPred.Idx → EReal) (T K : SLab.Idx → BitVec 32) (b : Fin 16) (j : ℕ) : EReal :=
  seg K b j (energy pred b)
def statD (pred : SPred.Idx → EReal) (T K : SLab.Idx → BitVec 32) (b : Fin 16) (j : ℕ) : EReal :=
  seg K b j (fun p => if labAt T b p = labAt K b p then energy pred b p else 0)
/-- The float word 1.0, kept as the word both programs print (never evaluated). -/
def one32 : EReal := Ideal.ofBits .f32 0x3F800000#32
def statTc (T K : SLab.Idx → BitVec 32) (b : Fin 16) (j : ℕ) : EReal :=
  seg T b j (fun _ => one32)
def statKc (T K : SLab.Idx → BitVec 32) (b : Fin 16) (j : ℕ) : EReal :=
  seg K b j (fun _ => one32)

/-- The five statistics of (image, instance), by column: A, Bk, D, tcard, kcard. -/
def kstat (pred : SPred.Idx → EReal) (T K : SLab.Idx → BitVec 32) (b : Fin 16) (j : ℕ) (col : Fin 5) : EReal :=
  match col with
  | 0 => statA pred T K b j
  | 1 => statB pred T K b j
  | 2 => statD pred T K b j
  | 3 => statTc T K b j
  | 4 => statKc T K b j

/-- Every label is one of 0 … 8. -/
def LabelsOK (L : SLab.Idx → BitVec 32) : Prop := ∀ i, (L i).toNat ≤ 8

/-! ## The loss of one (image, instance) pair -/

section Loss
variable {F : FTy → Type} [FloatOps F]

/-- A float literal laid over a whole array of shape `s`. -/
def bc (s : Shape) (hb : S0.BroadcastsInDim s (![] : Fin 0 → Fin s.rank)) (w : BitVec 32) : FVec F s .f32 :=
  broadcastInDim s ![] hb (constant (F := F) S0 .f32 w)

/-- The per-instance loss on arrays of one shape, operation by operation as both programs apply them. -/
def lossVec (s : Shape) (hb : S0.BroadcastsInDim s (![] : Fin 0 → Fin s.rank))
    (A Bk D tc kc : FVec F s .f32) (ge1 : IVec s 1) : FVec F s .f32 :=
  let kcS : FVec F s .f32 := select (cmpf .ogt kc (bc s hb 0x00000000#32)) kc (bc s hb 0x3F800000#32)
  let tcS : FVec F s .f32 := select (cmpf .ogt tc (bc s hb 0x00000000#32)) tc (bc s hb 0x3F800000#32)
  let ss : FVec F s .f32 := subf (addf A (Host.divf Bk (mulf kcS kcS))) (Host.divf (mulf (bc s hb 0x40000000#32) D) kcS)
  let ssS : FVec F s .f32 := select (cmpf .ogt ss (bc s hb 0x00000000#32)) ss (bc s hb 0x3F800000#32)
  let nrm : FVec F s .f32 := subf (Host.sqrt ssS) (bc s hb 0x3F000000#32)
  let loss : FVec F s .f32 := Host.divf (Host.log1p (mulf nrm nrm)) tcS
  let valid : IVec s 1 := andi (andi (andi ge1 (cmpf .ogt tc (bc s hb 0x00000000#32))) (cmpf .ogt kc (bc s hb 0x00000000#32))) (cmpf .ogt ss (bc s hb 0x00000000#32))
  select valid loss (bc s hb 0x00000000#32)

/-- The same on five numbers and one bit. -/
def lossAt (A Bk D tc kc : F .f32) (ge1 : BitVec 1) : F .f32 :=
  let z : F .f32 := FloatOps.ofBits .f32 0x00000000#32
  let one : F .f32 := FloatOps.ofBits .f32 0x3F800000#32
  let kcS : F .f32 := Scalar.select (FloatOps.cmpf .ogt kc z) kc one
  let tcS : F .f32 := Scalar.select (FloatOps.cmpf .ogt tc z) tc one
  let ss : F .f32 := FloatOps.subf (FloatOps.addf A (FloatOps.hostDivf Bk (FloatOps.mulf kcS kcS))) (FloatOps.hostDivf (FloatOps.mulf (FloatOps.ofBits .f32 0x40000000#32) D) kcS)
  let ssS : F .f32 := Scalar.select (FloatOps.cmpf .ogt ss z) ss one
  let nrm : F .f32 := FloatOps.subf (FloatOps.hostUnary .sqrt ssS) (FloatOps.ofBits .f32 0x3F000000#32)
  let loss : F .f32 := FloatOps.hostDivf (FloatOps.hostUnary .log1p (FloatOps.mulf nrm nrm)) tcS
  let valid : BitVec 1 := IntOp.andi (IntOp.andi (IntOp.andi ge1 (FloatOps.cmpf .ogt tc z)) (FloatOps.cmpf .ogt kc z)) (FloatOps.cmpf .ogt ss z)
  Scalar.select valid loss z

/-- `lossVec` is `lossAt` at every index. -/
theorem lossVec_apply (s : Shape) (hb : S0.BroadcastsInDim s (![] : Fin 0 → Fin s.rank))
    (A Bk D tc kc : FVec F s .f32) (ge1 : IVec s 1) (i : s.Idx) :
    lossVec s hb A Bk D tc kc ge1 i = lossAt (A i) (Bk i) (D i) (tc i) (kc i) (ge1 i) := rfl

end Loss

/-- Whether an instance id counts (ids 1 … 8 do, the background 0 does not), as the word compare the programs make. -/
def instGe1 (j : ℕ) : BitVec 1 := IntOp.cmpi .sge (BitVec.ofNat 32 j) 1#32

/-- The loss of instance `j` of image `b`. -/
def lossOf (pred : SPred.Idx → EReal) (T K : SLab.Idx → BitVec 32) (b : Fin 16) (j : Fin 9) : EReal :=
  lossAt (F := Ideal) (statA pred T K b j.val) (statB pred T K b j.val) (statD pred T K b j.val)
    (statTc T K b j.val) (statKc T K b j.val) (instGe1 j.val)

/-- The result both programs return. -/
def total (pred : SPred.Idx → EReal) (T K : SLab.Idx → BitVec 32) : EReal :=
  ∑ b : Fin 16, ∑ j : Fin 9, lossOf pred T K b j

end Cert.Spec

end
-- ==== Proof.KI.TileVal.lean ====
/-
  One tile of the kernel, on the extended reals.  From a tile's three blocks — `x0` (4 channels × 51200 pixels of
  `pred`), `x1` and `x2` (the two label maps on the same pixels) — the body forms the pixel energies, the one-hot
  rows of the instance ids 0…15 against each label map, and two small matrix products whose columns are, per
  instance id j: the energy over the pixels labelled j, the same over the pixels where the two maps agree, and the
  pixel count.  Each of the five columns it keeps is a sum over the tile's pixels of a term that is the pixel's
  value where the label is j and zero elsewhere (a product with the one-hot bit, read as 1·x = x and 0·x = 0).
-/
import proofs.«401348_j19258633355266_3_alg».proof.Proof.Gen.KernelIdeal.Skeleton
import proofs.«401348_j19258633355266_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.TcCoe Idealize.ShloMosaic.ValueIdx Idealize.SL.Sem
open scoped BigOperators
open Cert.KernelIdeal Cert.KernelIdeal.Gen Cert.Spec

/-- The channel energy of pixel `q` of a tile's block. -/
def blkEnergy (x0 : Vec Ideal S1x4x51200 .f32) (q : Fin 51200) : EReal :=
  ∑ ch : Fin 4, x0 (ix3 (0 : Fin 1) ch q) * x0 (ix3 (0 : Fin 1) ch q)

/-- The label of pixel `q` of a tile's label block. -/
def blkLab (x : Vec Ideal S1x1x51200 .i32) (q : Fin 51200) : BitVec 32 := x (ix3 (0 : Fin 1) (0 : Fin 1) q)

/-- The sum of `val` over the tile's pixels labelled `j`. -/
def blkSeg (x : Vec Ideal S1x1x51200 .i32) (j : ℕ) (val : Fin 51200 → EReal) : EReal :=
  ∑ q : Fin 51200, if blkLab x q = BitVec.ofNat 32 j then val q else 0

/-! ## The pieces: the one-hot bit, the operands of the two products read at an index, the rows of the right operand -/

namespace Tile

/-- The one-hot word as an extended real. -/
theorem oneHot_word (a b : BitVec 32) :
    FloatOps.sitofp (F := Ideal) .f32 ((IntOp.cmpi .eq a b).setWidth 32) = if a = b then (1 : EReal) else 0 := by
  by_cases h : a = b
  · rw [if_pos h, IntOp.cmpi_eq.mpr h]
    show (((BitVec.toInt ((1#1 : BitVec 1).setWidth 32) : ℤ) : ℝ) : EReal) = 1
    have : BitVec.toInt ((1#1 : BitVec 1).setWidth 32) = 1 := by decide
    rw [this]; simp
  · rw [if_neg h, eq_zero_of_ne_one (fun hh => h (IntOp.cmpi_eq.mp hh))]
    show (((BitVec.toInt ((0#1 : BitVec 1).setWidth 32) : ℤ) : ℝ) : EReal) = 0
    have : BitVec.toInt ((0#1 : BitVec 1).setWidth 32) = 0 := by decide
    rw [this]; simp

/-- The dimension numbers of the two products: [16, 51200] against [3, 51200], contracting the pixel axis of both. -/
abbrev D := dot_S16x51200_S3x51200_S16x3_1_1_0_0_n_n

/-- The left operand's index at result index `J` and contraction index `k`: row `J 0`, column `k`. -/
theorem lhs_0 (J : S16x3.Idx) (k : D.contr.Idx) : (D.lhsIdx J k (0 : Fin 2)).val = (J 0).val := by
  unfold DotDims.lhsIdx
  rw [dif_neg (by decide), dif_pos (by decide)]
  rfl

theorem lhs_1 (J : S16x3.Idx) (k : D.contr.Idx) : (D.lhsIdx J k (1 : Fin 2)).val = (k ⟨0, by decide⟩).val :=
  D.lhsIdx_val_of_single (cl := (1 : Fin 2)) rfl J k

/-- The right operand's index at result index `J` and contraction index `k`: row `J 1`, column `k`. -/
theorem rhs_0 (J : S16x3.Idx) (k : D.contr.Idx) : (D.rhsIdx J k (0 : Fin 2)).val = (J 1).val := by
  unfold DotDims.rhsIdx
  rw [dif_neg (by decide), dif_pos (by decide)]
  rfl

theorem rhs_1 (J : S16x3.Idx) (k : D.contr.Idx) : (D.rhsIdx J k (1 : Fin 2)).val = (k ⟨0, by decide⟩).val :=
  D.rhsIdx_val_of_single (cr := (1 : Fin 2)) rfl J k

/-- The contraction index of pixel `q`. -/
abbrev kq (q : Fin 51200) : D.contr.Idx := (contrEquiv1 D 51200 rfl rfl).symm q

theorem lhs_at (j : Fin 16) (c : Fin 3) (q : Fin 51200) : D.lhsIdx (ix2 j c) (kq q) = ix2 j q :=
  Shape.idx_ext₂ (lhs_0 _ _) ((lhs_1 _ _).trans (contrEquiv1_symm_val D 51200 rfl rfl q))

theorem rhs_at (j : Fin 16) (c : Fin 3) (q : Fin 51200) : D.rhsIdx (ix2 j c) (kq q) = ix2 c q :=
  Shape.idx_ext₂ (rhs_0 _ _) ((rhs_1 _ _).trans (contrEquiv1_symm_val D 51200 rfl rfl q))

variable (x0 : Vec Ideal S1x4x51200 .f32) (x1 x2 : Vec Ideal S1x1x51200 .i32)

/-- A label block flattened to its pixels. -/
theorem flat_apply (x : Vec Ideal S1x1x51200 .i32) (h : S1x1x51200.ShapeCasts S51200) (q : Fin 51200) :
    shapeCast S51200 x h (ix1 q) = x (ix3 (0 : Fin 1) (0 : Fin 1) q) :=
  shapeCast_apply x h _ _ (by
    rw [Shape.rowMajor_val_three, Shape.rowMajor_val_one]
    show (0 * 1 + 0) * 51200 + q.val = q.val
    omega)

theorem pay4_apply (x : Vec Ideal S1x1x51200 .i32) (q : Fin 51200) :
    k0_pay4 (F := Ideal) x (ix1 q) = x (ix3 (0 : Fin 1) (0 : Fin 1) q) := flat_apply x _ q

theorem pay5_apply (x : Vec Ideal S1x1x51200 .i32) (q : Fin 51200) :
    k0_pay5 (F := Ideal) x (ix1 q) = x (ix3 (0 : Fin 1) (0 : Fin 1) q) := flat_apply x _ q

/-- The one-hot rows of the instance ids 0…15 against a flattened label vector. -/
def hot (v : IVec S51200 32) : FVec Ideal S16x51200 .bf16 :=
  truncf .bf16 (sitofp .f32 (extui 32 (cmpi .eq (iota .tc S16x51200 32 [0] iota_S16x51200_d0_w32)
    (broadcastTo S16x51200 (shapeCast S1x51200 (shapeCast S1x51200 v shapeCasts_S51200_S1x51200) shapeCasts_S1x51200_S1x51200)
      broadcasts_S1x51200_S16x51200)) natLt_1_32)) bitsLt_bf16_f32

/-- Row `j` of the one-hot matrix at pixel `q`: 1 where the pixel's label is `j`, else 0. -/
theorem hot_apply (v : IVec S51200 32) (j : Fin 16) (q : Fin 51200) :
    hot v (ix2 j q) = if v (ix1 q) = BitVec.ofNat 32 j.val then (1 : EReal) else 0 := by
  show FloatOps.sitofp (F := Ideal) .f32 ((IntOp.cmpi .eq (iota .tc S16x51200 32 [0] iota_S16x51200_d0_w32 (ix2 j q))
    (broadcastTo S16x51200 (shapeCast S1x51200 (shapeCast S1x51200 v shapeCasts_S51200_S1x51200) shapeCasts_S1x51200_S1x51200)
      broadcasts_S1x51200_S16x51200 (ix2 j q))).setWidth 32) = _
  rw [iota_single_apply, broadcastTo_1b_ab_apply, shapeCast_self, shapeCast_a_1a_apply, oneHot_word]
  exact if_congr eq_comm rfl rfl

/-- The pixel energies of a tile, as the body forms them. -/
def eRow (x0 : Vec Ideal S1x4x51200 .f32) : FVec Ideal S51200 .f32 :=
  multiReduction .add [0] S51200 (mulf (shapeCast S4x51200 x0 shapeCasts_S1x4x51200_S4x51200) (shapeCast S4x51200 x0 shapeCasts_S1x4x51200_S4x51200))
    0x00000000#32 reduces_S4x51200_S51200 (.inl rfl) rfl

theorem eRow_apply (q : Fin 51200) : eRow x0 (ix1 q) = blkEnergy x0 q := by
  refine (Ideal.multiReduction_add_single _ _ reduces_S4x51200_S51200 _ _ (ix1 q)).trans ?_
  show ∑ ch : Fin 4, _ = ∑ ch : Fin 4, _
  refine Finset.sum_congr rfl fun ch _ => ?_
  have hl : reduces_S4x51200_S51200.lift (ix1 q) ch = ix2 ch q := Shape.idx_ext₂ rfl rfl
  rw [hl, mulf_apply, shapeCast_1ab_ab_apply]

/-- The agreement bit of the two label maps, as a float. -/
def sameRow (x1 x2 : Vec Ideal S1x1x51200 .i32) : FVec Ideal S51200 .f32 :=
  sitofp .f32 (extui 32 (cmpi .eq (k0_pay4 (F := Ideal) x1) (k0_pay5 (F := Ideal) x2)) natLt_1_32)

theorem sameRow_apply (q : Fin 51200) :
    sameRow x1 x2 (ix1 q) = if blkLab x1 q = blkLab x2 q then (1 : EReal) else 0 := by
  show FloatOps.sitofp (F := Ideal) .f32 ((IntOp.cmpi .eq (k0_pay4 (F := Ideal) x1 (ix1 q)) (k0_pay5 (F := Ideal) x2 (ix1 q))).setWidth 32) = _
  rw [pay4_apply, pay5_apply, oneHot_word]
  rfl

section Rows3
variable {α : Type} (r0 r1 r2 : S1x51200.Idx → α) (h : Shape.Concatenates [S1x51200, S1x51200, S1x51200] S3x51200 0)

/-- Three one-row matrices stacked: row 0 reads the first … -/
theorem rows3_apply0 (q : Fin 51200) :
    concatenate S3x51200 0 [⟨S1x51200, r0⟩, ⟨S1x51200, r1⟩, ⟨S1x51200, r2⟩] h (ix2 (0 : Fin 3) q) = r0 (ix2 (0 : Fin 1) q) :=
  concatenate_apply_piece (t := S3x51200) (0 : Fin 2) [⟨S1x51200, r0⟩, ⟨S1x51200, r1⟩, ⟨S1x51200, r2⟩] h (ix2 (0 : Fin 3) q) 0 (by simp)
    S1x51200 r0 rfl rfl 0 rfl (ix2 (0 : Fin 1) q)
    (fun b hb => match b with
      | ⟨0, _⟩ => absurd rfl hb
      | ⟨1, _⟩ => rfl) rfl

/-- … row 1 the second … -/
theorem rows3_apply1 (q : Fin 51200) :
    concatenate S3x51200 0 [⟨S1x51200, r0⟩, ⟨S1x51200, r1⟩, ⟨S1x51200, r2⟩] h (ix2 (1 : Fin 3) q) = r1 (ix2 (0 : Fin 1) q) :=
  concatenate_apply_piece (t := S3x51200) (0 : Fin 2) [⟨S1x51200, r0⟩, ⟨S1x51200, r1⟩, ⟨S1x51200, r2⟩] h (ix2 (1 : Fin 3) q) 1 (by simp)
    S1x51200 r1 rfl rfl 1 rfl (ix2 (0 : Fin 1) q)
    (fun b hb => match b with
      | ⟨0, _⟩ => absurd rfl hb
      | ⟨1, _⟩ => rfl) rfl

/-- … and row 2 the third. -/
theorem rows3_apply2 (q : Fin 51200) :
    concatenate S3x51200 0 [⟨S1x51200, r0⟩, ⟨S1x51200, r1⟩, ⟨S1x51200, r2⟩] h (ix2 (2 : Fin 3) q) = r2 (ix2 (0 : Fin 1) q) :=
  concatenate_apply_piece (t := S3x51200) (0 : Fin 2) [⟨S1x51200, r0⟩, ⟨S1x51200, r1⟩, ⟨S1x51200, r2⟩] h (ix2 (2 : Fin 3) q) 2 (by simp)
    S1x51200 r2 rfl rfl 2 rfl (ix2 (0 : Fin 1) q)
    (fun b hb => match b with
      | ⟨0, _⟩ => absurd rfl hb
      | ⟨1, _⟩ => rfl) rfl

end Rows3

theorem pay6_eq : k0_pay6 (F := Ideal) x0 x1 x2 = truncf .bf16 (concatenate S3x51200 0
    [⟨S1x51200, shapeCast S1x51200 (eRow x0) shapeCasts_S51200_S1x51200⟩,
     ⟨S1x51200, shapeCast S1x51200 (mulf (eRow x0) (sameRow x1 x2)) shapeCasts_S51200_S1x51200⟩,
     ⟨S1x51200, broadcast S1x51200 (Scalar.ofBits (F := Ideal) .f32 0x3F800000#32)⟩]
    concatenates_S1x51200_S1x51200_S1x51200_S3x51200_d0) bitsLt_bf16_f32 := rfl

/-- The three rows of the right operand at pixel `q`: the energy, the energy where the two maps agree, the word 1.0. -/
theorem pay6_row0 (q : Fin 51200) : k0_pay6 (F := Ideal) x0 x1 x2 (ix2 (0 : Fin 3) q) = blkEnergy x0 q := by
  rw [pay6_eq, truncf_apply, rows3_apply0]
  rw [shapeCast_a_1a_apply, eRow_apply]

theorem pay6_row1 (q : Fin 51200) : k0_pay6 (F := Ideal) x0 x1 x2 (ix2 (1 : Fin 3) q)
    = if blkLab x1 q = blkLab x2 q then blkEnergy x0 q else 0 := by
  rw [pay6_eq, truncf_apply, rows3_apply1]
  rw [shapeCast_a_1a_apply, mulf_apply, eRow_apply, sameRow_apply, mul_ite, mul_one, mul_zero]

theorem pay6_row2 (q : Fin 51200) : k0_pay6 (F := Ideal) x0 x1 x2 (ix2 (2 : Fin 3) q) = one32 := by
  rw [pay6_eq, truncf_apply, rows3_apply2]
  rfl

/-- A product against the one-hot rows, read at (instance id, column): the sum over the tile's pixels of the one-hot bit
    times the column's row of the right operand. -/
theorem hotmul_apply (v : IVec S51200 32) (j : Fin 16) (c : Fin 3) :
    matmul (F := Ideal) D none (hot v) (k0_pay6 (F := Ideal) x0 x1 x2) (constant S16x3 .f32 0x00000000#32) (ix2 j c)
      = ∑ q : Fin 51200, hot v (ix2 j q) * k0_pay6 (F := Ideal) x0 x1 x2 (ix2 c q) := by
  simp only [matmul]
  rw [Ideal.matmul_constant_zero_apply, ← Equiv.sum_comp (contrEquiv1 D 51200 rfl rfl).symm]
  refine Finset.sum_congr rfl fun q _ => ?_
  show hot v (D.lhsIdx (ix2 j c) (kq q)) * k0_pay6 (F := Ideal) x0 x1 x2 (D.rhsIdx (ix2 j c) (kq q)) = _
  rw [lhs_at, rhs_at]

theorem pay7_eq : k0_pay7 (F := Ideal) x0 x1 x2
    = matmul (F := Ideal) D none (hot (k0_pay4 (F := Ideal) x1)) (k0_pay6 (F := Ideal) x0 x1 x2) (constant S16x3 .f32 0x00000000#32) := rfl

theorem pay8_eq : k0_pay8 (F := Ideal) x0 x1 x2
    = matmul (F := Ideal) D none (hot (k0_pay5 (F := Ideal) x2)) (k0_pay6 (F := Ideal) x0 x1 x2) (constant S16x3 .f32 0x00000000#32) := rfl

/-- The first product at (j, c): over the pixels the first map labels `j`, the column's row. -/
theorem pay7_apply (j : Fin 16) (c : Fin 3) : k0_pay7 (F := Ideal) x0 x1 x2 (ix2 j c)
    = blkSeg x1 j.val (fun q => k0_pay6 (F := Ideal) x0 x1 x2 (ix2 c q)) := by
  rw [pay7_eq, hotmul_apply]
  unfold blkSeg
  refine Finset.sum_congr rfl fun q _ => ?_
  rw [hot_apply, pay4_apply, ite_mul, one_mul, zero_mul]
  rfl

/-- The second product at (j, c): over the pixels the second map labels `j`, the column's row. -/
theorem pay8_apply (j : Fin 16) (c : Fin 3) : k0_pay8 (F := Ideal) x0 x1 x2 (ix2 j c)
    = blkSeg x2 j.val (fun q => k0_pay6 (F := Ideal) x0 x1 x2 (ix2 c q)) := by
  rw [pay8_eq, hotmul_apply]
  unfold blkSeg
  refine Finset.sum_congr rfl fun q _ => ?_
  rw [hot_apply, pay5_apply, ite_mul, one_mul, zero_mul]
  rfl

end Tile

open Tile

/-! ## The five columns -/

variable (x0 : Vec Ideal S1x4x51200 .f32) (x1 x2 : Vec Ideal S1x1x51200 .i32)

/-- Column A of a tile: the energy over the pixels the first map labels `j`. -/
theorem pay9_apply (j : Fin 16) :
    k0_pay9 (F := Ideal) x0 x1 x2 (ix2 j (0 : Fin 1)) = blkSeg x1 j.val (blkEnergy x0) := by
  show extractStridedSlice S16x1 ![0, 0] (k0_pay7 (F := Ideal) x0 x1 x2) slices_S16x3_o0_0_S16x1 (ix2 j (0 : Fin 1)) = _
  rw [slice2_axis1_apply 0 _ _ j (0 : Fin 1) (0 : Fin 3) rfl, pay7_apply]
  exact congrArg (blkSeg x1 j.val) (funext fun q => pay6_row0 x0 x1 x2 q)

/-- Column Bk: the energy over the pixels the second map labels `j`. -/
theorem pay10_apply (j : Fin 16) :
    k0_pay10 (F := Ideal) x0 x1 x2 (ix2 j (0 : Fin 1)) = blkSeg x2 j.val (blkEnergy x0) := by
  show extractStridedSlice S16x1 ![0, 0] (k0_pay8 (F := Ideal) x0 x1 x2) slices_S16x3_o0_0_S16x1 (ix2 j (0 : Fin 1)) = _
  rw [slice2_axis1_apply 0 _ _ j (0 : Fin 1) (0 : Fin 3) rfl, pay8_apply]
  exact congrArg (blkSeg x2 j.val) (funext fun q => pay6_row0 x0 x1 x2 q)

/-- Column D: the energy over the pixels the second map labels `j` and on which the two maps agree. -/
theorem pay11_apply (j : Fin 16) :
    k0_pay11 (F := Ideal) x0 x1 x2 (ix2 j (0 : Fin 1))
      = blkSeg x2 j.val (fun q => if blkLab x1 q = blkLab x2 q then blkEnergy x0 q else 0) := by
  show extractStridedSlice S16x1 ![0, 1] (k0_pay8 (F := Ideal) x0 x1 x2) slices_S16x3_o0_1_S16x1 (ix2 j (0 : Fin 1)) = _
  rw [slice2_axis1_apply 1 _ _ j (0 : Fin 1) (1 : Fin 3) rfl, pay8_apply]
  exact congrArg (blkSeg x2 j.val) (funext fun q => pay6_row1 x0 x1 x2 q)

/-- Column tcard: the count (in units of the float word 1.0) of the pixels the first map labels `j`. -/
theorem pay12_apply (j : Fin 16) :
    k0_pay12 (F := Ideal) x0 x1 x2 (ix2 j (0 : Fin 1)) = blkSeg x1 j.val (fun _ => one32) := by
  show extractStridedSlice S16x1 ![0, 2] (k0_pay7 (F := Ideal) x0 x1 x2) slices_S16x3_o0_2_S16x1 (ix2 j (0 : Fin 1)) = _
  rw [slice2_axis1_apply 2 _ _ j (0 : Fin 1) (2 : Fin 3) rfl, pay7_apply]
  exact congrArg (blkSeg x1 j.val) (funext fun q => pay6_row2 x0 x1 x2 q)

/-- Column kcard: the count of the pixels the second map labels `j`. -/
theorem pay13_apply (j : Fin 16) :
    k0_pay13 (F := Ideal) x0 x1 x2 (ix2 j (0 : Fin 1)) = blkSeg x2 j.val (fun _ => one32) := by
  show extractStridedSlice S16x1 ![0, 2] (k0_pay8 (F := Ideal) x0 x1 x2) slices_S16x3_o0_2_S16x1 (ix2 j (0 : Fin 1)) = _
  rw [slice2_axis1_apply 2 _ _ j (0 : Fin 1) (2 : Fin 3) rfl, pay8_apply]
  exact congrArg (blkSeg x2 j.val) (funext fun q => pay6_row2 x0 x1 x2 q)

end Cert.KernelIdeal.Val

end
-- ==== Proof.KI.AccVal.lean ====
/-
  What the three runs of the body leave, read at an index, on the extended reals: the accumulator's first five
  columns after a first tile hold that tile's five statistics (the zero it was reset to plus them), after a middle
  or last tile what they held before plus the tile's statistics; the output block at a last tile holds the
  accumulator.

  Each run's contents are a list of stored pieces over what the buffer held.  An entry in rows 0:16, columns 0:5 lies
  under the newest piece, so it reads that piece at the same row and column: the five one-column vectors laid side by
  side (column `col` is vector `col`) added to what was loaded from the same place — the zeros of the reset at a first
  tile, the previous contents at a middle or last tile.  The output block's one store is the whole accumulator with a
  unit axis in front.
-/
import proofs.«401348_j19258633355266_3_alg».proof.Proof.KI.Frame
import proofs.«401348_j19258633355266_3_alg».proof.Proof.KI.TileVal
import Idealize.ShloMosaic.Lib.Writes
import Idealize.ShloMosaic.Lib.WritesUnit
import Idealize.ShloMosaic.Lib.WholeRead

noncomputable section

namespace Cert.KernelIdeal.Val

open Idealize.ShloMosaic Idealize.ShloMosaic.TcCoe Idealize.ShloMosaic.ValueIdx Idealize.SL.Sem
open Idealize.ShloMosaic.Tactic
open scoped BigOperators
open Cert.KernelIdeal Cert.KernelIdeal.Gen Cert.KernelIdeal.Fr Cert.Spec

/-- The five statistics of one tile, by column, at instance id `j`. -/
def tileStat (x0 : Vec Ideal S1x4x51200 .f32) (x1 x2 : Vec Ideal S1x1x51200 .i32) (j : Fin 16) (col : Fin 5) : EReal :=
  match col with
  | 0 => k0_pay9 (F := Ideal) x0 x1 x2 (ix2 j (0 : Fin 1))
  | 1 => k0_pay10 (F := Ideal) x0 x1 x2 (ix2 j (0 : Fin 1))
  | 2 => k0_pay11 (F := Ideal) x0 x1 x2 (ix2 j (0 : Fin 1))
  | 3 => k0_pay12 (F := Ideal) x0 x1 x2 (ix2 j (0 : Fin 1))
  | 4 => k0_pay13 (F := Ideal) x0 x1 x2 (ix2 j (0 : Fin 1))

/-! ## The stored piece at an index -/

/-- Column `col` of five one-column vectors. -/
def acc_colOf (v37 v38 v39 v40 v41 : FVec Ideal S16x1 .f32) (col : Fin 5) : FVec Ideal S16x1 .f32 :=
  match col with
  | 0 => v37
  | 1 => v38
  | 2 => v39
  | 3 => v40
  | 4 => v41

/-- Five one-column vectors laid side by side, read at row `j`, column `col`: vector `col` at row `j`. -/
theorem acc_concat_apply (v37 v38 v39 v40 v41 : FVec Ideal S16x1 .f32) (j : Fin 16) (col : Fin 5) :
    concatenate S16x5 1 [⟨S16x1, v37⟩, ⟨S16x1, v38⟩, ⟨S16x1, v39⟩, ⟨S16x1, v40⟩, ⟨S16x1, v41⟩]
        concatenates_S16x1_S16x1_S16x1_S16x1_S16x1_S16x5_d1 (ix2 j col)
      = acc_colOf v37 v38 v39 v40 v41 col (ix2 j (0 : Fin 1)) := by
  -- off the concatenation axis (the rows) the piece's index has the result's coordinate
  have hi : ∀ b : Fin S16x1.rank, b.cast (rfl : S16x1.rank = S16x5.rank) ≠ (1 : Fin S16x5.rank) →
      ((ix2 j (0 : Fin 1) : S16x1.Idx) b).val = ((ix2 j col : S16x5.Idx) (b.cast rfl)).val := fun b hb => by
    match b with
    | ⟨0, _⟩ => rfl
    | ⟨1, _⟩ => exact absurd rfl hb
  -- piece `k` spans column `k` alone: the `k` pieces before it are one column each
  match col with
  | 0 => exact concatenate_apply_piece (1 : Fin S16x5.rank) _ _ (ix2 j 0) 0 (by simp) S16x1 v37 rfl rfl 0 rfl (ix2 j (0 : Fin 1)) hi rfl
  | 1 => exact concatenate_apply_piece (1 : Fin S16x5.rank) _ _ (ix2 j 1) 1 (by simp) S16x1 v38 rfl rfl 1 rfl (ix2 j (0 : Fin 1)) hi rfl
  | 2 => exact concatenate_apply_piece (1 : Fin S16x5.rank) _ _ (ix2 j 2) 2 (by simp) S16x1 v39 rfl rfl 2 rfl (ix2 j (0 : Fin 1)) hi rfl
  | 3 => exact concatenate_apply_piece (1 : Fin S16x5.rank) _ _ (ix2 j 3) 3 (by simp) S16x1 v40 rfl rfl 3 rfl (ix2 j (0 : Fin 1)) hi rfl
  | 4 => exact concatenate_apply_piece (1 : Fin S16x5.rank) _ _ (ix2 j 4) 4 (by simp) S16x1 v41 rfl rfl 4 rfl (ix2 j (0 : Fin 1)) hi rfl

/-- The stored piece at row `j`, column `col`: what was loaded there plus column `col`'s vector at row `j`. -/
theorem acc_pay1_apply (v37 v38 v39 v40 v41 : FVec Ideal S16x1 .f32) (v43 : Vec Ideal S16x5 .f32) (j : Fin 16) (col : Fin 5) :
    k0_pay1 (F := Ideal) v37 v38 v39 v40 v41 v43 (ix2 j col)
      = v43 (ix2 j col) + acc_colOf v37 v38 v39 v40 v41 col (ix2 j (0 : Fin 1)) := by
  unfold k0_pay1
  refine (congrFun (shapeCast_self _ _) _).trans ?_
  refine (addf_apply _ _ _).trans ?_
  exact congrArg (v43 (ix2 j col) + ·) (acc_concat_apply v37 v38 v39 v40 v41 j col)

/-- The tile's statistics are the five payload columns. -/
theorem acc_tileStat_eq (x0 : Vec Ideal S1x4x51200 .f32) (x1 x2 : Vec Ideal S1x1x51200 .i32) (j : Fin 16) (col : Fin 5) :
    acc_colOf (k0_pay9 (F := Ideal) x0 x1 x2) (k0_pay10 (F := Ideal) x0 x1 x2) (k0_pay11 (F := Ideal) x0 x1 x2)
      (k0_pay12 (F := Ideal) x0 x1 x2) (k0_pay13 (F := Ideal) x0 x1 x2) col (ix2 j (0 : Fin 1)) = tileStat x0 x1 x2 j col := by
  match col with
  | 0 => rfl
  | 1 => rfl
  | 2 => rfl
  | 3 => rfl
  | 4 => rfl

/-- The reset value is zero everywhere. -/
theorem acc_pay3_apply (y : S16x128.Idx) : k0_pay3 (F := Ideal) y = 0 := by
  unfold k0_pay3
  refine (congrFun (shapeCast_self _ _) _).trans ?_
  exact Ideal.ofBits_zero_f32

/-! ## Loads and stores at an index -/

theorem acc_hz2 : (![0, 0] : Fin 2 → Nat) = fun _ => 0 := funext fun a => by fin_cases a <;> rfl
theorem acc_hz3 : (![0, 0, 0] : Fin 3 → Nat) = fun _ => 0 := funext fun a => by fin_cases a <;> rfl

/-- A whole block loaded from a whole buffer that holds `X` is `X`. -/
theorem acc_load_whole {S : Shape} {e : EltTy} (mr : Memref sig .tc .vmem S e) (h : mr.IsWhole) (X : S.Idx → Elt Ideal e)
    {off : Fin S.rank → Nat} (hz : off = fun _ => 0) (inb : ∀ a, off a + S.size a ≤ S.size a) :
    View.readAt (Elt Ideal) mr.view (Rect.unit off S.size inb).toLoadRect (h.unread X) = X := by
  rw [View.readAt_eq_ld, h.read_unread, View.ld_unit_zero hz]

/-- Rows 0:16, columns 0:5 loaded from a whole accumulator that holds `X`, at row `j`, column `col`. -/
theorem acc_load_cols (mr : Memref sig .tc .vmem S16x128 .f32) (h : mr.IsWhole) (X : Vec Ideal S16x128 .f32)
    (j : Fin 16) (col : Fin 5) :
    View.readAt (Elt Ideal) mr.view (Rect.unit (s := S16x128) ![0, 0] S16x5.size inb_S16x128_S16x5_0_0).toLoadRect (h.unread X) (ix2 j col)
      = X (ix2 j (⟨col.val, by omega⟩ : Fin 128)) := by
  refine (h.readAt_unread X (Rect.unit (s := S16x128) ![0, 0] S16x5.size inb_S16x128_S16x5_0_0).toLoadRect (ix2 j col)).trans (congrArg X ?_)
  funext a
  match a with
  | ⟨0, _⟩ => exact Fin.ext (by show 0 + 1 * j.val = j.val; omega)
  | ⟨1, _⟩ => exact Fin.ext (by show 0 + 1 * col.val = col.val; omega)

/-- After a store through rows 0:16, columns 0:5, row `j`, column `col` (below 5) reads the stored piece there,
    whatever was stored before. -/
theorem acc_read_piece {κ : Kind} {sp : Space} (v : View sig κ sp S16x128 .f32) (f : v.ty.Contents (Elt Ideal)) (w : FVec Ideal S16x5 .f32)
    (L : List (View.Piece (Elt Ideal) S16x128 .f32)) (j : Fin 16) (col : Fin 5) :
    v.read (Elt Ideal) (v.writes (Elt Ideal) f ((⟨Rect.unit (s := S16x128) ![0, 0] S16x5.size inb_S16x128_S16x5_0_0, w⟩ : View.Piece (Elt Ideal) S16x128 .f32) :: L))
        (ix2 j (⟨col.val, by omega⟩ : Fin 128)) = w (ix2 j col) :=
  View.read_writes_cons_unit_of_mem v f inb_S16x128_S16x5_0_0 w L (ix2 j (⟨col.val, by omega⟩ : Fin 128)) (ix2 j col) rfl
    (fun a => by
      match a with
      | ⟨0, _⟩ => exact (Nat.zero_add _).symm
      | ⟨1, _⟩ => exact (Nat.zero_add _).symm)

/-- The whole accumulator loaded is what it reads. -/
theorem acc_load_all {κ : Kind} {sp : Space} (v : View sig κ sp S16x128 .f32) (f : v.ty.Contents (Elt Ideal)) :
    View.readAt (Elt Ideal) v (Rect.unit (s := S16x128) ![0, 0] S16x128.size inb_S16x128_S16x128_0_0).toLoadRect f = v.read (Elt Ideal) f :=
  (View.readAt_eq_ld v f _).trans (View.ld_unit_zero acc_hz2 _ _)

/-- The same columns loaded back after the reset alone: zero. -/
theorem acc_load_reset {κ : Kind} {sp : Space} (v : View sig κ sp S16x128 .f32) (j : Fin 16) (col : Fin 5) :
    v.readCov [(⟨Rect.unit (s := S16x128) ![0, 0] S16x128.size inb_S16x128_S16x128_0_0, k0_pay3 (F := Ideal)⟩ : View.Piece (Elt Ideal) S16x128 .f32)]
        (Rect.unit (s := S16x128) ![0, 0] S16x5.size inb_S16x128_S16x5_0_0).toLoadRect (ix2 j col) = 0 := by
  refine (congrFun (View.readCov_eq_canon' v
    [(⟨Rect.unit (s := S16x128) ![0, 0] S16x128.size inb_S16x128_S16x128_0_0, k0_pay3 (F := Ideal)⟩ : View.Piece (Elt Ideal) S16x128 .f32)]
    (Rect.unit (s := S16x128) ![0, 0] S16x5.size inb_S16x128_S16x5_0_0).toLoadRect) (ix2 j col)).trans ?_
  refine (congrFun (View.canon_unit_zero (Val := Elt Ideal) (S := S16x128) (e := .f32) acc_hz2 inb_S16x128_S16x128_0_0 (k0_pay3 (F := Ideal))) _).trans ?_
  exact acc_pay3_apply _

/-! ## The three runs' contents, generic in the buffers -/

/-- First tile: the reset, then the update of columns 0:5 over the zeros read back. -/
theorem acc_first_apply {κ κ' : Kind} {sp sp' : Space} (v : View sig κ sp S16x128 .f32) (v' : View sig κ' sp' S16x128 .f32)
    (f : v.ty.Contents (Elt Ideal)) (v37 v38 v39 v40 v41 : FVec Ideal S16x1 .f32) (j : Fin 16) (col : Fin 5) :
    v.read (Elt Ideal) (v.writes (Elt Ideal) f
        [⟨Rect.unit (s := S16x128) ![0, 0] S16x5.size inb_S16x128_S16x5_0_0,
          k0_pay1 (F := Ideal) v37 v38 v39 v40 v41
            (v'.readCov [(⟨Rect.unit (s := S16x128) ![0, 0] S16x128.size inb_S16x128_S16x128_0_0, k0_pay3 (F := Ideal)⟩ : View.Piece (Elt Ideal) S16x128 .f32)]
              (Rect.unit (s := S16x128) ![0, 0] S16x5.size inb_S16x128_S16x5_0_0).toLoadRect)⟩,
         ⟨Rect.unit (s := S16x128) ![0, 0] S16x128.size inb_S16x128_S16x128_0_0, k0_pay3 (F := Ideal)⟩])
        (ix2 j (⟨col.val, by omega⟩ : Fin 128))
      = acc_colOf v37 v38 v39 v40 v41 col (ix2 j (0 : Fin 1)) := by
  refine (acc_read_piece v f _ _ j col).trans ?_
  refine (acc_pay1_apply v37 v38 v39 v40 v41 _ j col).trans ?_
  rw [acc_load_reset v' j col, zero_add]

/-- Middle or last tile: the update of columns 0:5 over what the accumulator held. -/
theorem acc_next_apply (mr : Memref sig .tc .vmem S16x128 .f32) (h : mr.IsWhole) (X : Vec Ideal S16x128 .f32)
    (v37 v38 v39 v40 v41 : FVec Ideal S16x1 .f32) (j : Fin 16) (col : Fin 5) :
    mr.view.read (Elt Ideal) (mr.view.writes (Elt Ideal) (h.unread X)
        [⟨Rect.unit (s := S16x128) ![0, 0] S16x5.size inb_S16x128_S16x5_0_0,
          k0_pay1 (F := Ideal) v37 v38 v39 v40 v41
            (View.readAt (Elt Ideal) mr.view (Rect.unit (s := S16x128) ![0, 0] S16x5.size inb_S16x128_S16x5_0_0).toLoadRect (h.unread X))⟩])
        (ix2 j (⟨col.val, by omega⟩ : Fin 128))
      = X (ix2 j (⟨col.val, by omega⟩ : Fin 128)) + acc_colOf v37 v38 v39 v40 v41 col (ix2 j (0 : Fin 1)) := by
  refine (acc_read_piece mr.view (h.unread X) _ [] j col).trans ?_
  refine (acc_pay1_apply v37 v38 v39 v40 v41 _ j col).trans ?_
  exact congrArg (· + acc_colOf v37 v38 v39 v40 v41 col (ix2 j (0 : Fin 1))) (acc_load_cols mr h X j col)

/-- Last tile's copy-out: the output block's one whole store, of the accumulator `V` with a unit axis in front. -/
theorem acc_out_apply {κ : Kind} {sp : Space} (v : View sig κ sp S1x16x128 .f32) (f : v.ty.Contents (Elt Ideal)) (V : Vec Ideal S16x128 .f32)
    (j : Fin 16) (col : Fin 128) :
    v.read (Elt Ideal) (v.writes (Elt Ideal) f
        [⟨Rect.unit (s := S1x16x128) ![0, 0, 0] S1x16x128.size inb_S1x16x128_S1x16x128_0_0_0, k0_pay2 (F := Ideal) V⟩])
        (ix3 (0 : Fin 1) j col) = V (ix2 j col) := by
  refine (View.read_writes_cons_unit_of_mem v f inb_S1x16x128_S1x16x128_0_0_0 (k0_pay2 (F := Ideal) V) []
    (ix3 (0 : Fin 1) j col) (ix3 (0 : Fin 1) j col) rfl (fun a => by
      match a with
      | ⟨0, _⟩ => exact (Nat.zero_add _).symm
      | ⟨1, _⟩ => exact (Nat.zero_add _).symm
      | ⟨2, _⟩ => exact (Nat.zero_add _).symm)).trans ?_
  unfold k0_pay2
  refine (shapeCast_addUnit_apply ![16, 128] V _ (ix3 (0 : Fin 1) j col)).trans (congrArg V ?_)
  funext a
  match a with
  | ⟨0, _⟩ => rfl
  | ⟨1, _⟩ => rfl

variable (m : (ℓ : Loc nD τ sig) → Buf (Elt Ideal) ℓ)

/-- After a first tile: the tile's statistics. -/
theorem accA_apply (c : Dev nD) (t : Fin cfg0.N) (h0 : cond0_0 (grid0.coords t)) (h1 : ¬cond0_1 (grid0.coords t))
    (j : Fin 16) (col : Fin 5) :
    accA (F := Ideal) m c t h0 h1 (ix2 j (⟨col.val, by omega⟩ : Fin 128))
      = tileStat (iblk m c 0 t) (iblk m c 1 t) (iblk m c 2 t) j col := by
  unfold accA; unfold kernelRun0_A; dsimp only
  sl_unfold_run_names
  rw [acc_load_whole (ms0_0 t) (hs0_0 t) (iblk m c 0 t) acc_hz3, acc_load_whole (ms0_1 t) (hs0_1 t) (iblk m c 1 t) acc_hz3,
    acc_load_whole (ms0_2 t) (hs0_2 t) (iblk m c 2 t) acc_hz3]
  refine (acc_first_apply (View.whole cc0_scratch0) scM0_0.view _ _ _ _ _ _ j col).trans ?_
  exact acc_tileStat_eq (iblk m c 0 t) (iblk m c 1 t) (iblk m c 2 t) j col

/-- After a middle tile: what was there plus the tile's statistics. -/
theorem accB_apply (c : Dev nD) (t : Fin cfg0.N) (h0 : ¬cond0_0 (grid0.coords t)) (h1 : ¬cond0_1 (grid0.coords t))
    (xs : Vec Ideal S16x128 .f32) (j : Fin 16) (col : Fin 5) :
    accB (F := Ideal) m c t h0 h1 xs (ix2 j (⟨col.val, by omega⟩ : Fin 128))
      = xs (ix2 j (⟨col.val, by omega⟩ : Fin 128)) + tileStat (iblk m c 0 t) (iblk m c 1 t) (iblk m c 2 t) j col := by
  unfold accB; unfold kernelRun0_B; dsimp only
  sl_unfold_run_names
  rw [acc_load_whole (ms0_0 t) (hs0_0 t) (iblk m c 0 t) acc_hz3, acc_load_whole (ms0_1 t) (hs0_1 t) (iblk m c 1 t) acc_hz3,
    acc_load_whole (ms0_2 t) (hs0_2 t) (iblk m c 2 t) acc_hz3]
  refine (acc_next_apply scM0_0 (Memref.isWhole_whole _) xs _ _ _ _ _ j col).trans ?_
  exact congrArg (xs (ix2 j (⟨col.val, by omega⟩ : Fin 128)) + ·) (acc_tileStat_eq (iblk m c 0 t) (iblk m c 1 t) (iblk m c 2 t) j col)

/-- After a last tile: the same. -/
theorem accC_apply (c : Dev nD) (t : Fin cfg0.N) (h0 : ¬cond0_0 (grid0.coords t)) (h1 : cond0_1 (grid0.coords t))
    (xs : Vec Ideal S16x128 .f32) (j : Fin 16) (col : Fin 5) :
    accC (F := Ideal) m c t h0 h1 xs (ix2 j (⟨col.val, by omega⟩ : Fin 128))
      = xs (ix2 j (⟨col.val, by omega⟩ : Fin 128)) + tileStat (iblk m c 0 t) (iblk m c 1 t) (iblk m c 2 t) j col := by
  unfold accC; unfold kernelRun0_C; dsimp only
  sl_unfold_run_names
  rw [acc_load_whole (ms0_0 t) (hs0_0 t) (iblk m c 0 t) acc_hz3, acc_load_whole (ms0_1 t) (hs0_1 t) (iblk m c 1 t) acc_hz3,
    acc_load_whole (ms0_2 t) (hs0_2 t) (iblk m c 2 t) acc_hz3]
  refine (acc_next_apply scM0_0 (Memref.isWhole_whole _) xs _ _ _ _ _ j col).trans ?_
  exact congrArg (xs (ix2 j (⟨col.val, by omega⟩ : Fin 128)) + ·) (acc_tileStat_eq (iblk m c 0 t) (iblk m c 1 t) (iblk m c 2 t) j col)

/-- The output block after a last tile is the accumulator after it. -/
theorem outC_apply (c : Dev nD) (t : Fin cfg0.N) (h0 : ¬cond0_0 (grid0.coords t)) (h1 : cond0_1 (grid0.coords t))
    (xs : Vec Ideal S16x128 .f32) (j : Fin 16) (col : Fin 128) :
    outC (F := Ideal) m c t h0 h1 xs (ix3 (0 : Fin 1) j col) = accC (F := Ideal) m c t h0 h1 xs (ix2 j col) := by
  unfold outC accC; unfold kernelRun0_C; dsimp only
  sl_unfold_run_names
  refine (acc_out_apply (ms0_3 t).view _ _ j col).trans ?_
  exact congrFun (acc_load_all scM0_0.view _) (ix2 j col)

end Cert.KernelIdeal.Val

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.SpecSums.lean ====
/-
  Sums regrouped.  The host's sum of all entries of a 16 × 9 array, and of a 144-vector read as 16 blocks of 9, are
  both the double sum over (image, instance); a sum over an image's 409600 pixels is the sum over its eight tiles of
  51200 pixels; a term weighted by a 0/1 indicator is the term where the indicator is 1.
-/
import proofs.«401348_j19258633355266_3_alg».proof.Proof.Spec
import proofs.«401348_j19258633355266_3_alg».proof.Proof.LibSums
import Idealize.ShloMosaic.PureOps.Ideal.Laws
import Idealize.ShloMosaic.Lib.ValueIdx

noncomputable section

namespace Cert.Spec

open Idealize.ShloMosaic Idealize.ShloMosaic.TcCoe Idealize.ShloMosaic.ValueIdx Idealize.SL.Sem
open scoped BigOperators

/-! ## Blocks of consecutive places -/

/-- A place inside one of `B` blocks of `R` consecutive places lies below `B * R`. -/
theorem lt_blocks {B R b r : ℕ} (hb : b < B) (hr : r < R) : R * b + r < B * R := by
  calc R * b + r < R * b + R := Nat.add_lt_add_left hr _
    _ = R * (b + 1) := (Nat.mul_succ R b).symm
    _ ≤ R * B := Nat.mul_le_mul_left R hb
    _ = B * R := Nat.mul_comm R B

/-- A sum over `N = B * R` places is the double sum over the `B` blocks and the `R` places of a block, the place
    `r` of block `b` being `R * b + r`: the pairs (block, place) are in bijection with the places. -/
theorem sum_fin_blocks {M : Type*} [AddCommMonoid M] {N : ℕ} (B R : ℕ) (hN : B * R = N) (f : Fin N → M) :
    ∑ p : Fin N, f p
      = ∑ b : Fin B, ∑ r : Fin R, f (⟨R * b.val + r.val, hN ▸ lt_blocks b.isLt r.isLt⟩ : Fin N) := by
  subst hN
  rw [← Equiv.sum_comp (finProdFinEquiv (m := B) (n := R)) f, Fintype.sum_prod_type]
  refine Finset.sum_congr rfl fun b _ => Finset.sum_congr rfl fun r _ => congrArg f (Fin.ext ?_)
  show r.val + R * b.val = R * b.val + r.val
  exact Nat.add_comm _ _

/-! ## The host's total sums -/

/-- The scalar shape has no axis, so the condition "every axis has size one" is empty. -/
theorem S0_size_one : ∀ b : Fin S0.rank, S0.size b = 1 := fun b => b.elim0

/-- The host's sum of every entry of a [16, 9] array (initial value the float word 0) is the double sum. -/
theorem reduce16x9 (f : FVec Ideal (⟨2, ![16, 9]⟩ : Shape) .f32)
    (h : (⟨2, ![16, 9]⟩ : Shape).ReducesTo [0, 1] S0) (hu : 0 < S0.numel) :
    Host.reduceAdd (F := Ideal) f (constant (F := Ideal) S0 .f32 0x00000000#32) h hu
      = fun _ => ∑ b : Fin 16, ∑ j : Fin 9, f (ix2 b j) := by
  funext j
  show Ideal.hostReduceAdd h f (Ideal.ofBits .f32 0x00000000#32) j = _
  rw [Ideal.hostReduceAdd_total h S0_size_one, Ideal.ofBits_zero_f32, zero_add, sum_idx2]

/-- The host's sum of every entry of a 144-vector, read as 16 blocks of 9. -/
theorem reduce144 (g : FVec Ideal (⟨1, ![144]⟩ : Shape) .f32)
    (h : (⟨1, ![144]⟩ : Shape).ReducesTo [0] S0) (hu : 0 < S0.numel) :
    Host.reduceAdd (F := Ideal) g (constant (F := Ideal) S0 .f32 0x00000000#32) h hu
      = fun _ => ∑ b : Fin 16, ∑ j : Fin 9, g (ix1 (⟨9 * b.val + j.val, by have := b.isLt; have := j.isLt; omega⟩ : Fin 144)) := by
  funext j
  show Ideal.hostReduceAdd h g (Ideal.ofBits .f32 0x00000000#32) j = _
  rw [Ideal.hostReduceAdd_total h S0_size_one, Ideal.ofBits_zero_f32, zero_add, Cert.LibSums.sum_idx1]
  exact sum_fin_blocks 16 9 rfl fun p => g (ix1 p)

/-- A sum over an image's pixels is the sum over its eight tiles of 51200 pixels. -/
theorem sum_tiles (f : Fin 409600 → EReal) :
    ∑ p : Fin 409600, f p
      = ∑ k : Fin 8, ∑ q : Fin 51200, f (⟨51200 * k.val + q.val, by have := k.isLt; have := q.isLt; omega⟩ : Fin 409600) := by
  exact sum_fin_blocks 8 51200 rfl f

/-- A sum over all 16 · 409600 pixels is the sum over images of the sum over an image's pixels. -/
theorem sum_images (f : Fin 6553600 → EReal) :
    ∑ n : Fin 6553600, f n
      = ∑ b : Fin 16, ∑ p : Fin 409600, f (⟨409600 * b.val + p.val, by have := b.isLt; have := p.isLt; omega⟩ : Fin 6553600) := by
  exact sum_fin_blocks 16 409600 rfl f

end Cert.Spec

end
-- ==== Proof.KI.ArrVal.lean ====
/-
  The statistics array the pallas_call returns, on the extended reals.  Image `b` is the eight grid points
  8b … 8b+7; the accumulator after tile k of an image holds, in its first five columns, the sum of the statistics of
  tiles 0 … k (an induction on k over the per-point contents); the output block of image `b` is written back once,
  at the image's last tile, from the accumulator; so entry (b, j, col) of the returned array is the sum over the
  image's eight tiles of the tile's statistic, which is the sum over all 409600 pixels of the image (eight blocks of
  51200), the pixel (k, q) of the tiling being pixel 51200·k + q of the flattened image, i.e. row (51200k+q)/640,
  column (51200k+q) mod 640 of the argument.
-/
import proofs.«401348_j19258633355266_3_alg».proof.Proof.KI.AccVal
import proofs.«401348_j19258633355266_3_alg».proof.Proof.LibSums
import proofs.«401348_j19258633355266_3_alg».proof.Proof.SpecSums
import Idealize.ShloMosaic.Lib.Pipeline.Value

noncomputable section

namespace Cert.KernelIdeal.Val

open Idealize.ShloMosaic Idealize.ShloMosaic.TcCoe Idealize.ShloMosaic.ValueIdx Idealize.SL.Sem
open scoped BigOperators
open Cert.KernelIdeal Cert.KernelIdeal.Gen Cert.KernelIdeal.Fr Cert.Spec

variable (m : (ℓ : Loc nD τ sig) → Buf (Elt Ideal) ℓ)

/-! Auxiliary lemmas for `stats3`. -/
namespace ArrVal

/-! ## The three input arrays as the region finds them: the arguments, pixel axes flattened -/

theorem V_v0 (c : Dev nD) :
    (V m c main_v0 : S16x4x409600.Idx → EReal)
      = shapeCast S16x4x409600 (m ((c : Thread nD τ).loc main_arg0)) shapeCasts_S16x4x640x640_S16x4x409600 := by
  show StableHlo.after hostOps0 (fun b => m (c, b)) (Proc.devRef .tc main_v0) = _
  after_results
  rfl

theorem V_v1 (c : Dev nD) :
    (V m c main_v1 : S16x1x409600.Idx → BitVec 32)
      = shapeCast S16x1x409600 (m ((c : Thread nD τ).loc main_arg3)) shapeCasts_S16x640x640_S16x1x409600 := by
  show StableHlo.after hostOps0 (fun b => m (c, b)) (Proc.devRef .tc main_v1) = _
  after_results
  rfl

theorem V_v2 (c : Dev nD) :
    (V m c main_v2 : S16x1x409600.Idx → BitVec 32)
      = shapeCast S16x1x409600 (m ((c : Thread nD τ).loc main_arg4)) shapeCasts_S16x640x640_S16x1x409600 := by
  show StableHlo.after hostOps0 (fun b => m (c, b)) (Proc.devRef .tc main_v2) = _
  after_results
  rfl

/-- The flattened `pred` at (image, channel, pixel) is the argument at the pixel's row and column. -/
theorem V_v0_apply (c : Dev nD) (b : Fin 16) (ch : Fin 4) (p : Fin 409600) :
    (V m c main_v0 : S16x4x409600.Idx → EReal) (ix3 b ch p) = predAt (m ((c : Thread nD τ).loc main_arg0)) b ch p := by
  rw [V_v0]
  unfold predAt
  refine shapeCast_apply _ _ _ _ ?_
  show (S16x4x640x640.rowMajor _).val = (S16x4x409600.rowMajor _).val
  rw [Shape.rowMajor_val_four, Shape.rowMajor_val_three]
  show ((b.val * 4 + ch.val) * 640 + p.val / 640) * 640 + p.val % 640 = (b.val * 4 + ch.val) * 409600 + p.val
  omega

/-- A flattened label map at (image, pixel) is the argument at the pixel's row and column. -/
theorem V_v1_apply (c : Dev nD) (b : Fin 16) (p : Fin 409600) :
    (V m c main_v1 : S16x1x409600.Idx → BitVec 32) (ix3 b (0 : Fin 1) p) = labAt (m ((c : Thread nD τ).loc main_arg3)) b p := by
  rw [V_v1]
  unfold labAt
  refine shapeCast_apply _ _ _ _ ?_
  show (S16x640x640.rowMajor _).val = (S16x1x409600.rowMajor _).val
  rw [Shape.rowMajor_val_three, Shape.rowMajor_val_three]
  show (b.val * 640 + p.val / 640) * 640 + p.val % 640 = (b.val * 1 + 0) * 409600 + p.val
  omega

theorem V_v2_apply (c : Dev nD) (b : Fin 16) (p : Fin 409600) :
    (V m c main_v2 : S16x1x409600.Idx → BitVec 32) (ix3 b (0 : Fin 1) p) = labAt (m ((c : Thread nD τ).loc main_arg4)) b p := by
  rw [V_v2]
  unfold labAt
  refine shapeCast_apply _ _ _ _ ?_
  show (S16x640x640.rowMajor _).val = (S16x1x409600.rowMajor _).val
  rw [Shape.rowMajor_val_three, Shape.rowMajor_val_three]
  show (b.val * 640 + p.val / 640) * 640 + p.val % 640 = (b.val * 1 + 0) * 409600 + p.val
  omega

/-! ## The windows' block indices over the grid: point t is tile t mod 8 of image t / 8 -/

theorem idx_in : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = t.val % 8 :=
  (by decide +kernel : ∀ t : Fin grid0.N, _)

/-- Pixel q of channel ch of the `pred` block at point 8b + k is pixel 51200k + q of image b. -/
theorem iblk0_apply (c : Dev nD) (t : Fin cfg0.N) (b : Fin 16) (k : Fin 8) (ht : t.val = 8 * b.val + k.val)
    (ch : Fin 4) (q : Fin 51200) :
    (iblk m c 0 t : Vec Ideal S1x4x51200 .f32) (ix3 (0 : Fin 1) ch q)
      = predAt (m ((c : Thread nD τ).loc main_arg0)) b ch
          (⟨51200 * k.val + q.val, by have := k.isLt; have := q.isLt; omega⟩ : Fin 409600) := by
  obtain ⟨e0, e1, e2, -⟩ := idx_in t
  rw [← V_v0_apply m c b ch]
  unfold iblk
  rw [View.read_apply]
  show V m c main_v0 _ = V m c main_v0 _
  congr 1
  funext a
  apply Fin.ext
  match a with
  | ⟨0, _⟩ => show win0_0.index t (0 : Fin 3) * 1 + 1 * 0 = b.val; rw [e0, ht]; have := k.isLt; omega
  | ⟨1, _⟩ => show win0_0.index t (1 : Fin 3) * 4 + 1 * ch.val = ch.val; rw [e1]; omega
  | ⟨2, _⟩ => show win0_0.index t (2 : Fin 3) * 51200 + 1 * q.val = 51200 * k.val + q.val; rw [e2, ht]; have := k.isLt; omega

/-- Pixel q of the first label block at point 8b + k is pixel 51200k + q of image b of the first label map. -/
theorem iblk1_apply (c : Dev nD) (t : Fin cfg0.N) (b : Fin 16) (k : Fin 8) (ht : t.val = 8 * b.val + k.val) (q : Fin 51200) :
    (iblk m c 1 t : Vec Ideal S1x1x51200 .i32) (ix3 (0 : Fin 1) (0 : Fin 1) q)
      = labAt (m ((c : Thread nD τ).loc main_arg3)) b
          (⟨51200 * k.val + q.val, by have := k.isLt; have := q.isLt; omega⟩ : Fin 409600) := by
  obtain ⟨-, -, -, e0, e1, e2, -⟩ := idx_in t
  rw [← V_v1_apply m c b]
  unfold iblk
  rw [View.read_apply]
  show V m c main_v1 _ = V m c main_v1 _
  congr 1
  funext a
  apply Fin.ext
  match a with
  | ⟨0, _⟩ => show win0_1.index t (0 : Fin 3) * 1 + 1 * 0 = b.val; rw [e0, ht]; have := k.isLt; omega
  | ⟨1, _⟩ => show win0_1.index t (1 : Fin 3) * 1 + 1 * 0 = 0; rw [e1]
  | ⟨2, _⟩ => show win0_1.index t (2 : Fin 3) * 51200 + 1 * q.val = 51200 * k.val + q.val; rw [e2, ht]; have := k.isLt; omega

/-- The same for the second label map. -/
theorem iblk2_apply (c : Dev nD) (t : Fin cfg0.N) (b : Fin 16) (k : Fin 8) (ht : t.val = 8 * b.val + k.val) (q : Fin 51200) :
    (iblk m c 2 t : Vec Ideal S1x1x51200 .i32) (ix3 (0 : Fin 1) (0 : Fin 1) q)
      = labAt (m ((c : Thread nD τ).loc main_arg4)) b
          (⟨51200 * k.val + q.val, by have := k.isLt; have := q.isLt; omega⟩ : Fin 409600) := by
  obtain ⟨-, -, -, -, -, -, e0, e1, e2⟩ := idx_in t
  rw [← V_v2_apply m c b]
  unfold iblk
  rw [View.read_apply]
  show V m c main_v2 _ = V m c main_v2 _
  congr 1
  funext a
  apply Fin.ext
  match a with
  | ⟨0, _⟩ => show win0_2.index t (0 : Fin 3) * 1 + 1 * 0 = b.val; rw [e0, ht]; have := k.isLt; omega
  | ⟨1, _⟩ => show win0_2.index t (1 : Fin 3) * 1 + 1 * 0 = 0; rw [e1]
  | ⟨2, _⟩ => show win0_2.index t (2 : Fin 3) * 51200 + 1 * q.val = 51200 * k.val + q.val; rw [e2, ht]; have := k.isLt; omega

/-! ## The accumulator over an image's eight tiles -/

/-- Point 8b + s is on the grid. -/
theorem pt_lt (b : Fin 16) (s : ℕ) (h : s < 8) : 8 * b.val + s < cfg0.N := by
  have := b.isLt; rw [show cfg0.N = 128 from N_0]; omega

/-- A tile's statistic (instance id j, column col), as a function of the grid point. -/
def ptStat (c : Dev nD) (j : Fin 16) (col : Fin 5) (t : Fin cfg0.N) : EReal :=
  tileStat (iblk m c 0 t) (iblk m c 1 t) (iblk m c 2 t) j col

/-- The statistic of tile s of image b; zero past the eighth tile. -/
def tstat (c : Dev nD) (b : Fin 16) (j : Fin 16) (col : Fin 5) (s : ℕ) : EReal :=
  if h : s < 8 then ptStat m c j col ⟨8 * b.val + s, pt_lt b s h⟩ else 0

/-- After a first tile the accumulator's column holds the tile's statistic. -/
theorem step_A (c : Dev nD) (n : ℕ) (h : n < cfg0.N) (h0 : n % 8 = 0) (j : Fin 16) (col : Fin 5) :
    (outsAt0 m c n h).2 (ix2 j (⟨col.val, by omega⟩ : Fin 128)) = ptStat m c j col ⟨n, h⟩ := by
  have h1 : ¬n % 8 = 7 := by omega
  rw [outsAt0_A m c ⟨n, h⟩ h0 h1]
  dsimp only
  exact accA_apply m c ⟨n, h⟩ _ _ j col

/-- After a middle tile it holds what it held plus the tile's statistic. -/
theorem step_B (c : Dev nD) (n : ℕ) (h : n + 1 < cfg0.N) (h0 : ¬(n + 1) % 8 = 0) (h1 : ¬(n + 1) % 8 = 7)
    (j : Fin 16) (col : Fin 5) :
    (outsAt0 m c (n + 1) h).2 (ix2 j (⟨col.val, by omega⟩ : Fin 128))
      = (outsAt0 m c n (Nat.lt_of_succ_lt h)).2 (ix2 j (⟨col.val, by omega⟩ : Fin 128)) + ptStat m c j col ⟨n + 1, h⟩ := by
  rw [outsAt0_B m c ⟨n + 1, h⟩ h0 h1]
  dsimp only
  exact accB_apply m c ⟨n + 1, h⟩ _ _ _ j col

/-- After a last tile likewise. -/
theorem step_C (c : Dev nD) (n : ℕ) (h : n + 1 < cfg0.N) (h0 : ¬(n + 1) % 8 = 0) (h1 : (n + 1) % 8 = 7)
    (j : Fin 16) (col : Fin 5) :
    (outsAt0 m c (n + 1) h).2 (ix2 j (⟨col.val, by omega⟩ : Fin 128))
      = (outsAt0 m c n (Nat.lt_of_succ_lt h)).2 (ix2 j (⟨col.val, by omega⟩ : Fin 128)) + ptStat m c j col ⟨n + 1, h⟩ := by
  rw [outsAt0_C m c ⟨n + 1, h⟩ h0 h1]
  dsimp only
  exact accC_apply m c ⟨n + 1, h⟩ _ _ _ j col

/-- After tile k of image b the accumulator's column holds the sum of the statistics of tiles 0 … k. -/
theorem acc_sum (c : Dev nD) (b : Fin 16) (j : Fin 16) (col : Fin 5) :
    ∀ (k : ℕ) (hk : k < 8) (n : ℕ) (hn : n = 8 * b.val + k) (h : n < cfg0.N),
      (outsAt0 m c n h).2 (ix2 j (⟨col.val, by omega⟩ : Fin 128)) = ∑ s ∈ Finset.range (k + 1), tstat m c b j col s
  | 0, hk, n, hn, h => by
    rw [step_A m c n h (by omega) j col, Finset.sum_range_one, tstat, dif_pos hk]
    exact congrArg (ptStat m c j col) (Fin.ext hn)
  | k + 1, hk, n, hn, h => by
    obtain ⟨n', rfl⟩ : ∃ n', n = n' + 1 := ⟨8 * b.val + k, by omega⟩
    have ih := acc_sum c b j col k (by omega) n' (by omega) (Nat.lt_of_succ_lt h)
    have e : ptStat m c j col ⟨n' + 1, h⟩ = tstat m c b j col (k + 1) := by
      rw [tstat, dif_pos hk]
      exact congrArg (ptStat m c j col) (Fin.ext hn)
    rw [Finset.sum_range_succ _ (k + 1), ← ih, ← e]
    by_cases h7 : (n' + 1) % 8 = 7
    · exact step_C m c n' h (by omega) h7 j col
    · exact step_B m c n' h (by omega) h7 j col

/-- The output window's block index: image t / 8, whole in the other two axes. -/
theorem idx_out : ∀ t : Fin cfg0.N,
    win0_3.index t (0 : Fin 3) = t.val / 8 ∧ win0_3.index t (1 : Fin 3) = 0 ∧ win0_3.index t (2 : Fin 3) = 0 :=
  (by decide +kernel : ∀ t : Fin grid0.N, _)

/-! ## The returned array: image b's block is what the output block's buffer holds after the image's last tile -/

/-- The array of the blocks written back: entry (b, j, l) is entry (0, j, l) of the output block's buffer after point 8b + 7. -/
def outArr (c : Dev nD) : S16x16x128.Idx → EReal := fun i =>
  (outsAt0 m c (8 * (i 0).val + 7) (pt_lt ⟨(i 0).val, (i 0).isLt⟩ 7 (by omega))).1
    (ix3 (0 : Fin 1) (⟨(i 1).val, (i 1).isLt⟩ : Fin 16) (⟨(i 2).val, (i 2).isLt⟩ : Fin 128))

theorem outs1_congr (c : Dev nD) {n n' : ℕ} (e : n = n') (h : n < cfg0.N) (h' : n' < cfg0.N) {x x' : S1x16x128.Idx}
    (ex : x = x') : (outsAt0 (F := Ideal) m c n h).1 x = (outsAt0 (F := Ideal) m c n' h').1 x' := by
  subst e; subst ex; rfl

/-- What a last tile writes back is its image's block of that array. -/
theorem flushed3_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  obtain ⟨e0, e1, e2⟩ := idx_out t
  show (cfg0.win 3).cut (grid0.coords t) ((dats m 0 c).after 3 t) = _
  rw [after0_3]
  funext y
  rw [View.read_apply]
  unfold outArr
  have hy0 : (y 0).val < 1 := (y 0).isLt
  show (outsAt0 (F := Ideal) m c t.val t.isLt).1 _ = (outsAt0 (F := Ideal) m c _ _).1 _
  refine outs1_congr m c ?_ _ _ ?_
  · show t.val = 8 * (win0_3.index t (0 : Fin 3) * 1 + 1 * (y 0).val) + 7
    rw [e0]; omega
  · funext a; apply Fin.ext
    match a with
    | ⟨0, _⟩ => show (y 0).val = 0; omega
    | ⟨1, _⟩ => show (y 1).val = win0_3.index t (1 : Fin 3) * 16 + 1 * (y 1).val; rw [e1]; omega
    | ⟨2, _⟩ => show (y 2).val = win0_3.index t (2 : Fin 3) * 128 + 1 * (y 2).val; rw [e2]; omega

/-- Every entry of the array lies in the block of its image's last tile. -/
theorem cover3 (c : Dev nD) (i : S16x16x128.Idx) :
    ∃ t : Fin cfg0.N, (cfg0.win 3).flush t = true ∧ i ∈ ((cfg0.win 3).blk t).view.set := by
  have hi0 : (i 0).val < 16 := (i 0).isLt
  have hi1 : (i 1).val < 16 := (i 1).isLt
  have hi2 : (i 2).val < 128 := (i 2).isLt
  obtain ⟨t, ht⟩ : ∃ t : Fin cfg0.N, t.val = 8 * (i 0).val + 7 :=
    ⟨⟨8 * (i 0).val + 7, by rw [show cfg0.N = 128 from N_0]; omega⟩, rfl⟩
  obtain ⟨e0, e1, e2⟩ := idx_out t
  refine ⟨t, (flush0_3 t).mpr (by omega), ?_⟩
  show i ∈ ((View.whole main_v3).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 16 ≤ (i 1).val ∧ (i 1).val < win0_3.index t (1 : Fin 3) * 16 + 16
    rw [e1]; omega
  | ⟨2, _⟩ =>
    show win0_3.index t (2 : Fin 3) * 128 ≤ (i 2).val ∧ (i 2).val < win0_3.index t (2 : Fin 3) * 128 + 128
    rw [e2]; omega

/-- The sixteen last tiles' blocks cover the array, so it ends holding exactly those blocks. -/
theorem arr3 (c : Dev nD) : (dats m 0 c).arrAt 3 cfg0.N = outArr m c :=
  (dats m 0 c).arrAt_eq_of_cover 3 (outArr m c) (flushed3_eq m c) (cover3 c)

/-- Entry (b, j, l) of the returned array. -/
theorem arr3_apply (c : Dev nD) (b : Fin 16) (j : Fin 16) (l : Fin 128) :
    ((dats m 0 c).arrAt 3 cfg0.N : S16x16x128.Idx → EReal) (ix3 b j l)
      = (outsAt0 (F := Ideal) m c (8 * b.val + 7) (pt_lt b 7 (by omega))).1 (ix3 (0 : Fin 1) j l) := by
  rw [arr3]
  rfl

/-- At a last tile the output block's buffer holds the accumulator. -/
theorem out_last (c : Dev nD) (n : ℕ) (h : n < cfg0.N) (h1 : n % 8 = 7) (j : Fin 16) (l : Fin 128) :
    (outsAt0 (F := Ideal) m c n h).1 (ix3 (0 : Fin 1) j l) = (outsAt0 (F := Ideal) m c n h).2 (ix2 j l) := by
  have h0 : ¬n % 8 = 0 := by omega
  rw [outsAt0_C m c ⟨n, h⟩ h0 h1]
  dsimp only
  exact outC_apply m c ⟨n, h⟩ _ _ _ j l

/-! ## The statistics as sums of one term per pixel -/

/-- What pixel p of image b adds to statistic col of instance id j. -/
def pix (pred : SPred.Idx → EReal) (T K : SLab.Idx → BitVec 32) (b : Fin 16) (j : ℕ) (col : Fin 5) (p : Fin 409600) : EReal :=
  match col with
  | 0 => if labAt T b p = BitVec.ofNat 32 j then energy pred b p else 0
  | 1 => if labAt K b p = BitVec.ofNat 32 j then energy pred b p else 0
  | 2 => if labAt K b p = BitVec.ofNat 32 j then (if labAt T b p = labAt K b p then energy pred b p else 0) else 0
  | 3 => if labAt T b p = BitVec.ofNat 32 j then one32 else 0
  | 4 => if labAt K b p = BitVec.ofNat 32 j then one32 else 0

/-- Each statistic is the sum of its pixels' terms over the image. -/
theorem kstat_eq_sum (pred : SPred.Idx → EReal) (T K : SLab.Idx → BitVec 32) (b : Fin 16) (j : ℕ) (col : Fin 5) :
    kstat pred T K b j col = ∑ p : Fin 409600, pix pred T K b j col p := by
  match col with
  | 0 =>
    show seg T b j (energy pred b) = _
    unfold seg
    exact Finset.sum_congr rfl fun p _ => rfl
  | 1 =>
    show seg K b j (energy pred b) = _
    unfold seg
    exact Finset.sum_congr rfl fun p _ => rfl
  | 2 =>
    show seg K b j (fun p => if labAt T b p = labAt K b p then energy pred b p else 0) = _
    unfold seg
    exact Finset.sum_congr rfl fun p _ => rfl
  | 3 =>
    show seg T b j (fun _ => one32) = _
    unfold seg
    exact Finset.sum_congr rfl fun p _ => rfl
  | 4 =>
    show seg K b j (fun _ => one32) = _
    unfold seg
    exact Finset.sum_congr rfl fun p _ => rfl

/-- The statistic of the tile at point 8b + k is the sum of the terms of the image's pixels 51200k … 51200k + 51199. -/
theorem ptStat_eq (c : Dev nD) (b : Fin 16) (k : Fin 8) (t : Fin cfg0.N) (ht : t.val = 8 * b.val + k.val)
    (j : Fin 16) (col : Fin 5) :
    ptStat m c j col t
      = ∑ q : Fin 51200, pix (m ((c : Thread nD τ).loc main_arg0)) (m ((c : Thread nD τ).loc main_arg3)) (m ((c : Thread nD τ).loc main_arg4))
          b j.val col (⟨51200 * k.val + q.val, by have := k.isLt; have := q.isLt; omega⟩ : Fin 409600) := by
  have hE : ∀ q : Fin 51200, blkEnergy (iblk m c 0 t) q
      = energy (m ((c : Thread nD τ).loc main_arg0)) b (⟨51200 * k.val + q.val, by have := k.isLt; have := q.isLt; omega⟩ : Fin 409600) :=
    fun q => Finset.sum_congr rfl fun ch _ =>
      congrArg₂ (· * ·) (iblk0_apply m c t b k ht ch q) (iblk0_apply m c t b k ht ch q)
  have hT : ∀ q : Fin 51200, blkLab (iblk m c 1 t) q
      = labAt (m ((c : Thread nD τ).loc main_arg3)) b (⟨51200 * k.val + q.val, by have := k.isLt; have := q.isLt; omega⟩ : Fin 409600) :=
    fun q => iblk1_apply m c t b k ht q
  have hK : ∀ q : Fin 51200, blkLab (iblk m c 2 t) q
      = labAt (m ((c : Thread nD τ).loc main_arg4)) b (⟨51200 * k.val + q.val, by have := k.isLt; have := q.isLt; omega⟩ : Fin 409600) :=
    fun q => iblk2_apply m c t b k ht q
  unfold ptStat
  match col with
  | 0 =>
    refine (pay9_apply (iblk m c 0 t) (iblk m c 1 t) (iblk m c 2 t) j).trans ?_
    refine Finset.sum_congr rfl fun q _ => ?_
    show (if blkLab (iblk m c 1 t) q = BitVec.ofNat 32 j.val then blkEnergy (iblk m c 0 t) q else 0) = _
    rw [hT q, hE q]; rfl
  | 1 =>
    refine (pay10_apply (iblk m c 0 t) (iblk m c 1 t) (iblk m c 2 t) j).trans ?_
    refine Finset.sum_congr rfl fun q _ => ?_
    show (if blkLab (iblk m c 2 t) q = BitVec.ofNat 32 j.val then blkEnergy (iblk m c 0 t) q else 0) = _
    rw [hK q, hE q]; rfl
  | 2 =>
    refine (pay11_apply (iblk m c 0 t) (iblk m c 1 t) (iblk m c 2 t) j).trans ?_
    refine Finset.sum_congr rfl fun q _ => ?_
    show (if blkLab (iblk m c 2 t) q = BitVec.ofNat 32 j.val then
        (if blkLab (iblk m c 1 t) q = blkLab (iblk m c 2 t) q then blkEnergy (iblk m c 0 t) q else 0) else 0) = _
    rw [hT q, hK q, hE q]; rfl
  | 3 =>
    refine (pay12_apply (iblk m c 0 t) (iblk m c 1 t) (iblk m c 2 t) j).trans ?_
    refine Finset.sum_congr rfl fun q _ => ?_
    show (if blkLab (iblk m c 1 t) q = BitVec.ofNat 32 j.val then one32 else 0) = _
    rw [hT q]; rfl
  | 4 =>
    refine (pay13_apply (iblk m c 0 t) (iblk m c 1 t) (iblk m c 2 t) j).trans ?_
    refine Finset.sum_congr rfl fun q _ => ?_
    show (if blkLab (iblk m c 2 t) q = BitVec.ofNat 32 j.val then one32 else 0) = _
    rw [hK q]; rfl

end ArrVal

open ArrVal in
/-- Entry (b, j, col), col < 5, of the array the pallas_call returns: statistic `col` of instance id `j` of image `b`. -/
theorem stats3 (c : Dev nD) (b : Fin 16) (j : Fin 16) (col : Fin 5) :
    ((dats m 0 c).arrAt 3 cfg0.N : S16x16x128.Idx → EReal) (ix3 b j (⟨col.val, by omega⟩ : Fin 128))
      = kstat (m ((c : Thread nD τ).loc main_arg0)) (m ((c : Thread nD τ).loc main_arg3)) (m ((c : Thread nD τ).loc main_arg4)) b j.val col := by
  rw [arr3_apply m c b j, out_last m c (8 * b.val + 7) (pt_lt b 7 (by omega)) (by omega) j,
    acc_sum m c b j col 7 (by omega) (8 * b.val + 7) rfl (pt_lt b 7 (by omega)),
    kstat_eq_sum, sum_tiles]
  show ∑ s ∈ Finset.range 8, tstat m c b j col s = _
  rw [Finset.sum_range]
  refine Finset.sum_congr rfl fun k _ => ?_
  rw [tstat, dif_pos k.isLt]
  exact ptStat_eq m c b k ⟨8 * b.val + k.val, pt_lt b k.val k.isLt⟩ rfl j col

end Cert.KernelIdeal.Val

end
-- ==== Proof.KI.TailVal.lean ====
/-
  The idealized kernel program's result.  After the region the host lines slice the statistics array to instance
  ids 0 … 8 and columns 0 … 4, split the five columns, apply the per-instance loss to them (with the bit "id ≥ 1" from
  an iota over the nine ids) and sum the 16 × 9 losses.  Read off the run of @main: the result buffer holds the
  loss `Cert.Spec.total` of the three argument arrays, and the arguments end as launched.
-/
import proofs.«401348_j19258633355266_3_alg».proof.Proof.KI.ArrVal
import proofs.«401348_j19258633355266_3_alg».proof.Proof.SpecSums
import Idealize.ShloMosaic.Lib.StableHlo.Run
import Idealize.ShloMosaic.Lib.ValueLayout

noncomputable section

namespace Cert.KernelIdeal.Val

open Idealize.ShloMosaic Idealize.ShloMosaic.TcCoe Idealize.ShloMosaic.ValueIdx Idealize.SL.Sem
open scoped BigOperators
open Cert.KernelIdeal Cert.KernelIdeal.Gen Cert.KernelIdeal.Fr Cert.Spec

/-- Column `k` of the statistics array restricted to instance ids 0 … 8, as a [16, 9] array. -/
def tailval_col (k : ℕ) (h : S16x9x5.Slices ![0, 0, k] S16x9x1) (G : Vec Ideal S16x16x128 .f32) : FVec Ideal S16x9 .f32 :=
  shapeCast S16x9 (extractStridedSlice S16x9x1 ![0, 0, k] (extractStridedSlice S16x9x5 ![0, 0, 0] G slices_S16x16x128_S16x9x5_0_0_0) h) shapeCasts_S16x9x1_S16x9

/-- The bit "instance id ≥ 1" over the [16, 9] pairs. -/
def tailval_ge1 : IVec S16x9 1 :=
  broadcastInDim S16x9 ![0, 1] bcast_S1x9_S16x9_0_1
    (cmpi .sge (broadcastInDim S1x9 ![1] bcast_S9_S1x9_1 (iotaInDim S9 32 0)) (broadcastInDim S1x9 ![] bcast_S_S1x9 (constantI S_ 32 1#32)))

/-- The host lines after the region as one function of the statistics array. -/
def tailval_tail (G : Vec Ideal S16x16x128 .f32) : FVec Ideal S_ .f32 :=
  Host.reduceAdd (F := Ideal)
    (lossVec (F := Ideal) S16x9 bcast_S_S16x9 (tailval_col 0 slices_S16x9x5_S16x9x1_0_0_0 G) (tailval_col 1 slices_S16x9x5_S16x9x1_0_0_1 G)
      (tailval_col 2 slices_S16x9x5_S16x9x1_0_0_2 G) (tailval_col 3 slices_S16x9x5_S16x9x1_0_0_3 G) (tailval_col 4 slices_S16x9x5_S16x9x1_0_0_4 G) tailval_ge1)
    (constant (F := Ideal) S_ .f32 0x00000000#32) reducesTo_S16x9_S_d0_1 h_S_

set_option maxHeartbeats 2000000 in
/-- The result buffer after the seventy-one host lines, from any buffer contents, is that function of the contents
    of the statistics array's buffer: each line's result read off where it is written, the four inlined selections
    being the identity on the literal, its splat and the selection. -/
theorem tailval_after (W : Valuation τ sig (Elt Ideal)) :
    StableHlo.after (sfx (F := Ideal)).flatten W (Proc.devRef .tc main_v52) = tailval_tail (W (Proc.devRef .tc main_v3)) := by
  simp only [sfx, hostOps1, hostOps1_1, hostOps1_2, hostOps1_3, hostOps1_4, hostOps1_5, hostOps1_6, hostOps1_7, hostOps1_8,
    List.flatten_cons, List.flatten_nil, List.append_nil, List.cons_append, List.nil_append]
  after_results_simp
  simp only [StableHlo.TRef.ofBuf, StableHlo.TRef.toBuf, cast_eq]
  rfl

/-- Column `k` at (image b, instance j) is entry (b, j, k) of the statistics array. -/
theorem tailval_col_apply (k : Fin 5) (h : S16x9x5.Slices ![0, 0, k.val] S16x9x1) (G : Vec Ideal S16x16x128 .f32) (b : Fin 16) (j : Fin 9) :
    tailval_col k.val h G (ix2 b j) = G (ix3 b (⟨j.val, by omega⟩ : Fin 16) (⟨k.val, by omega⟩ : Fin 128)) := by
  unfold tailval_col
  refine (shapeCast_apply _ _ _ (ix3 b j (0 : Fin 1)) ?_).trans ?_
  · rw [Shape.rowMajor_val_three, Shape.rowMajor_val_two]
    show (b.val * 9 + j.val) * 1 + 0 = b.val * 9 + j.val
    omega
  refine (extractStridedSlice_apply _ _ _ _ (ix3 b j k) (fun ax => ?_)).trans ?_
  · match ax with
    | ⟨0, _⟩ => exact (Nat.zero_add _).symm
    | ⟨1, _⟩ => exact (Nat.zero_add _).symm
    | ⟨2, _⟩ => exact (Nat.add_zero _).symm
  exact extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The bit at (image b, instance j): whether j ≥ 1. -/
theorem tailval_ge1_apply (b : Fin 16) (j : Fin 9) : tailval_ge1 (ix2 b j) = instGe1 j.val := rfl

/-- The host lines' result as the double sum of the per-instance loss over the statistics array's entries. -/
theorem tailval_tail_eq (G : Vec Ideal S16x16x128 .f32) :
    tailval_tail G = fun _ => ∑ b : Fin 16, ∑ j : Fin 9,
      lossAt (F := Ideal)
        (G (ix3 b (⟨j.val, by omega⟩ : Fin 16) (⟨(0 : Fin 5).val, by omega⟩ : Fin 128)))
        (G (ix3 b (⟨j.val, by omega⟩ : Fin 16) (⟨(1 : Fin 5).val, by omega⟩ : Fin 128)))
        (G (ix3 b (⟨j.val, by omega⟩ : Fin 16) (⟨(2 : Fin 5).val, by omega⟩ : Fin 128)))
        (G (ix3 b (⟨j.val, by omega⟩ : Fin 16) (⟨(3 : Fin 5).val, by omega⟩ : Fin 128)))
        (G (ix3 b (⟨j.val, by omega⟩ : Fin 16) (⟨(4 : Fin 5).val, by omega⟩ : Fin 128)))
        (instGe1 j.val) := by
  unfold tailval_tail
  refine (reduce16x9 _ _ _).trans ?_
  funext _
  refine Finset.sum_congr rfl fun b _ => Finset.sum_congr rfl fun j _ => ?_
  rw [lossVec_apply, tailval_ge1_apply,
    show tailval_col 0 slices_S16x9x5_S16x9x1_0_0_0 G (ix2 b j) = _ from tailval_col_apply 0 _ G b j,
    show tailval_col 1 slices_S16x9x5_S16x9x1_0_0_1 G (ix2 b j) = _ from tailval_col_apply 1 _ G b j,
    show tailval_col 2 slices_S16x9x5_S16x9x1_0_0_2 G (ix2 b j) = _ from tailval_col_apply 2 _ G b j,
    show tailval_col 3 slices_S16x9x5_S16x9x1_0_0_3 G (ix2 b j) = _ from tailval_col_apply 3 _ G b j,
    show tailval_col 4 slices_S16x9x5_S16x9x1_0_0_4 G (ix2 b j) = _ from tailval_col_apply 4 _ G b j]

variable (m : (ℓ : Loc nD τ sig) → Buf (Elt Ideal) ℓ)

/-- What the result buffer holds after the host lines: the loss of the argument arrays. -/
theorem tailval_v52 (c : Dev nD) :
    Pipeline.afterTail₀ cfgs (dats m) 0 (V0 m) sfx c main_v52
      = fun _ => total (m ((c.tc : Thread nD τ).loc main_arg0)) (m ((c.tc : Thread nD τ).loc main_arg3)) (m ((c.tc : Thread nD τ).loc main_arg4)) := by
  unfold Pipeline.afterTail₀
  refine (tailval_after _).trans ?_
  rw [show Pipeline.withArrays (cfgs 0).spec c (V0 m c) (fun w => (dats m 0 c).arrAt w (cfgs 0).N) (Proc.devRef .tc main_v3)
        = (dats m 0 c).arrAt 3 cfg0.N from Pipeline.withArrays_arr spec0 launch0.win.arr_inj c _ _ 3]
  rw [tailval_tail_eq]
  funext _
  unfold total
  refine Finset.sum_congr rfl fun b _ => Finset.sum_congr rfl fun j _ => ?_
  rw [stats3 m c b ⟨j.val, by omega⟩ 0, stats3 m c b ⟨j.val, by omega⟩ 1, stats3 m c b ⟨j.val, by omega⟩ 2,
    stats3 m c b ⟨j.val, by omega⟩ 3, stats3 m c b ⟨j.val, by omega⟩ 4]
  rfl

/-- Every weakly fair execution of the idealized kernel program terminates with its result at the loss of the
    argument arrays and the arguments unchanged. -/
theorem result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52)
        = (fun _ => total (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v52 (Pipeline.mem_restRefs_of main_v52 (by decide) (by decide))).trans (tailval_v52 m c),
     ((h c).2 main_arg0 (Pipeline.mem_restRefs_of main_arg0 (by decide) (by decide))).trans (W_main_arg m (dats m) c _ (by simp)),
     ((h c).2 main_arg1 (Pipeline.mem_restRefs_of main_arg1 (by decide) (by decide))).trans (W_main_arg m (dats m) c _ (by simp)),
     ((h c).2 main_arg2 (Pipeline.mem_restRefs_of main_arg2 (by decide) (by decide))).trans (W_main_arg m (dats m) c _ (by simp)),
     ((h c).2 main_arg3 (Pipeline.mem_restRefs_of main_arg3 (by decide) (by decide))).trans (W_main_arg m (dats m) c _ (by simp)),
     ((h c).2 main_arg4 (Pipeline.mem_restRefs_of main_arg4 (by decide) (by decide))).trans (W_main_arg m (dats m) c _ (by simp))⟩)
    (run_main m ρ)

end Cert.KernelIdeal.Val

end
-- ==== Proof.Ref.Run.lean ====
/-
  The reference program's run. @main is a straight line of StableHLO operations on the
  TensorCore: its own, and at each `func.call` the callee's operations over that call's buffer record (the
  compiler inlines every such call; unfolding the callee's definition is that substitution). `ops` lists the
  126 operations in program order: 66 from the first window of @main (57 of its own and the three of each of
  `_where`, `_where_0`, `_where_0`), 60 from the second (33 of its own, `_where_0`'s three twice, and
  `remainder`'s twenty-one, of which one is `_where_1`'s select). `main_eq` says @main is `seq ops`;
  `run` reads the run back: every weakly fair execution terminates with each TensorCore buffer at the fold
  `after ops` of the operations' results over the launch contents. No operation's value is computed here.
-/
import proofs.«401348_j19258633355266_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 126 operations, in program order, the calls inlined. -/
abbrev ops : List (HloOp τ sig (Elt F)) :=
  [ StableHlo.reshape main_arg0 main_v0 rfl shapeCasts_S16x4x640x640_S16x4x409600,
    StableHlo.reshape main_arg3 main_v1 rfl shapeCasts_S16x640x640_S16x409600,
    StableHlo.reshape main_arg4 main_v2 rfl shapeCasts_S16x640x640_S16x409600,
    StableHlo.binary main_v0 main_v0 main_v3 (mulf : (⟨S16x4x409600, .f32⟩ : BufTy).Contents (Elt F) → (⟨S16x4x409600, .f32⟩ : BufTy).Contents (Elt F) → (⟨S16x4x409600, .f32⟩ : BufTy).Contents (Elt F)),
    StableHlo.nullary main_cst (constant S_ .f32 0x00000000#32),
    StableHlo.binary main_v3 main_cst main_v4 ((fun x v => Host.reduceAdd x v reducesTo_S16x4x409600_S16x409600_d1 h_S_) : (⟨S16x4x409600, .f32⟩ : BufTy).Contents (Elt F) → (⟨S_, .f32⟩ : BufTy).Contents (Elt F) → (⟨S16x409600, .f32⟩ : BufTy).Contents (Elt F)),
    StableHlo.nullary main_v5 (iotaInDim S16 32 0),
    StableHlo.nullary main_c (constantI S_ 32 9#32),
    StableHlo.unary main_c main_v6 (broadcastInDim S16 ![] bcast_S_S16 : (⟨S_, .i32⟩ : BufTy).Contents (Elt F) → (⟨S16, .i32⟩ : BufTy).Contents (Elt F)),
    StableHlo.binary main_v5 main_v6 main_v7 (muli : (⟨S16, .i32⟩ : BufTy).Contents (Elt F) → (⟨S16, .i32⟩ : BufTy).Contents (Elt F) → (⟨S16, .i32⟩ : BufTy).Contents (Elt F)),
    StableHlo.unary main_v7 main_v8 (broadcastInDim S16x1 ![0] bcast_S16_S16x1_0 : (⟨S16, .i32⟩ : BufTy).Contents (Elt F) → (⟨S16x1, .i32⟩ : BufTy).Contents (Elt F)),
    StableHlo.unary main_v8 main_v9 (broadcastInDim S16x409600 ![0, 1] bcast_S16x1_S16x409600_0_1 : (⟨S16x1, .i32⟩ : BufTy).Contents (Elt F) → (⟨S16x409600, .i32⟩ : BufTy).Contents (Elt F)),
    StableHlo.binary main_v1 main_v9 main_v10 (addi : (⟨S16x409600, .i32⟩ : BufTy).Contents (Elt F) → (⟨S16x409600, .i32⟩ : BufTy).Contents (Elt F) → (⟨S16x409600, .i32⟩ : BufTy).Contents (Elt F)),
    StableHlo.reshape main_v10 main_v11 rfl shapeCasts_S16x409600_S6553600,
    StableHlo.unary main_v8 main_v12 (broadcastInDim S16x409600 ![0, 1] bcast_S16x1_S16x409600_0_1 : (⟨S16x1, .i32⟩ : BufTy).Contents (Elt F) → (⟨S16x409600, .i32⟩ : BufTy).Contents (Elt F)),
    StableHlo.binary main_v2 main_v12 main_v13 (addi : (⟨S16x409600, .i32⟩ : BufTy).Contents (Elt F) → (⟨S16x409600, .i32⟩ : BufTy).Contents (Elt F) → (⟨S16x409600, .i32⟩ : BufTy).Contents (Elt F)),
    StableHlo.reshape main_v13 main_v14 rfl shapeCasts_S16x409600_S6553600,
    StableHlo.reshape main_v4 main_v15 rfl shapeCasts_S16x409600_S6553600,
    StableHlo.nullary main_cst_0 (constant S_ .f32 0x00000000#32),
    StableHlo.unary main_cst_0 main_v16 (broadcastInDim S144 ![] bcast_S_S144 : (⟨S_, .f32⟩ : BufTy).Contents (Elt F) → (⟨S144, .f32⟩ : BufTy).Contents (Elt F)),
    StableHlo.unary main_v11 main_v17 (broadcastInDim S6553600x1 ![0] bcast_S6553600_S6553600x1_0 : (⟨S6553600, .i32⟩ : BufTy).Contents (Elt F) → (⟨S6553600x1, .i32⟩ : BufTy).Contents (Elt F)),
    StableHlo.ternary main_v16 main_v17 main_v15 main_v18 ((fun x i u => Host.scatterAdd scatter_S144_S6553600x1_S6553600_n_0_0_1 x i u) : (⟨S144, .f32⟩ : BufTy).Contents (Elt F) → (⟨S6553600x1, .i32⟩ : BufTy).Contents (Elt F) → (⟨S6553600, .f32⟩ : BufTy).Contents (Elt F) → (⟨S144, .f32⟩ : BufTy).Contents (Elt F)),
    StableHlo.nullary main_cst_1 (constant S_ .f32 0x00000000#32),
    StableHlo.unary main_cst_1 main_v19 (broadcastInDim S144 ![] bcast_S_S144 : (⟨S_, .f32⟩ : BufTy).Contents (Elt F) → (⟨S144, .f32⟩ : BufTy).Contents (Elt F)),
    StableHlo.unary main_v14 main_v20 (broadcastInDim S6553600x1 ![0] bcast_S6553600_S6553600x1_0 : (⟨S6553600, .i32⟩ : BufTy).Contents (Elt F) → (⟨S6553600x1, .i32⟩ : BufTy).Contents (Elt F)),
    StableHlo.ternary main_v19 main_v20 main_v15 main_v21 ((fun x i u => Host.scatterAdd scatter_S144_S6553600x1_S6553600_n_0_0_1 x i u) : (⟨S144, .f32⟩ : BufTy).Contents (Elt F) → (⟨S6553600x1, .i32⟩ : BufTy).Contents (Elt F) → (⟨S6553600, .f32⟩ : BufTy).Contents (Elt F) → (⟨S144, .f32⟩ : BufTy).Contents (Elt F)),
    StableHlo.binary main_v1 main_v2 main_v22 (cmpi .eq : (⟨S16x409600, .i32⟩ : BufTy).Contents (Elt F) → (⟨S16x409600, .i32⟩ : BufTy).Contents (Elt F) → (⟨S16x409600, .i1⟩ : BufTy).Contents (Elt F)),
    StableHlo.reshape main_v22 main_v23 rfl shapeCasts_S16x409600_S6553600,
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S6553600, .f32⟩) (broadcastInDim S6553600 ![] bcast_S_S6553600),
    StableHlo.TRef.ternary (.of main_v23 : StableHlo.TRef sig ⟨S6553600, .i1⟩) (.of main_v15 : StableHlo.TRef sig ⟨S6553600, .f32⟩) (.of main_call0_v1 : StableHlo.TRef sig ⟨S6553600, .f32⟩) (.of main_v24 : StableHlo.TRef sig ⟨S6553600, .f32⟩) select,
    StableHlo.nullary main_cst_3 (constant S_ .f32 0x00000000#32),
    StableHlo.unary main_cst_3 main_v25 (broadcastInDim S144 ![] bcast_S_S144 : (⟨S_, .f32⟩ : BufTy).Contents (Elt F) → (⟨S144, .f32⟩ : BufTy).Contents (Elt F)),
    StableHlo.unary main_v14 main_v26 (broadcastInDim S6553600x1 ![0] bcast_S6553600_S6553600x1_0 : (⟨S6553600, .i32⟩ : BufTy).Contents (Elt F) → (⟨S6553600x1, .i32⟩ : BufTy).Contents (Elt F)),
    StableHlo.ternary main_v25 main_v26 main_v24 main_v27 ((fun x i u => Host.scatterAdd scatter_S144_S6553600x1_S6553600_n_0_0_1 x i u) : (⟨S144, .f32⟩ : BufTy).Contents (Elt F) → (⟨S6553600x1, .i32⟩ : BufTy).Contents (Elt F) → (⟨S6553600, .f32⟩ : BufTy).Contents (Elt F) → (⟨S144, .f32⟩ : BufTy).Contents (Elt F)),
    StableHlo.nullary main_cst_4 (constant S_ .f32 0x3F800000#32),
    StableHlo.unary main_cst_4 main_v28 (broadcastInDim S6553600 ![] bcast_S_S6553600 : (⟨S_, .f32⟩ : BufTy).Contents (Elt F) → (⟨S6553600, .f32⟩ : BufTy).Contents (Elt F)),
    StableHlo.nullary main_cst_5 (constant S_ .f32 0x00000000#32),
    StableHlo.unary main_cst_5 main_v29 (broadcastInDim S144 ![] bcast_S_S144 : (⟨S_, .f32⟩ : BufTy).Contents (Elt F) → (⟨S144, .f32⟩ : BufTy).Contents (Elt F)),
    StableHlo.unary main_v11 main_v30 (broadcastInDim S6553600x1 ![0] bcast_S6553600_S6553600x1_0 : (⟨S6553600, .i32⟩ : BufTy).Contents (Elt F) → (⟨S6553600x1, .i32⟩ : BufTy).Contents (Elt F)),
    StableHlo.ternary main_v29 main_v30 main_v28 main_v31 ((fun x i u => Host.scatterAdd scatter_S144_S6553600x1_S6553600_n_0_0_1 x i u) : (⟨S144, .f32⟩ : BufTy).Contents (Elt F) → (⟨S6553600x1, .i32⟩ : BufTy).Contents (Elt F) → (⟨S6553600, .f32⟩ : BufTy).Contents (Elt F) → (⟨S144, .f32⟩ : BufTy).Contents (Elt F)),
    StableHlo.nullary main_cst_6 (constant S_ .f32 0x00000000#32),
    StableHlo.unary main_cst_6 main_v32 (broadcastInDim S144 ![] bcast_S_S144 : (⟨S_, .f32⟩ : BufTy).Contents (Elt F) → (⟨S144, .f32⟩ : BufTy).Contents (Elt F)),
    StableHlo.unary main_v14 main_v33 (broadcastInDim S6553600x1 ![0] bcast_S6553600_S6553600x1_0 : (⟨S6553600, .i32⟩ : BufTy).Contents (Elt F) → (⟨S6553600x1, .i32⟩ : BufTy).Contents (Elt F)),
    StableHlo.ternary main_v32 main_v33 main_v28 main_v34 ((fun x i u => Host.scatterAdd scatter_S144_S6553600x1_S6553600_n_0_0_1 x i u) : (⟨S144, .f32⟩ : BufTy).Contents (Elt F) → (⟨S6553600x1, .i32⟩ : BufTy).Contents (Elt F) → (⟨S6553600, .f32⟩ : BufTy).Contents (Elt F) → (⟨S144, .f32⟩ : BufTy).Contents (Elt F)),
    StableHlo.nullary main_cst_7 (constant S_ .f32 0x00000000#32),
    StableHlo.unary main_cst_7 main_v35 (broadcastInDim S144 ![] bcast_S_S144 : (⟨S_, .f32⟩ : BufTy).Contents (Elt F) → (⟨S144, .f32⟩ : BufTy).Contents (Elt F)),
    StableHlo.binary main_v34 main_v35 main_v36 (cmpf .ogt : (⟨S144, .f32⟩ : BufTy).Contents (Elt F) → (⟨S144, .f32⟩ : BufTy).Contents (Elt F) → (⟨S144, .i1⟩ : BufTy).Contents (Elt F)),
    StableHlo.nullary main_cst_8 (constant S_ .f32 0x3F800000#32),
    StableHlo.TRef.unary (.of main_cst_8 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S144, .f32⟩) (broadcastInDim S144 ![] bcast_S_S144),
    StableHlo.TRef.ternary (.of main_v36 : StableHlo.TRef sig ⟨S144, .i1⟩) (.of main_v34 : StableHlo.TRef sig ⟨S144, .f32⟩) (.of main_call1_v1 : StableHlo.TRef sig ⟨S144, .f32⟩) (.of main_v37 : StableHlo.TRef sig ⟨S144, .f32⟩) select,
    StableHlo.nullary main_cst_9 (constant S_ .f32 0x00000000#32),
    StableHlo.unary main_cst_9 main_v38 (broadcastInDim S144 ![] bcast_S_S144 : (⟨S_, .f32⟩ : BufTy).Contents (Elt F) → (⟨S144, .f32⟩ : BufTy).Contents (Elt F)),
    StableHlo.binary main_v31 main_v38 main_v39 (cmpf .ogt : (⟨S144, .f32⟩ : BufTy).Contents (Elt F) → (⟨S144, .f32⟩ : BufTy).Contents (Elt F) → (⟨S144, .i1⟩ : BufTy).Contents (Elt F)),
    StableHlo.nullary main_cst_10 (constant S_ .f32 0x3F800000#32),
    StableHlo.TRef.unary (.of main_cst_10 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S144, .f32⟩) (broadcastInDim S144 ![] bcast_S_S144),
    StableHlo.TRef.ternary (.of main_v39 : StableHlo.TRef sig ⟨S144, .i1⟩) (.of main_v31 : StableHlo.TRef sig ⟨S144, .f32⟩) (.of main_call2_v1 : StableHlo.TRef sig ⟨S144, .f32⟩) (.of main_v40 : StableHlo.TRef sig ⟨S144, .f32⟩) select,
    StableHlo.binary main_v37 main_v37 main_v41 (mulf : (⟨S144, .f32⟩ : BufTy).Contents (Elt F) → (⟨S144, .f32⟩ : BufTy).Contents (Elt F) → (⟨S144, .f32⟩ : BufTy).Contents (Elt F)),
    StableHlo.binary main_v21 main_v41 main_v42 (Host.divf : (⟨S144, .f32⟩ : BufTy).Contents (Elt F) → (⟨S144, .f32⟩ : BufTy).Contents (Elt F) → (⟨S144, .f32⟩ : BufTy).Contents (Elt F)),
    StableHlo.binary main_v18 main_v42 main_v43 (addf : (⟨S144, .f32⟩ : BufTy).Contents (Elt F) → (⟨S144, .f32⟩ : BufTy).Contents (Elt F) → (⟨S144, .f32⟩ : BufTy).Contents (Elt F)),
    StableHlo.nullary main_cst_11 (constant S_ .f32 0x40000000#32),
    StableHlo.unary main_cst_11 main_v44 (broadcastInDim S144 ![] bcast_S_S144 : (⟨S_, .f32⟩ : BufTy).Contents (Elt F) → (⟨S144, .f32⟩ : BufTy).Contents (Elt F)),
    StableHlo.binary main_v44 main_v27 main_v45 (mulf : (⟨S144, .f32⟩ : BufTy).Contents (Elt F) → (⟨S144, .f32⟩ : BufTy).Contents (Elt F) → (⟨S144, .f32⟩ : BufTy).Contents (Elt F)),
    StableHlo.binary main_v45 main_v37 main_v46 (Host.divf : (⟨S144, .f32⟩ : BufTy).Contents (Elt F) → (⟨S144, .f32⟩ : BufTy).Contents (Elt F) → (⟨S144, .f32⟩ : BufTy).Contents (Elt F)),
    StableHlo.binary main_v43 main_v46 main_v47 (subf : (⟨S144, .f32⟩ : BufTy).Contents (Elt F) → (⟨S144, .f32⟩ : BufTy).Contents (Elt F) → (⟨S144, .f32⟩ : BufTy).Contents (Elt F)),
    StableHlo.nullary main_cst_12 (constant S_ .f32 0x00000000#32),
    StableHlo.unary main_cst_12 main_v48 (broadcastInDim S144 ![] bcast_S_S144 : (⟨S_, .f32⟩ : BufTy).Contents (Elt F) → (⟨S144, .f32⟩ : BufTy).Contents (Elt F)),
    StableHlo.binary main_v47 main_v48 main_v49 (cmpf .ogt : (⟨S144, .f32⟩ : BufTy).Contents (Elt F) → (⟨S144, .f32⟩ : BufTy).Contents (Elt F) → (⟨S144, .i1⟩ : BufTy).Contents (Elt F)),
    StableHlo.nullary main_cst_13 (constant S_ .f32 0x3F800000#32),
    StableHlo.TRef.unary (.of main_cst_13 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S144, .f32⟩) (broadcastInDim S144 ![] bcast_S_S144),
    StableHlo.TRef.ternary (.of main_v49 : StableHlo.TRef sig ⟨S144, .i1⟩) (.of main_v47 : StableHlo.TRef sig ⟨S144, .f32⟩) (.of main_call3_v1 : StableHlo.TRef sig ⟨S144, .f32⟩) (.of main_v50 : StableHlo.TRef sig ⟨S144, .f32⟩) select,
    StableHlo.unary main_v50 main_v51 (Host.sqrt : (⟨S144, .f32⟩ : BufTy).Contents (Elt F) → (⟨S144, .f32⟩ : BufTy).Contents (Elt F)),
    StableHlo.nullary main_cst_14 (constant S_ .f32 0x3F000000#32),
    StableHlo.unary main_cst_14 main_v52 (broadcastInDim S144 ![] bcast_S_S144 : (⟨S_, .f32⟩ : BufTy).Contents (Elt F) → (⟨S144, .f32⟩ : BufTy).Contents (Elt F)),
    StableHlo.binary main_v51 main_v52 main_v53 (subf : (⟨S144, .f32⟩ : BufTy).Contents (Elt F) → (⟨S144, .f32⟩ : BufTy).Contents (Elt F) → (⟨S144, .f32⟩ : BufTy).Contents (Elt F)),
    StableHlo.binary main_v53 main_v53 main_v54 (mulf : (⟨S144, .f32⟩ : BufTy).Contents (Elt F) → (⟨S144, .f32⟩ : BufTy).Contents (Elt F) → (⟨S144, .f32⟩ : BufTy).Contents (Elt F)),
    StableHlo.unary main_v54 main_v55 (Host.log1p : (⟨S144, .f32⟩ : BufTy).Contents (Elt F) → (⟨S144, .f32⟩ : BufTy).Contents (Elt F)),
    StableHlo.binary main_v55 main_v40 main_v56 (Host.divf : (⟨S144, .f32⟩ : BufTy).Contents (Elt F) → (⟨S144, .f32⟩ : BufTy).Contents (Elt F) → (⟨S144, .f32⟩ : BufTy).Contents (Elt F)),
    StableHlo.nullary main_v57 (iotaInDim S144 32 0),
    StableHlo.nullary main_c_15 (constantI S_ 32 9#32),
    StableHlo.TRef.unary (.of main_c_15 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S144, .i32⟩) (broadcastInDim S144 ![] bcast_S_S144),
    StableHlo.TRef.binary (.of main_v57 : StableHlo.TRef sig ⟨S144, .i32⟩) (.of main_call4_v3 : StableHlo.TRef sig ⟨S144, .i32⟩) (.of main_call4_v4 : StableHlo.TRef sig ⟨S144, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S144, .i32⟩) (broadcastInDim S144 ![] bcast_S_S144),
    StableHlo.TRef.binary (.of main_call4_v4 : StableHlo.TRef sig ⟨S144, .i32⟩) (.of main_call4_v5 : StableHlo.TRef sig ⟨S144, .i32⟩) (.of main_call4_v6 : StableHlo.TRef sig ⟨S144, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S144, .i32⟩) (broadcastInDim S144 ![] bcast_S_S144),
    StableHlo.TRef.binary (.of main_call4_v4 : StableHlo.TRef sig ⟨S144, .i32⟩) (.of main_call4_v7 : StableHlo.TRef sig ⟨S144, .i32⟩) (.of main_call4_v8 : StableHlo.TRef sig ⟨S144, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S144, .i1⟩) (broadcastInDim S144 ![] bcast_S_S144),
    StableHlo.TRef.binary (.of main_call4_v8 : StableHlo.TRef sig ⟨S144, .i1⟩) (.of main_call4_v10 : StableHlo.TRef sig ⟨S144, .i1⟩) (.of main_call4_v11 : StableHlo.TRef sig ⟨S144, .i1⟩) (cmpi .ne),
    StableHlo.TRef.binary (.of main_call4_v11 : StableHlo.TRef sig ⟨S144, .i1⟩) (.of main_call4_v6 : StableHlo.TRef sig ⟨S144, .i1⟩) (.of main_call4_v12 : StableHlo.TRef sig ⟨S144, .i1⟩) andi,
    StableHlo.TRef.unary (.of main_call4_v2 : StableHlo.TRef sig ⟨S_, .i32⟩) (.of main_call4_v13 : StableHlo.TRef sig ⟨S144, .i32⟩) (broadcastInDim S144 ![] bcast_S_S144),
    StableHlo.TRef.binary (.of main_call4_v4 : StableHlo.TRef sig ⟨S144, .i32⟩) (.of main_call4_v13 : StableHlo.TRef sig ⟨S144, .i32⟩) (.of main_call4_v14 : StableHlo.TRef sig ⟨S144, .i32⟩) addi,
    StableHlo.TRef.ternary (.of main_call4_v12 : StableHlo.TRef sig ⟨S144, .i1⟩) (.of main_call4_v14 : StableHlo.TRef sig ⟨S144, .i32⟩) (.of main_call4_v4 : StableHlo.TRef sig ⟨S144, .i32⟩) (.of main_v58 : StableHlo.TRef sig ⟨S144, .i32⟩) select,
    StableHlo.nullary main_c_16 (constantI S_ 32 1#32),
    StableHlo.unary main_c_16 main_v59 (broadcastInDim S144 ![] bcast_S_S144 : (⟨S_, .i32⟩ : BufTy).Contents (Elt F) → (⟨S144, .i32⟩ : BufTy).Contents (Elt F)),
    StableHlo.binary main_v58 main_v59 main_v60 (cmpi .sge : (⟨S144, .i32⟩ : BufTy).Contents (Elt F) → (⟨S144, .i32⟩ : BufTy).Contents (Elt F) → (⟨S144, .i1⟩ : BufTy).Contents (Elt F)),
    StableHlo.nullary main_cst_17 (constant S_ .f32 0x00000000#32),
    StableHlo.unary main_cst_17 main_v61 (broadcastInDim S144 ![] bcast_S_S144 : (⟨S_, .f32⟩ : BufTy).Contents (Elt F) → (⟨S144, .f32⟩ : BufTy).Contents (Elt F)),
    StableHlo.binary main_v31 main_v61 main_v62 (cmpf .ogt : (⟨S144, .f32⟩ : BufTy).Contents (Elt F) → (⟨S144, .f32⟩ : BufTy).Contents (Elt F) → (⟨S144, .i1⟩ : BufTy).Contents (Elt F)),
    StableHlo.binary main_v60 main_v62 main_v63 (andi : (⟨S144, .i1⟩ : BufTy).Contents (Elt F) → (⟨S144, .i1⟩ : BufTy).Contents (Elt F) → (⟨S144, .i1⟩ : BufTy).Contents (Elt F)),
    StableHlo.nullary main_cst_18 (constant S_ .f32 0x00000000#32),
    StableHlo.unary main_cst_18 main_v64 (broadcastInDim S144 ![] bcast_S_S144 : (⟨S_, .f32⟩ : BufTy).Contents (Elt F) → (⟨S144, .f32⟩ : BufTy).Contents (Elt F)),
    StableHlo.binary main_v34 main_v64 main_v65 (cmpf .ogt : (⟨S144, .f32⟩ : BufTy).Contents (Elt F) → (⟨S144, .f32⟩ : BufTy).Contents (Elt F) → (⟨S144, .i1⟩ : BufTy).Contents (Elt F)),
    StableHlo.binary main_v63 main_v65 main_v66 (andi : (⟨S144, .i1⟩ : BufTy).Contents (Elt F) → (⟨S144, .i1⟩ : BufTy).Contents (Elt F) → (⟨S144, .i1⟩ : BufTy).Contents (Elt F)),
    StableHlo.nullary main_cst_19 (constant S_ .f32 0x00000000#32),
    StableHlo.unary main_cst_19 main_v67 (broadcastInDim S144 ![] bcast_S_S144 : (⟨S_, .f32⟩ : BufTy).Contents (Elt F) → (⟨S144, .f32⟩ : BufTy).Contents (Elt F)),
    StableHlo.binary main_v47 main_v67 main_v68 (cmpf .ogt : (⟨S144, .f32⟩ : BufTy).Contents (Elt F) → (⟨S144, .f32⟩ : BufTy).Contents (Elt F) → (⟨S144, .i1⟩ : BufTy).Contents (Elt F)),
    StableHlo.binary main_v66 main_v68 main_v69 (andi : (⟨S144, .i1⟩ : BufTy).Contents (Elt F) → (⟨S144, .i1⟩ : BufTy).Contents (Elt F) → (⟨S144, .i1⟩ : BufTy).Contents (Elt F)),
    StableHlo.nullary main_cst_20 (constant S_ .f32 0x00000000#32),
    StableHlo.TRef.unary (.of main_cst_20 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S144, .f32⟩) (broadcastInDim S144 ![] bcast_S_S144),
    StableHlo.TRef.ternary (.of main_v69 : StableHlo.TRef sig ⟨S144, .i1⟩) (.of main_v56 : StableHlo.TRef sig ⟨S144, .f32⟩) (.of main_call5_v1 : StableHlo.TRef sig ⟨S144, .f32⟩) (.of main_v70 : StableHlo.TRef sig ⟨S144, .f32⟩) select,
    StableHlo.nullary main_cst_21 (constant S_ .f32 0x00000000#32),
    StableHlo.binary main_v70 main_cst_21 main_v71 ((fun x v => Host.reduceAdd x v reducesTo_S144_S_d0 h_S_) : (⟨S144, .f32⟩ : BufTy).Contents (Elt F) → (⟨S_, .f32⟩ : BufTy).Contents (Elt F) → (⟨S_, .f32⟩ : BufTy).Contents (Elt F)) ]

/-- @main is that straight line. Sequencing in the free monad grafts the continuation onto every leaf by
    structural recursion, so `main c` — the two windows in order, each callee's definition unfolded at its call
    and the call's buffer record at its fields — and `seq ops` reduce to one and the same chain of
    operation steps ending in the return: the equation holds by computation. -/
theorem main_eq (c : Dev nD) : main (F := F) c = seq ops := rfl

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: one builder fact per operation, in order. -/
theorem ops_sub : (ops : List (HloOp τ sig (Elt F))).Forall fun op => op.bufs ⊆ tcRefs τ sig :=
  ⟨reshape_bufs_sub .., reshape_bufs_sub .., reshape_bufs_sub .., binary_bufs_sub .., nullary_bufs_sub .., binary_bufs_sub ..,
    nullary_bufs_sub .., nullary_bufs_sub .., unary_bufs_sub .., binary_bufs_sub .., unary_bufs_sub .., unary_bufs_sub ..,
    binary_bufs_sub .., reshape_bufs_sub .., unary_bufs_sub .., binary_bufs_sub .., reshape_bufs_sub .., reshape_bufs_sub ..,
    nullary_bufs_sub .., unary_bufs_sub .., unary_bufs_sub .., ternary_bufs_sub .., nullary_bufs_sub .., unary_bufs_sub ..,
    unary_bufs_sub .., ternary_bufs_sub .., binary_bufs_sub .., reshape_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., unary_bufs_sub .., ternary_bufs_sub ..,
    binary_bufs_sub .., binary_bufs_sub .., binary_bufs_sub .., nullary_bufs_sub .., unary_bufs_sub .., binary_bufs_sub ..,
    binary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., binary_bufs_sub .., unary_bufs_sub .., binary_bufs_sub .., nullary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., binary_bufs_sub .., nullary_bufs_sub .., unary_bufs_sub .., binary_bufs_sub .., binary_bufs_sub ..,
    nullary_bufs_sub .., unary_bufs_sub .., unary_bufs_sub .., ternary_bufs_sub .., nullary_bufs_sub .., binary_bufs_sub ..⟩

/-- On the device, for any float values, from any memory with zero counters: every weakly fair execution of
    @main terminates, and every final state has each TensorCore buffer at the fold of the operations' results
    over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.Ref.Scatter.lean ====
/-
  The reference's segment sums.  The reference adds `9·b` to the label of each pixel of image `b`, flattens the 16
  images into one vector of 6553600 pixels and scatter-adds a per-pixel value into a 144-vector of zeros at those
  offsets.  With every label in 0 … 8 the offset 9b + label of a pixel of image b lands in block b of the 144-vector
  and in no other, so entry 9b + j is the sum of the value over the pixels of image b labelled j.
-/
import proofs.«401348_j19258633355266_3_alg».proof.Proof.Gen.ReferenceIdeal
import proofs.«401348_j19258633355266_3_alg».proof.Proof.SpecSums
import Idealize.ShloMosaic.PureOps.Ideal.Laws

noncomputable section

namespace Cert.ReferenceIdeal.Val

open Idealize.ShloMosaic Idealize.ShloMosaic.TcCoe Idealize.ShloMosaic.ValueIdx Idealize.SL.Sem
open scoped BigOperators
open Cert.ReferenceIdeal Cert.ReferenceIdeal.Gen Cert.Spec

/-! ## Where an update lands -/

/-- A rank-1 index built from a coordinate reads that coordinate on its one axis. -/
private theorem ix1_val {k : ℕ} (m : Fin k) (a : Fin 1) : ((ix1 m a : Fin _) : ℕ) = m.val := by
  match a with | ⟨0, _⟩ => rfl

/-- The scatter's one start-index component of update `m` is read at row `m` of the index array. -/
private theorem siIdx_eq (m : Fin 6553600) (c : Fin scatter_S144_S6553600x1_S6553600_n_0_0_1.scatterDimsToOperandDims.length) :
    scatter_S144_S6553600x1_S6553600_n_0_0_1.siIdx (ix1 m) c = ix2 m (0 : Fin 1) := by
  funext a
  match a with
  | ⟨0, _⟩ =>
    unfold ScatterDims.siIdx
    rw [dif_neg]
    · unfold ScatterDims.siCoord
      apply Fin.ext
      simp only [Fin.coe_cast]
      exact ix1_val m _
    · show ¬ ((0 : ℕ) = 1)
      omega
  | ⟨1, _⟩ =>
    unfold ScatterDims.siIdx
    rw [dif_pos]
    · apply Fin.ext
      have := c.isLt
      show c.val = 0
      change c.val < 1 at this
      omega
    · rfl

/-- The start of update `m`'s window on the operand's one axis: the signed value of row `m` of the index array. -/
private theorem start_eq (m : Fin 6553600) (idx : IVec S6553600x1 32) (a : Fin 1) :
    scatter_S144_S6553600x1_S6553600_n_0_0_1.start (ix1 m) idx a = (idx (ix2 m (0 : Fin 1))).toInt := by
  unfold ScatterDims.start
  have ha : a ∈ scatter_S144_S6553600x1_S6553600_n_0_0_1.scatterDimsToOperandDims :=
    List.mem_singleton.2 (Subsingleton.elim _ _)
  rw [dif_pos ha, siIdx_eq]

/-- No window axes: the window coordinate is 0. -/
private theorem window_eq (m : Fin 6553600) (a : Fin 1) :
    scatter_S144_S6553600x1_S6553600_n_0_0_1.window (ix1 m) a = 0 := by
  unfold ScatterDims.window
  have ha : a ∉ scatter_S144_S6553600x1_S6553600_n_0_0_1.sKept := by
    have : a = 0 := Subsingleton.elim _ _
    subst this
    decide
  rw [dif_neg ha]

/-- Update `m` lands on operand entry `i` exactly when the signed value of its offset is `i`. -/
private theorem resultIdx?_eq (m : Fin 6553600) (idx : IVec S6553600x1 32) (i : Fin 144) :
    scatter_S144_S6553600x1_S6553600_n_0_0_1.resultIdx? (ix1 m) idx = some (ix1 i)
      ↔ (idx (ix2 m (0 : Fin 1))).toInt = (i.val : ℤ) := by
  unfold ScatterDims.resultIdx?
  simp only [start_eq, window_eq]
  constructor
  · intro h
    split at h
    · rename_i hh
      have h2 := congrArg Fin.val (congrFun (Option.some.inj h) (0 : Fin 1))
      have h4 := (hh 0).1
      change (_ + ((0 : ℕ) : ℤ)).toNat = i.val at h2
      omega
    · exact absurd h (by simp)
  · intro h
    rw [dif_pos]
    · congr 1
      funext a
      apply Fin.ext
      rw [ix1_val]
      show (_ + ((0 : ℕ) : ℤ)).toNat = i.val
      omega
    · intro a
      have ha : a = 0 := Subsingleton.elim _ _
      subst ha
      show 0 ≤ _ + ((0 : ℕ) : ℤ) ∧ _ + ((0 : ℕ) : ℤ) < ((144 : ℕ) : ℤ)
      have := i.isLt
      omega

/-! ## The offsets -/

/-- A label `l ≤ 8` plus `9c` (`c < 16`) does not wrap: its signed value is `9c + l`. -/
private theorem off_toInt (l : BitVec 32) (hl : l.toNat ≤ 8) (c : Fin 16) :
    (l + BitVec.ofNat 32 (9 * c.val)).toInt = ((9 * c.val + l.toNat : ℕ) : ℤ) := by
  have hc := c.isLt
  have h1 : (9 * c.val) % 2 ^ 32 = 9 * c.val := Nat.mod_eq_of_lt (by omega)
  have h2 : (l.toNat + 9 * c.val) % 2 ^ 32 = l.toNat + 9 * c.val := Nat.mod_eq_of_lt (by omega)
  have h3 : (l + BitVec.ofNat 32 (9 * c.val)).toNat = l.toNat + 9 * c.val := by
    rw [BitVec.toNat_add, BitVec.toNat_ofNat, h1, h2]
  rw [BitVec.toInt_eq_toNat_of_lt (by rw [h3]; omega), h3]
  omega

/-- A word is the word of a small number exactly when that number is its value. -/
private theorem eq_ofNat_iff (l : BitVec 32) (j : ℕ) (hj : j < 9) : l = BitVec.ofNat 32 j ↔ l.toNat = j := by
  rw [← BitVec.toNat_inj, BitVec.toNat_ofNat, Nat.mod_eq_of_lt (by omega)]

/-- Entry `9b + j` of the scatter-add into zeros: the sum of the value over the pixels of image `b` labelled `j`. -/
theorem scatter_seg (L : SLab.Idx → BitVec 32) (hL : LabelsOK L)
    (x : FVec Ideal S144 .f32) (hx : ∀ i, x i = 0)
    (idx : IVec S6553600x1 32)
    (hidx : ∀ (b : Fin 16) (p : Fin 409600),
      idx (ix2 (⟨409600 * b.val + p.val, by have := b.isLt; have := p.isLt; omega⟩ : Fin 6553600) (0 : Fin 1))
        = labAt L b p + BitVec.ofNat 32 (9 * b.val))
    (upd : FVec Ideal S6553600 .f32) (val : Fin 16 → Fin 409600 → EReal)
    (hupd : ∀ (b : Fin 16) (p : Fin 409600),
      upd (ix1 (⟨409600 * b.val + p.val, by have := b.isLt; have := p.isLt; omega⟩ : Fin 6553600)) = val b p)
    (b : Fin 16) (j : Fin 9) :
    Host.scatterAdd (F := Ideal) scatter_S144_S6553600x1_S6553600_n_0_0_1 x idx upd
        (ix1 (⟨9 * b.val + j.val, by have := b.isLt; have := j.isLt; omega⟩ : Fin 144))
      = seg L b j.val (val b) := by
  have hlab : ∀ (c : Fin 16) (p : Fin 409600), (labAt L c p).toNat ≤ 8 := fun c p => hL _
  show x _ + ∑ n ∈ Finset.univ.filter (fun n => scatter_S144_S6553600x1_S6553600_n_0_0_1.resultIdx? n idx = some _), upd n = _
  rw [hx, zero_add, Finset.sum_filter, Cert.LibSums.sum_idx1]
  simp only [resultIdx?_eq]
  rw [Cert.Spec.sum_images]
  simp only [hidx, hupd]
  have hb := b.isLt
  have hj := j.isLt
  rw [Finset.sum_eq_single b]
  · unfold seg
    refine Finset.sum_congr rfl fun p _ => ?_
    have hp := hlab b p
    rw [off_toInt _ hp]
    refine if_congr ?_ rfl rfl
    rw [eq_ofNat_iff _ _ hj]
    constructor
    · intro h
      have := Int.ofNat.inj h
      omega
    · intro h
      rw [h]
  · intro c _ hc
    refine Finset.sum_eq_zero fun p _ => ?_
    have hp := hlab c p
    have hc' := c.isLt
    rw [off_toInt _ hp, if_neg]
    intro h
    have h' := Int.ofNat.inj h
    apply hc
    apply Fin.ext
    omega
  · intro h
    exact absurd (Finset.mem_univ b) h

end Cert.ReferenceIdeal.Val

end
-- ==== Proof.Ref.Val.lean ====
/-
  The idealized reference's result.  The reference flattens each image, forms the pixel energies, scatter-adds
  five per-pixel values into 144 = 16 · 9 segments (offset 9·image + label), applies the per-instance loss to the
  five 144-vectors (with the bit "id ≥ 1" from iota mod 9) and sums.  With both label maps in 0 … 8, read off its run:
  the result buffer holds the loss `Cert.Spec.total` of the three argument arrays, and the arguments end as launched.

  The road: the reference's value is named piece by piece (`refOut`: the index tables, the energy vector, the five
  scatter-adds, the loss on 144-vectors, the final sum); the fold of the operations at the result buffer is that
  term; each piece is read at an index (a flat pixel `409600·b + p` is pixel `p` of image `b`, row `p / 640`,
  column `p % 640`; the index table there is the label plus the word `9·b`; the energy there is the sum of the four
  squared channels); the scatter-adds are then the segment sums of the specification, the remainder chain on
  `iota mod 9` is decided on its 144 words, and the final sum is the double sum over (image, instance).
-/
import proofs.«401348_j19258633355266_3_alg».proof.Proof.Ref.Run
import proofs.«401348_j19258633355266_3_alg».proof.Proof.Ref.Scatter
import Idealize.ShloMosaic.Lib.StableHlo.Run
import Idealize.ShloMosaic.Lib.ValueLayout
import Idealize.ShloMosaic.Lib.IdealHost

noncomputable section

namespace Cert.ReferenceIdeal.Val

open Idealize.ShloMosaic Idealize.ShloMosaic.TcCoe Idealize.ShloMosaic.ValueIdx Idealize.SL.Sem
open scoped BigOperators
open Cert.ReferenceIdeal Cert.ReferenceIdeal.Gen Cert.Spec

/-! ## The reference's value, named piece by piece -/

section Terms

variable {F : FTy → Type} [FloatOps F]

/-- The offset `9 · image` of each pixel's segment, laid over all pixels of all images. -/
def offs : IVec S16x409600 32 :=
  broadcastInDim S16x409600 ![0, 1] bcast_S16x1_S16x409600_0_1
    (broadcastInDim S16x1 ![0] bcast_S16_S16x1_0
      (muli (iotaInDim S16 32 0) (broadcastInDim S16 ![] bcast_S_S16 (constantI S_ 32 9#32))))

/-- A label map with each image's pixels flattened. -/
def flatLab (L : IVec S16x640x640 32) : IVec S16x409600 32 :=
  shapeCast S16x409600 L shapeCasts_S16x640x640_S16x409600

/-- The segment `9 · image + label` of every pixel, as the scatter's index table. -/
def segIdx (L : IVec S16x640x640 32) : IVec S6553600x1 32 :=
  broadcastInDim S6553600x1 ![0] bcast_S6553600_S6553600x1_0
    (shapeCast S6553600 (addi (flatLab L) offs) shapeCasts_S16x409600_S6553600)

/-- The channel energy of every pixel, flattened over images and pixels. -/
def energyVec (a0 : FVec F S16x4x640x640 .f32) : FVec F S6553600 .f32 :=
  shapeCast S6553600
    (Host.reduceAdd
      (mulf (shapeCast S16x4x409600 a0 shapeCasts_S16x4x640x640_S16x4x409600)
        (shapeCast S16x4x409600 a0 shapeCasts_S16x4x640x640_S16x4x409600))
      (constant S_ .f32 0x00000000#32) reducesTo_S16x4x409600_S16x409600_d1 h_S_)
    shapeCasts_S16x409600_S6553600

/-- The energy where the two label maps agree, zero elsewhere. -/
def overlapVec (a0 : FVec F S16x4x640x640 .f32) (T K : IVec S16x640x640 32) : FVec F S6553600 .f32 :=
  select (shapeCast S6553600 (cmpi .eq (flatLab T) (flatLab K)) shapeCasts_S16x409600_S6553600) (energyVec a0)
    (broadcastInDim S6553600 ![] bcast_S_S6553600 (constant S_ .f32 0x00000000#32))

/-- The float word 1.0 at every pixel. -/
def onesVec : FVec F S6553600 .f32 :=
  broadcastInDim S6553600 ![] bcast_S_S6553600 (constant S_ .f32 0x3F800000#32)

/-- A scatter-add of per-pixel values into 144 zeros. -/
def scat (idx : IVec S6553600x1 32) (upd : FVec F S6553600 .f32) : FVec F S144 .f32 :=
  Host.scatterAdd scatter_S144_S6553600x1_S6553600_n_0_0_1
    (broadcastInDim S144 ![] bcast_S_S144 (constant S_ .f32 0x00000000#32)) idx upd

/-- The divisor of the remainder: 9, guarded against zero as the outlined function does. -/
def remDiv : IVec S_ 32 :=
  select (cmpi .eq (constantI S_ 32 9#32) (constantI S_ 32 0#32)) (constantI S_ 32 1#32) (constantI S_ 32 9#32)

/-- The truncated remainder of the segment number by 9. -/
def remTrunc : IVec S144 32 :=
  Host.remsi (iotaInDim S144 32 0) (broadcastInDim S144 ![] bcast_S_S144 remDiv)

/-- The remainder with the sign of the divisor (the outlined function's fix-up). -/
def remFloor : IVec S144 32 :=
  select
    (andi
      (cmpi .ne
        (cmpi .slt remTrunc (broadcastInDim S144 ![] bcast_S_S144 (constantI S_ 32 0#32)))
        (broadcastInDim S144 ![] bcast_S_S144 (cmpi .slt remDiv (constantI S_ 32 0#32))))
      (cmpi .ne remTrunc (broadcastInDim S144 ![] bcast_S_S144 (constantI S_ 32 0#32))))
    (addi remTrunc (broadcastInDim S144 ![] bcast_S_S144 remDiv))
    remTrunc

/-- Whether the instance number of a segment is at least 1. -/
def ge1Vec : IVec S144 1 :=
  cmpi .sge remFloor (broadcastInDim S144 ![] bcast_S_S144 (constantI S_ 32 1#32))

/-- The reference's result as a function of its three live arguments. -/
def refOut (a0 : FVec F S16x4x640x640 .f32) (T K : IVec S16x640x640 32) : FVec F S_ .f32 :=
  Host.reduceAdd
    (lossVec S144 bcast_S_S144 (scat (segIdx T) (energyVec a0)) (scat (segIdx K) (energyVec a0))
      (scat (segIdx K) (overlapVec a0 T K)) (scat (segIdx T) onesVec) (scat (segIdx K) onesVec) ge1Vec)
    (constant S_ .f32 0x00000000#32) reducesTo_S144_S_d0 h_S_

end Terms

/-! ## The run read at the result and at the arguments -/

section Read

variable {F : FTy → Type} [FloatOps F]
open Idealize.ShloMosaic.StableHlo Cert.ReferenceIdeal.RefRun

set_option maxHeartbeats 4000000 in
/-- The fold of the 126 operations at the result buffer is `refOut` of the launch contents of the three live arguments:
    each operation's result rewritten at its own buffer and skipped at every other, and what is left is the same
    chain of array operations as `refOut`'s definitions unfolded (an outlined `where` is an identity conversion,
    a broadcast and a select). -/
theorem v71_eq (V : Valuation τ sig (Elt F)) :
    after ops V (main_v71 : DevRef τ sig)
      = refOut (V (main_arg0 : DevRef τ sig)) (V (main_arg3 : DevRef τ sig)) (V (main_arg4 : DevRef τ sig)) := by
  after_results_simp
  rfl

set_option maxHeartbeats 4000000 in
/-- No operation writes an argument: each keeps its launch contents. -/
theorem arg0_eq (V : Valuation τ sig (Elt F)) : after ops V (main_arg0 : DevRef τ sig) = V (main_arg0 : DevRef τ sig) := by
  after_results_simp
set_option maxHeartbeats 4000000 in
theorem arg1_eq (V : Valuation τ sig (Elt F)) : after ops V (main_arg1 : DevRef τ sig) = V (main_arg1 : DevRef τ sig) := by
  after_results_simp
set_option maxHeartbeats 4000000 in
theorem arg2_eq (V : Valuation τ sig (Elt F)) : after ops V (main_arg2 : DevRef τ sig) = V (main_arg2 : DevRef τ sig) := by
  after_results_simp
set_option maxHeartbeats 4000000 in
theorem arg3_eq (V : Valuation τ sig (Elt F)) : after ops V (main_arg3 : DevRef τ sig) = V (main_arg3 : DevRef τ sig) := by
  after_results_simp
set_option maxHeartbeats 4000000 in
theorem arg4_eq (V : Valuation τ sig (Elt F)) : after ops V (main_arg4 : DevRef τ sig) = V (main_arg4 : DevRef τ sig) := by
  after_results_simp

end Read

/-! ## The pieces read at an index, at the ideal values -/

section Pointwise

/-- Pixel `p` of image `b` among all 16 · 409600 pixels. -/
abbrev flatPix (b : Fin 16) (p : Fin 409600) : Fin 6553600 :=
  ⟨409600 * b.val + p.val, by have := b.isLt; have := p.isLt; omega⟩

/-- Instance `j` of image `b` among the 16 · 9 segments. -/
abbrev segOf (b : Fin 16) (j : Fin 9) : Fin 144 :=
  ⟨9 * b.val + j.val, by have := b.isLt; have := j.isLt; omega⟩

/-- The flattened label map at pixel `p` of image `b` is the label of that pixel. -/
theorem flatLab_apply (L : IVec S16x640x640 32) (b : Fin 16) (p : Fin 409600) :
    flatLab L (ix2 b p) = labAt L b p := by
  unfold flatLab labAt
  refine shapeCast_apply L _ _ _ ?_
  rw [Shape.rowMajor_val_three, Shape.rowMajor_val_two]
  show (b.val * 640 + p.val / 640) * 640 + p.val % 640 = b.val * 409600 + p.val
  omega

/-- The offset of a pixel of image `b` is the word `9 · b`. -/
theorem offs_apply (b : Fin 16) (p : Fin 409600) : offs (ix2 b p) = BitVec.ofNat 32 (9 * b.val) := by
  unfold offs
  refine (broadcastInDim_apply _ _ _ (ix2 b p) (ix2 b (0 : Fin 1))
    (fun a => by match a with | ⟨0, _⟩ => rfl | ⟨1, _⟩ => rfl)).trans ?_
  refine (broadcastInDim_apply _ _ _ (ix2 b (0 : Fin 1)) (ix1 b)
    (fun a => by match a with | ⟨0, _⟩ => rfl)).trans ?_
  show BitVec.ofNat 32 b.val * 9#32 = BitVec.ofNat 32 (9 * b.val)
  revert b; decide

/-- The index table at a pixel: its label plus `9 · image`. -/
theorem segIdx_apply (L : IVec S16x640x640 32) (b : Fin 16) (p : Fin 409600) :
    segIdx L (ix2 (flatPix b p) (0 : Fin 1)) = labAt L b p + BitVec.ofNat 32 (9 * b.val) := by
  unfold segIdx
  refine (broadcastInDim_apply _ _ _ (ix2 (flatPix b p) (0 : Fin 1)) (ix1 (flatPix b p))
    (fun a => by match a with | ⟨0, _⟩ => rfl)).trans ?_
  refine (shapeCast_apply _ _ (ix1 (flatPix b p)) (ix2 b p) (by
    rw [Shape.rowMajor_val_two, Shape.rowMajor_val_one]
    show b.val * 409600 + p.val = 409600 * b.val + p.val
    omega)).trans ?_
  show flatLab L (ix2 b p) + offs (ix2 b p) = _
  rw [flatLab_apply, offs_apply]

/-- The energy vector at a pixel is the sum of the squares of its four channels. -/
theorem energyVec_apply (a0 : FVec Ideal S16x4x640x640 .f32) (b : Fin 16) (p : Fin 409600) :
    energyVec a0 (ix1 (flatPix b p)) = energy a0 b p := by
  have hR : S16x4x409600.Reduces [1] S16x409600 := by decide
  unfold energyVec
  refine (shapeCast_apply _ _ (ix1 (flatPix b p)) (ix2 b p) (by
    rw [Shape.rowMajor_val_two, Shape.rowMajor_val_one]
    show b.val * 409600 + p.val = 409600 * b.val + p.val
    omega)).trans ?_
  rw [hostReduceAdd_apply, Ideal.hostReduceAdd_single reducesTo_S16x4x409600_S16x409600_d1 hR, constant_apply,
    Ideal.ofBits_zero_f32, zero_add]
  unfold energy
  show ∑ ch : Fin 4, mulf (shapeCast S16x4x409600 a0 shapeCasts_S16x4x640x640_S16x4x409600)
      (shapeCast S16x4x409600 a0 shapeCasts_S16x4x640x640_S16x4x409600) (hR.lift (ix2 b p) ch)
    = ∑ ch : Fin 4, predAt a0 b ch p * predAt a0 b ch p
  refine Finset.sum_congr rfl fun ch _ => ?_
  have hl : hR.lift (ix2 b p) ch = ix3 b ch p :=
    funext fun a => Fin.ext (by match a with | ⟨0, _⟩ => rfl | ⟨1, _⟩ => rfl | ⟨2, _⟩ => rfl)
  have e : shapeCast S16x4x409600 a0 shapeCasts_S16x4x640x640_S16x4x409600 (ix3 b ch p) = predAt a0 b ch p := by
    unfold predAt
    refine shapeCast_apply a0 _ _ _ ?_
    rw [Shape.rowMajor_val_four, Shape.rowMajor_val_three]
    show ((b.val * 4 + ch.val) * 640 + p.val / 640) * 640 + p.val % 640 = (b.val * 4 + ch.val) * 409600 + p.val
    omega
  rw [hl, mulf_apply, e]

/-- A select on a word equality is the `if` on that equality. -/
theorem select_cmpi_eq {α : Type} (x y : BitVec 32) (u v : α) :
    Scalar.select (IntOp.cmpi .eq x y) u v = if x = y then u else v := by
  have hc : IntOp.cmpi .eq x y = BitVec.ofBool (x == y) := rfl
  unfold Scalar.select
  rw [hc]
  by_cases h : x = y
  · rw [if_pos h, beq_iff_eq.mpr h]; rfl
  · rw [if_neg h, beq_eq_false_iff_ne.mpr h]; rfl

/-- The overlap vector at a pixel: the energy where the two labels agree, zero elsewhere. -/
theorem overlapVec_apply (a0 : FVec Ideal S16x4x640x640 .f32) (T K : IVec S16x640x640 32) (b : Fin 16) (p : Fin 409600) :
    overlapVec a0 T K (ix1 (flatPix b p)) = if labAt T b p = labAt K b p then energy a0 b p else 0 := by
  unfold overlapVec
  rw [select_apply, energyVec_apply, broadcastInDim_scalar_apply, constant_apply, Ideal.ofBits_zero_f32]
  rw [shapeCast_apply _ _ (ix1 (flatPix b p)) (ix2 b p) (by
    rw [Shape.rowMajor_val_two, Shape.rowMajor_val_one]
    show b.val * 409600 + p.val = 409600 * b.val + p.val
    omega)]
  show Scalar.select (IntOp.cmpi .eq (flatLab T (ix2 b p)) (flatLab K (ix2 b p))) _ _ = _
  rw [flatLab_apply, flatLab_apply, select_cmpi_eq]

/-- The vector of ones reads the float word 1.0 everywhere. -/
theorem onesVec_apply (i : S6553600.Idx) : onesVec (F := Ideal) i = one32 := by
  unfold onesVec one32
  rw [broadcastInDim_scalar_apply, constant_apply]

/-- The scatter's operand is zero everywhere. -/
theorem zeros_apply (i : S144.Idx) :
    broadcastInDim S144 ![] bcast_S_S144 (constant (F := Ideal) S_ .f32 0x00000000#32) i = 0 := by
  rw [broadcastInDim_scalar_apply, constant_apply, Ideal.ofBits_zero_f32]

/-- Entry `9b + j` of a scatter-add by a label map's segments: the sum of the value over image `b`'s pixels labelled `j`. -/
theorem scat_apply (L : IVec S16x640x640 32) (hL : LabelsOK L) (upd : FVec Ideal S6553600 .f32)
    (val : Fin 16 → Fin 409600 → EReal) (hupd : ∀ (b : Fin 16) (p : Fin 409600), upd (ix1 (flatPix b p)) = val b p)
    (b : Fin 16) (j : Fin 9) :
    scat (segIdx L) upd (ix1 (segOf b j)) = seg L b j.val (val b) :=
  scatter_seg L hL _ zeros_apply (segIdx L) (segIdx_apply L) upd val hupd b j

/-- The remainder chain on words: segment `9b + j` has instance number `j`, so the bit is "j ≥ 1". -/
theorem ge1Vec_apply : ∀ (b : Fin 16) (j : Fin 9), ge1Vec (ix1 (segOf b j)) = instGe1 j.val := by
  decide

/-- With both label maps in 0 … 8 the reference's term is the loss of the argument arrays. -/
theorem refOut_eq (a0 : FVec Ideal S16x4x640x640 .f32) (T K : IVec S16x640x640 32) (hT : LabelsOK T) (hK : LabelsOK K) :
    refOut a0 T K = fun _ => total a0 T K := by
  unfold refOut
  rw [reduce144]
  funext _
  unfold total
  refine Finset.sum_congr rfl fun b _ => Finset.sum_congr rfl fun j _ => ?_
  rw [lossVec_apply]
  rw [scat_apply T hT (energyVec a0) (fun b p => energy a0 b p) (energyVec_apply a0) b j,
    scat_apply K hK (energyVec a0) (fun b p => energy a0 b p) (energyVec_apply a0) b j,
    scat_apply K hK (overlapVec a0 T K) (fun b p => if labAt T b p = labAt K b p then energy a0 b p else 0)
      (overlapVec_apply a0 T K) b j,
    scat_apply T hT onesVec (fun _ _ => one32) (fun b p => onesVec_apply _) b j,
    scat_apply K hK onesVec (fun _ _ => one32) (fun b p => onesVec_apply _) b j,
    ge1Vec_apply b j]
  rfl

end Pointwise

/-- Every weakly fair execution of the idealized reference terminates with its result at the loss of the argument
    arrays and the arguments unchanged, when both label maps hold labels 0 … 8. -/
theorem result (m : (ℓ : Loc nD τ sig) → Buf (Elt Ideal) ℓ) (ρ : Dev nD → PrngReg)
    (hT : ∀ c : Dev nD, LabelsOK (m ((c.tc : Thread nD τ).loc main_arg3)))
    (hK : ∀ c : Dev nD, LabelsOK (m ((c.tc : Thread nD τ).loc main_arg4))) :
    θ_run (defs (F := Ideal)) (onTc (τ := τ) (main (F := Ideal))) ⟨m, fun _ => 0, ρ⟩ (fun r => ∀ c : Dev nD,
      r.2.mem ((c.tc : Thread nD τ).loc main_v71)
        = (fun _ => total (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono
    (fun _ h c =>
      ⟨((h c main_v71).trans (v71_eq _)).trans (refOut_eq _ _ _ (hT c) (hK c)),
        (h c main_arg0).trans (arg0_eq _), (h c main_arg1).trans (arg1_eq _), (h c main_arg2).trans (arg2_eq _),
        (h c main_arg3).trans (arg3_eq _), (h c main_arg4).trans (arg4_eq _)⟩)
    (RefRun.run (F := Ideal) m ρ)

end Cert.ReferenceIdeal.Val

end
-- ==== Proof.PreLabels.lean ====
/-
  The precondition read at the label maps: besides the finiteness of the three float inputs it says that every
  entry of either label map lies in 0 … 8 (two signed word compares per entry, conjoined over the whole array).
-/
import proofs.«401348_j19258633355266_3_alg».proof.Proof.Gen.Pre_finite_inputs
import proofs.«401348_j19258633355266_3_alg».proof.Proof.Spec
import Idealize.ShloMosaic.Lib.ReduceAll
import Idealize.ShloMosaic.Lib.StableHlo.Predicate

noncomputable section

namespace Cert.Proof

open Idealize.ShloMosaic Idealize.ShloMosaic.TcCoe Idealize.ShloMosaic.ValueIdx Idealize.SL.Sem
open scoped BigOperators
open Cert.Spec

/-- A word that is at least 0 and at most 8 as a signed integer is at most 8 as a natural number: a word whose
    top bit is set reads negative, so the lower bound excludes it, and below 2³¹ the two readings agree. -/
private theorem toNat_le_eight (x : BitVec 32) (h0 : IntOp.cmpi .sge x 0#32 = 1#1) (h8 : IntOp.cmpi .sle x 8#32 = 1#1) :
    x.toNat ≤ 8 := by
  rw [IntOp.cmpi_sge] at h0
  rw [IntOp.cmpi_sle] at h8
  have e0 : (0#32 : BitVec 32).toInt = 0 := by decide
  have e8 : (8#32 : BitVec 32).toInt = 8 := by decide
  rw [e0] at h0
  rw [e8] at h8
  rw [BitVec.toInt_eq_toNat_cond] at h0 h8
  split at h0 <;> omega

open Cert.Pre_finite_inputs in
/-- One label map's conjunct read back: when the conjunction, over the whole array, of the two signed compares
    "entry ≥ 0" and "entry ≤ 8" (each against a broadcast scalar) is 1, every entry is at most 8. -/
private theorem labelsOK_of_all (a : IVec S16x640x640 32) (hb : S_.BroadcastsInDim S16x640x640 (![] : Fin 0 → Fin S16x640x640.rank))
    (hr : S16x640x640.ReducesTo [0, 1, 2] S_) (h0 : 0 < S_.numel)
    (e : Host.reduce IntOp.andi
        (andi (cmpi .sge a (broadcastInDim S16x640x640 ![] hb (constantI S_ 32 0#32)))
          (cmpi .sle a (broadcastInDim S16x640x640 ![] hb (constantI S_ 32 8#32))))
        (constantI S_ 1 1#1) hr h0 ix0 = 1#1) : LabelsOK a := by
  intro i
  -- the scalar shape has one index, so the reduction over all axes gathers every entry
  haveI : Subsingleton S_.Idx := ⟨fun a b => funext fun d => d.elim0⟩
  -- the entry's own conjunct is 1, so both of its compares are
  have hi : IntOp.andi (IntOp.cmpi .sge (a i) (broadcastInDim S16x640x640 ![] hb (constantI S_ 32 0#32) i))
      (IntOp.cmpi .sle (a i) (broadcastInDim S16x640x640 ![] hb (constantI S_ 32 8#32) i)) = 1#1 :=
    Host.reduce_andi_all _ _ hr h0 ix0 e i
  obtain ⟨hge, hle⟩ := IntOp.andi_eq_one.mp hi
  -- the broadcast scalars read 0 and 8 at every entry
  rw [StableHlo.Predicate.bcast_scalar hb h0] at hge hle
  exact toNat_le_eight (a i) hge hle

/-- Under the precondition every label of both maps is one of 0 … 8. -/
theorem labels_of_pre [h : Cert.Pre_finite_inputs.Facts]
    (a0 : FVec Ideal Cert.Pre_finite_inputs.S16x4x640x640 .f32) (a1 a2 : FVec Ideal Cert.Pre_finite_inputs.S16x640x640 .f32)
    (a3 a4 : IVec Cert.Pre_finite_inputs.S16x640x640 32)
    (hp : Cert.Pre_finite_inputs.fn (F := Ideal) a0 a1 a2 a3 a4 = (fun _ => 1#1)) :
    LabelsOK a3 ∧ LabelsOK a4 := by
  -- the printed function at its one index: the conjunction of five whole-array conjunctions
  have e := congrFun hp ValueIdx.ix0
  dsimp only [Cert.Pre_finite_inputs.fn, Cert.Pre_finite_inputs.fn_part1] at e
  obtain ⟨e4, e5⟩ := IntOp.andi_eq_one.mp (e : IntOp.andi _ _ = 1#1)
  obtain ⟨-, e4⟩ := IntOp.andi_eq_one.mp (e4 : IntOp.andi _ _ = 1#1)
  exact ⟨labelsOK_of_all a3 _ _ _ e4, labelsOK_of_all a4 _ _ _ e5⟩

end Cert.Proof

end
-- ==== Proof.lean ====
/-
  The certificate's claim: the Pallas aggregation-loss kernel against its jnp reference, over the extended reals,
  for finite float inputs and label maps with labels 0 … 8.

  Both programs compute, per image b and instance id j, five sums over the image's pixels — the channel energy
  Σ_ch pred² over the pixels a label map marks j (for the text map: A, for the kernel map: Bk, on their overlap: D)
  and the two pixel counts — and then one pointwise loss of those five numbers, summed over the 16 · 9 pairs.
  The kernel forms the five sums tile by tile (eight tiles of 51200 pixels an image) as products of a one-hot
  matrix of the instance ids with the rows [energy, energy·same, 1], accumulated across the tiles; the reference
  scatter-adds the per-pixel values at offset 9·b + label into 144 segments.  With labels in 0 … 8 a pixel of image b
  lands in block b and nowhere else, a product with a one-hot bit is the value or zero, and a sum over the pixels
  is the sum over the tiles of the sums within a tile: so both programs' five statistics are the same sums
  (`Cert.Spec.kstat`), and both results are `Cert.Spec.total` of the three argument arrays.

  The three frames: each program runs to the end, faults nowhere and leaves its arguments as launched (the two
  kernel programs by the launch theorem for "host lines, one region, host lines" over the three runs of the body;
  the reference by its straight-line run).  No operation of the program was rewritten by the idealization, so
  `preserves` is trivial.
-/
import proofs.«401348_j19258633355266_3_alg».proof.Defs
import proofs.«401348_j19258633355266_3_alg».proof.Proof.Gen.Kernel
import proofs.«401348_j19258633355266_3_alg».proof.Proof.Gen.KernelIdeal
import proofs.«401348_j19258633355266_3_alg».proof.Proof.Gen.ReferenceIdeal
import proofs.«401348_j19258633355266_3_alg».proof.Proof.Gen.Pre_finite_inputs
import proofs.«401348_j19258633355266_3_alg».proof.Proof.K.Frame
import proofs.«401348_j19258633355266_3_alg».proof.Proof.KI.Frame
import proofs.«401348_j19258633355266_3_alg».proof.Proof.KI.TailVal
import proofs.«401348_j19258633355266_3_alg».proof.Proof.Ref.Val
import proofs.«401348_j19258633355266_3_alg».proof.Proof.PreLabels
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Fr.frame m ρ

theorem frame_ki [Cert.KernelIdeal.Facts] [Cert.Pre_finite_inputs.Facts] : Cert.frame_KernelIdeal :=
  fun m ρ _ => Cert.KernelIdeal.Fr.frame m ρ

/-- The reference's frame: under the precondition its label maps are in range, and its run leaves the arguments. -/
theorem frame_ri [Cert.ReferenceIdeal.Facts] [Cert.Pre_finite_inputs.Facts] : Cert.frame_ReferenceIdeal := by
  intro m ρ hpre
  have hl := fun c => labels_of_pre _ _ _ _ _ (hpre c)
  exact (θ_run Cert.ReferenceIdeal.defs _ _).mono (fun _ h c => (h c).2)
    (Cert.ReferenceIdeal.Val.result m ρ (fun c => (hl c).1) (fun c => (hl c).2))

/-- From memories agreeing on the arguments both idealized programs end with the same loss. -/
theorem algebraic [Cert.KernelIdeal.Facts] [Cert.ReferenceIdeal.Facts] [Cert.Pre_finite_inputs.Facts] :
    Cert.algebraic_KernelIdeal_ReferenceIdeal := by
  intro m ρ m' ρ' hpre hagree
  have hl := fun c => labels_of_pre _ _ _ _ _ (hpre c)
  refine ⟨_, Cert.KernelIdeal.Val.result m ρ, ?_⟩
  refine (θ_run Cert.ReferenceIdeal.defs _ _).mono (fun _ h c => ⟨(h c).1.trans ?_, (h c).2⟩)
    (Cert.ReferenceIdeal.Val.result m' ρ'
      (fun c => by rw [(hagree c).2.2.2.1]; exact (hl c).1) (fun c => by rw [(hagree c).2.2.2.2]; exact (hl c).2))
  rw [(hagree c).1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
